-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "fold_inv_74997" .f32 0x375FB485#32 ((1 / 74997 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x75000 : Shape := ⟨2, ![512, 75000]⟩
abbrev S512 : Shape := ⟨1, ![512]⟩
abbrev S_ : Shape := ⟨0, ![]⟩

class Facts : Prop where
  bcast_S_S512x75000 : S_.BroadcastsInDim S512x75000 (![] : Fin 0 → Fin S512x75000.rank)
  reducesTo_S512x75000_S_d0_1 : S512x75000.ReducesTo [0, 1] S_
  h_S_ : 0 < S_.numel
  bcast_S_S512 : S_.BroadcastsInDim S512 (![] : Fin 0 → Fin S512.rank)
  reducesTo_S512_S_d0 : S512.ReducesTo [0] S_

variable [Facts]

def fn_part1 {F : FTy → Type} [FloatOps F] (main_arg2 : IVec S512 32) (main_v15 : IVec S_ 1) : IVec S_ 1 :=
  let main_c_6 : IVec S_ 32 := constantI S_ 32 3#32
  let main_v16 : IVec S512 32 := broadcastInDim S512 ![] bcast_S_S512 main_c_6
  let main_v17 : IVec S512 1 := cmpi .slt main_arg2 main_v16
  let main_c_7 : IVec S_ 1 := constantI S_ 1 1#1
  let main_v18 : IVec S_ 1 := (fun x v => Host.reduce IntOp.andi x v reducesTo_S512_S_d0 h_S_) main_v17 main_c_7
  let main_v19 : IVec S_ 1 := andi main_v15 main_v18
  main_v19

def fn {F : FTy → Type} [FloatOps F] (main_arg0 : FVec F S512x75000 .f32) (main_arg1 : IVec S512 32) (main_arg2 : IVec S512 32) : IVec S_ 1 :=
  let main_v0 : FVec F S512x75000 .f32 := Host.absf main_arg0
  let main_cst : FVec F S_ .f32 := constant S_ .f32 0x7F800000#32
  let main_v1 : FVec F S512x75000 .f32 := broadcastInDim S512x75000 ![] bcast_S_S512x75000 main_cst
  let main_v2 : IVec S512x75000 1 := cmpf .olt main_v0 main_v1
  let main_c : IVec S_ 1 := constantI S_ 1 1#1
  let main_v3 : IVec S_ 1 := (fun x v => Host.reduce IntOp.andi x v reducesTo_S512x75000_S_d0_1 h_S_) main_v2 main_c
  let main_c_0 : IVec S_ 32 := constantI S_ 32 0#32
  let main_v4 : IVec S512 32 := broadcastInDim S512 ![] bcast_S_S512 main_c_0
  let main_v5 : IVec S512 1 := cmpi .sge main_arg1 main_v4
  let main_c_1 : IVec S_ 1 := constantI S_ 1 1#1
  let main_v6 : IVec S_ 1 := (fun x v => Host.reduce IntOp.andi x v reducesTo_S512_S_d0 h_S_) main_v5 main_c_1
  let main_v7 : IVec S_ 1 := andi main_v3 main_v6
  let main_c_2 : IVec S_ 32 := constantI S_ 32 25000#32
  let main_v8 : IVec S512 32 := broadcastInDim S512 ![] bcast_S_S512 main_c_2
  let main_v9 : IVec S512 1 := cmpi .slt main_arg1 main_v8
  let main_c_3 : IVec S_ 1 := constantI S_ 1 1#1
  let main_v10 : IVec S_ 1 := (fun x v => Host.reduce IntOp.andi x v reducesTo_S512_S_d0 h_S_) main_v9 main_c_3
  let main_v11 : IVec S_ 1 := andi main_v7 main_v10
  let main_c_4 : IVec S_ 32 := constantI S_ 32 0#32
  let main_v12 : IVec S512 32 := broadcastInDim S512 ![] bcast_S_S512 main_c_4
  let main_v13 : IVec S512 1 := cmpi .sge main_arg2 main_v12
  let main_c_5 : IVec S_ 1 := constantI S_ 1 1#1
  let main_v14 : IVec S_ 1 := (fun x v => Host.reduce IntOp.andi x v reducesTo_S512_S_d0 h_S_) main_v13 main_c_5
  let main_v15 : IVec S_ 1 := andi main_v11 main_v14
  fn_part1 (F := F) main_arg2 main_v15
-- ==== Kernel.lean ====
abbrev S512x75000 : Shape := ⟨2, ![512, 75000]⟩
abbrev S512 : Shape := ⟨1, ![512]⟩
abbrev S_ : Shape := ⟨0, ![]⟩
abbrev S3 : Shape := ⟨1, ![3]⟩
abbrev S512x1 : Shape := ⟨2, ![512, 1]⟩
abbrev S1x3 : Shape := ⟨2, ![1, 3]⟩
abbrev S512x3 : Shape := ⟨2, ![512, 3]⟩
abbrev S512x3x1 : Shape := ⟨3, ![512, 3, 1]⟩
abbrev S512x3x2 : Shape := ⟨3, ![512, 3, 2]⟩
abbrev S512x1x1 : Shape := ⟨3, ![512, 1, 1]⟩
abbrev S1 : Shape := ⟨1, ![1]⟩
abbrev S1x1x1 : Shape := ⟨3, ![1, 1, 1]⟩
abbrev S16x75000 : Shape := ⟨2, ![16, 75000]⟩
abbrev S16x3 : Shape := ⟨2, ![16, 3]⟩
abbrev S16x1 : Shape := ⟨2, ![16, 1]⟩
abbrev S16 : Shape := ⟨1, ![16]⟩

abbrev nBuf : Space → Nat
  | .hbm => 77
  | .vmem => 8
  | .smem => 0
  | _ => 0

abbrev bufTy : (tb : Table) → Fin (tcTables nBuf tb) → BufTy
  | .hbm, ⟨0, _⟩ => ⟨S512x75000, .f32⟩
  | .hbm, ⟨1, _⟩ => ⟨S512, .i32⟩
  | .hbm, ⟨2, _⟩ => ⟨S512, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S3, .i32⟩
  | .hbm, ⟨24, _⟩ => ⟨S512x1, .i32⟩
  | .hbm, ⟨25, _⟩ => ⟨S512x1, .i32⟩
  | .hbm, ⟨26, _⟩ => ⟨S1x3, .i32⟩
  | .hbm, ⟨27, _⟩ => ⟨S512x3, .i32⟩
  | .hbm, ⟨28, _⟩ => ⟨S512x3, .i32⟩
  | .hbm, ⟨29, _⟩ => ⟨S512x3, .i32⟩
  | .hbm, ⟨30, _⟩ => ⟨S_, .i32⟩
  | .hbm, ⟨31, _⟩ => ⟨S512x1, .i32⟩
  | .hbm, ⟨32, _⟩ => ⟨S512x1, .i1⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S512x1, .i32⟩
  | .hbm, ⟨37, _⟩ => ⟨S_, .i32⟩
  | .hbm, ⟨38, _⟩ => ⟨S512x3, .i32⟩
  | .hbm, ⟨39, _⟩ => ⟨S512x3, .i1⟩
  | .hbm, ⟨40, _⟩ => ⟨S_, .i32⟩
  | .hbm, ⟨41, _⟩ => ⟨S512x3, .i32⟩
  | .hbm, ⟨42, _⟩ => ⟨S512x3, .i32⟩
  | .hbm, ⟨43, _⟩ => ⟨S512x3, .i32⟩
  | .hbm, ⟨44, _⟩ => ⟨S512x3, .i32⟩
  | .hbm, ⟨45, _⟩ => ⟨S512x3x1, .i32⟩
  | .hbm, ⟨46, _⟩ => ⟨S512x3x1, .i32⟩
  | .hbm, ⟨47, _⟩ => ⟨S512x3x2, .i32⟩
  | .hbm, ⟨48, _⟩ => ⟨S512x3, .f32⟩
  | .hbm, ⟨49, _⟩ => ⟨S512x1, .i32⟩
  | .hbm, ⟨50, _⟩ => ⟨S_, .i32⟩
  | .hbm, ⟨51, _⟩ => ⟨S512x1, .i32⟩
  | .hbm, ⟨52, _⟩ => ⟨S512x1, .i1⟩
  | .hbm, ⟨53, _⟩ => ⟨S_, .i32⟩
  | .hbm, ⟨54, _⟩ => ⟨S512x1, .i32⟩
  | .hbm, ⟨55, _⟩ => ⟨S512x1, .i32⟩
  | .hbm, ⟨56, _⟩ => ⟨S512x1, .i32⟩
  | .hbm, ⟨57, _⟩ => ⟨S512x1x1, .i32⟩
  | .hbm, ⟨58, _⟩ => ⟨S1, .i32⟩
  | .hbm, ⟨59, _⟩ => ⟨S_, .i32⟩
  | .hbm, ⟨60, _⟩ => ⟨S512x1x1, .i32⟩
  | .hbm, ⟨61, _⟩ => ⟨S512x1x1, .i1⟩
  | .hbm, ⟨62, _⟩ => ⟨S1x1x1, .i32⟩
  | .hbm, ⟨63, _⟩ => ⟨S512x1x1, .i32⟩
  | .hbm, ⟨64, _⟩ => ⟨S512x1x1, .i1⟩
  | .hbm, ⟨65, _⟩ => ⟨S512x1x1, .i1⟩
  | .hbm, ⟨66, _⟩ => ⟨S_, .i1⟩
  | .hbm, ⟨67, _⟩ => ⟨S512x1, .i1⟩
  | .hbm, ⟨68, _⟩ => ⟨S512x1, .f32⟩
  | .hbm, ⟨69, _⟩ => ⟨S_, .f32⟩
  | .hbm, ⟨70, _⟩ => ⟨S512x1, .f32⟩
  | .hbm, ⟨71, _⟩ => ⟨S512x1, .f32⟩
  | .hbm, ⟨72, _⟩ => ⟨S512x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S16x75000, .f32⟩
  | .local _ .vmem, ⟨1, _⟩ => ⟨S16x75000, .f32⟩
  | .local _ .vmem, ⟨2, _⟩ => ⟨S16x3, .f32⟩
  | .local _ .vmem, ⟨3, _⟩ => ⟨S16x3, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | _, _ => ⟨S512x75000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_c_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v1 : Ref sig .tc := ⟨.hbm, 18, rfl⟩
abbrev main_c_3 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_6 : Ref sig .tc := ⟨.hbm, 37, rfl⟩
abbrev main_v17 : Ref sig .tc := ⟨.hbm, 38, rfl⟩
abbrev main_v18 : Ref sig .tc := ⟨.hbm, 39, rfl⟩
abbrev main_c_7 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v28 : Ref sig .tc := ⟨.hbm, 71, rfl⟩
abbrev main_v29 : Ref sig .tc := ⟨.hbm, 72, rfl⟩
abbrev main_cst : Ref sig .tc := ⟨.hbm, 73, rfl⟩
abbrev main_v30 : Ref sig .tc := ⟨.hbm, 74, rfl⟩
abbrev main_cst_8 : Ref sig .tc := ⟨.hbm, 75, rfl⟩
abbrev main_v31 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x75000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S3_S1x3_1 : S3.BroadcastsInDim S1x3 (![1] : Fin 1 → Fin S1x3.rank)
  bcast_S512x1_S512x3_0_1 : S512x1.BroadcastsInDim S512x3 (![0, 1] : Fin 2 → Fin S512x3.rank)
  bcast_S1x3_S512x3_0_1 : S1x3.BroadcastsInDim S512x3 (![0, 1] : Fin 2 → Fin S512x3.rank)
  bcast_S_S512x1 : S_.BroadcastsInDim S512x1 (![] : Fin 0 → Fin S512x1.rank)
  bcast_S_S512x3 : S_.BroadcastsInDim S512x3 (![] : Fin 0 → Fin S512x3.rank)
  bcast_S512x3_S512x3x1_0_1 : S512x3.BroadcastsInDim S512x3x1 (![0, 1] : Fin 2 → Fin S512x3x1.rank)
  concatenates_S512x3x1_S512x3x1_S512x3x2_d2 : Shape.Concatenates [S512x3x1, S512x3x1] S512x3x2 2
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  h_S_ : 0 < S_.numel
  inb_S16x75000_S16x75000_0_0 : ∀ a, (![0, 0] : Fin 2 → Nat) a + S16x75000.size a ≤ S16x75000.size a
  h_S16x75000 : 0 < S16x75000.numel
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reduces_S16x75000_S16 : S16x75000.Reduces [1] S16
  shapeCasts_S16_S16x1 : S16.ShapeCasts S16x1
  broadcasts_S16x1_S16x75000 : S16x1.Broadcasts S16x75000
  reduces_S16x3_S16 : S16x3.Reduces [1] S16
  broadcasts_S16x1_S16x3 : S16x1.Broadcasts S16x3
  reducesTo_S512x1_S_d0_1 : S512x1.ReducesTo [0, 1] S_
  gather_S512x75000_S512x3x2_S512x3_n_01_n_n_01_2_11_wf : GatherDims.WF S512x75000 S512x3x2 S512x3 [] [0, 1] [] [0, 1] [] 2 ![1, 1]
  gather_S512x3_S512x1x1_S512x1_n_1_0_0_1_2_11_wf : GatherDims.WF S512x3 S512x1x1 S512x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x75000.size a ≤ S512x75000.size a
  hwx0_0 : ∀ i : grid0.Coords, EltTy.bits .f32 = 32 ∨ (Rect.block (s := S512x75000) S16x75000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3.size a ≤ S512x3.size a
  hwx0_1 : ∀ i : grid0.Coords, EltTy.bits .f32 = 32 ∨ (Rect.block (s := S512x3) S16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .f32 = 32 ∨ (Rect.block (s := S512x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S512x1.size a
  hwx0_3 : ∀ i : grid0.Coords, EltTy.bits .f32 = 32 ∨ (Rect.block (s := S512x1) S16x1.size (cc0_transform_3 i) (hinb0_3 i)).WholeWords (EltTy.packing .f32)

variable [Facts₀]

def gather_S512x75000_S512x3x2_S512x3_n_01_n_n_01_2_11 : GatherDims S512x75000 S512x3x2 S512x3 where
  offsetDims := []
  collapsedSliceDims := [0, 1]
  operandBatchingDims := []
  startIndicesBatchingDims := []
  startIndexMap := [0, 1]
  indexVectorDim := 2
  sliceSizes := ![1, 1]
  wf := gather_S512x75000_S512x3x2_S512x3_n_01_n_n_01_2_11_wf
def gather_S512x3_S512x1x1_S512x1_n_1_0_0_1_2_11 : GatherDims S512x3 S512x1x1 S512x1 where
  offsetDims := []
  collapsedSliceDims := [1]
  operandBatchingDims := [0]
  startIndicesBatchingDims := [0]
  startIndexMap := [1]
  indexVectorDim := 2
  sliceSizes := ![1, 1]
  wf := gather_S512x3_S512x1x1_S512x1_n_1_0_0_1_2_11_wf

abbrev win0_0 : Pipeline.Window sig grid0 :=
  Pipeline.Window.ofSpec (Memref.whole main_arg0) S16x75000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x75000 : Shape := ⟨2, ![512, 75000]⟩
abbrev S512 : Shape := ⟨1, ![512]⟩
abbrev S_ : Shape := ⟨0, ![]⟩
abbrev S512x1 : Shape := ⟨2, ![512, 1]⟩
abbrev S3 : Shape := ⟨1, ![3]⟩
abbrev S1x3 : Shape := ⟨2, ![1, 3]⟩
abbrev S512x3 : Shape := ⟨2, ![512, 3]⟩
abbrev S512x3x1 : Shape := ⟨3, ![512, 3, 1]⟩
abbrev S512x3x2 : Shape := ⟨3, ![512, 3, 2]⟩
abbrev S512x2 : Shape := ⟨2, ![512, 2]⟩
abbrev S75000 : Shape := ⟨1, ![75000]⟩

abbrev nBuf : Space → Nat
  | .hbm => 155
  | .vmem => 0
  | .smem => 0
  | _ => 0

abbrev hbmTy0_0 (i : Nat) : BufTy := match i % 128 with
  | 0 => ⟨S512x75000, .f32⟩
  | 1 => ⟨S512, .i32⟩
  | 2 => ⟨S512, .i32⟩
  | 3 => ⟨S_, .f32⟩
  | 4 => ⟨S512, .f32⟩
  | 5 => ⟨S_, .f32⟩
  | 6 => ⟨S512, .f32⟩
  | 7 => ⟨S512, .f32⟩
  | 8 => ⟨S512x1, .f32⟩
  | 9 => ⟨S512x75000, .f32⟩
  | 10 => ⟨S512x75000, .f32⟩
  | 11 => ⟨S512x75000, .f32⟩
  | 12 => ⟨S_, .f32⟩
  | 13 => ⟨S512, .f32⟩
  | 14 => ⟨S512x1, .f32⟩
  | 15 => ⟨S512x1, .f32⟩
  | 16 => ⟨S512x75000, .f32⟩
  | 17 => ⟨S512x75000, .f32⟩
  | 18 => ⟨S512x75000, .f32⟩
  | 19 => ⟨S512, .i32⟩
  | 20 => ⟨S_, .i32⟩
  | 21 => ⟨S512, .i32⟩
  | 22 => ⟨S512, .i32⟩
  | 23 => ⟨S3, .i32⟩
  | 24 => ⟨S512x1, .i32⟩
  | 25 => ⟨S512x1, .i32⟩
  | 26 => ⟨S1x3, .i32⟩
  | 27 => ⟨S512x3, .i32⟩
  | 28 => ⟨S512x3, .i32⟩
  | 29 => ⟨S512x3, .i32⟩
  | 30 => ⟨S_, .i32⟩
  | 31 => ⟨S512x1, .i32⟩
  | 32 => ⟨S512x1, .i1⟩
  | 33 => ⟨S_, .i32⟩
  | 34 => ⟨S512x1, .i32⟩
  | 35 => ⟨S512x1, .i32⟩
  | 36 => ⟨S512x1, .i32⟩
  | 37 => ⟨S_, .i32⟩
  | 38 => ⟨S512x3, .i32⟩
  | 39 => ⟨S512x3, .i1⟩
  | 40 => ⟨S_, .i32⟩
  | 41 => ⟨S512x3, .i32⟩
  | 42 => ⟨S512x3, .i32⟩
  | 43 => ⟨S512x3, .i32⟩
  | 44 => ⟨S512x3, .i32⟩
  | 45 => ⟨S512x3x1, .i32⟩
  | 46 => ⟨S512x3x1, .i32⟩
  | 47 => ⟨S512x3x2, .i32⟩
  | 48 => ⟨S512x3, .f32⟩
  | 49 => ⟨S_, .f32⟩
  | 50 => ⟨S512, .f32⟩
  | 51 => ⟨S_, .f32⟩
  | 52 => ⟨S512, .f32⟩
  | 53 => ⟨S512, .f32⟩
  | 54 => ⟨S_, .f32⟩
  | 55 => ⟨S512, .f32⟩
  | 56 => ⟨S512, .f32⟩
  | 57 => ⟨S512, .i32⟩
  | 58 => ⟨S_, .i32⟩
  | 59 => ⟨S512, .i32⟩
  | 60 => ⟨S512, .i1⟩
  | 61 => ⟨S_, .i32⟩
  | 62 => ⟨S512, .i32⟩
  | 63 => ⟨S512, .i32⟩
  | 64 => ⟨S512, .i32⟩
  | 65 => ⟨S_, .i32⟩
  | 66 => ⟨S512, .i32⟩
  | 67 => ⟨S512, .i1⟩
  | 68 => ⟨S_, .i32⟩
  | 69 => ⟨S512, .i32⟩
  | 70 => ⟨S512, .i32⟩
  | 71 => ⟨S512, .i32⟩
  | 72 => ⟨S512x1, .i32⟩
  | 73 => ⟨S512x1, .i32⟩
  | 74 => ⟨S512x2, .i32⟩
  | 75 => ⟨S512, .f32⟩
  | 76 => ⟨S_, .f32⟩
  | 77 => ⟨S512, .f32⟩
  | 78 => ⟨S512, .f32⟩
  | 79 => ⟨S_, .f32⟩
  | 80 => ⟨S512, .f32⟩
  | 81 => ⟨S512, .f32⟩
  | 82 => ⟨S_, .f32⟩
  | 83 => ⟨S512, .f32⟩
  | 84 => ⟨S512, .f32⟩
  | 85 => ⟨S512x1, .f32⟩
  | 86 => ⟨S512x75000, .f32⟩
  | 87 => ⟨S512x1, .i32⟩
  | 88 => ⟨S512x1, .i32⟩
  | 89 => ⟨S1x3, .i32⟩
  | 90 => ⟨S512x3, .i32⟩
  | 91 => ⟨S512x3, .i32⟩
  | 92 => ⟨S512x3, .i32⟩
  | 93 => ⟨S_, .f32⟩
  | 94 => ⟨S512, .f32⟩
  | 95 => ⟨S512, .f32⟩
  | 96 => ⟨S512x1, .f32⟩
  | 97 => ⟨S_, .i32⟩
  | 98 => ⟨S512x1, .i32⟩
  | 99 => ⟨S512x1, .i1⟩
  | 100 => ⟨S_, .i32⟩
  | 101 => ⟨S512x1, .i32⟩
  | 102 => ⟨S512x1, .i32⟩
  | 103 => ⟨S512x1, .i32⟩
  | 104 => ⟨S_, .i32⟩
  | 105 => ⟨S512x3, .i32⟩
  | 106 => ⟨S512x3, .i1⟩
  | 107 => ⟨S_, .i32⟩
  | 108 => ⟨S512x3, .i32⟩
  | 109 => ⟨S512x3, .i32⟩
  | 110 => ⟨S512x3, .i32⟩
  | 111 => ⟨S512x3, .i32⟩
  | 112 => ⟨S512x3x1, .i32⟩
  | 113 => ⟨S512x3x1, .i32⟩
  | 114 => ⟨S512x3x2, .i32⟩
  | 115 => ⟨S512x3, .f32⟩
  | 116 => ⟨S512x75000, .f32⟩
  | 117 => ⟨S512, .i32⟩
  | 118 => ⟨S_, .f32⟩
  | 119 => ⟨S512, .f32⟩
  | 120 => ⟨S512, .f32⟩
  | 121 => ⟨S512, .f32⟩
  | 122 => ⟨S_, .i32⟩
  | 123 => ⟨S512, .i32⟩
  | 124 => ⟨S512, .i1⟩
  | 125 => ⟨S_, .i32⟩
  | 126 => ⟨S512, .i32⟩
  | 127 => ⟨S512, .i32⟩
  | _ => ⟨S512x75000, .f32⟩

abbrev hbmTy0_1 (i : Nat) : BufTy := match i % 128 with
  | 0 => ⟨S512, .i32⟩
  | 1 => ⟨S_, .i32⟩
  | 2 => ⟨S512, .i32⟩
  | 3 => ⟨S512, .i1⟩
  | 4 => ⟨S_, .i32⟩
  | 5 => ⟨S512, .i32⟩
  | 6 => ⟨S512, .i32⟩
  | 7 => ⟨S512, .i32⟩
  | 8 => ⟨S512x1, .i32⟩
  | 9 => ⟨S512x1, .i32⟩
  | 10 => ⟨S512x2, .i32⟩
  | 11 => ⟨S512x75000, .f32⟩
  | 12 => ⟨S_, .f32⟩
  | 13 => ⟨S512x75000, .f32⟩
  | 14 => ⟨S512x75000, .f32⟩
  | 15 => ⟨S_, .f32⟩
  | 16 => ⟨S512x75000, .f32⟩
  | 17 => ⟨S512x75000, .f32⟩
  | 18 => ⟨S512x75000, .f32⟩
  | 19 => ⟨S512x75000, .f32⟩
  | 20 => ⟨S_, .f32⟩
  | 21 => ⟨S75000, .f32⟩
  | 22 => ⟨S_, .f32⟩
  | 23 => ⟨S75000, .f32⟩
  | 24 => ⟨S75000, .f32⟩
  | 25 => ⟨S_, .f32⟩
  | 26 => ⟨S_, .f32⟩
  | _ => ⟨S512x75000, .f32⟩

abbrev hbmTy (i : Nat) : BufTy := match i / 128 with
  | 0 => hbmTy0_0 i
  | 1 => hbmTy0_1 i
  | _ => ⟨S512x75000, .f32⟩

abbrev bufTy : (tb : Table) → Fin (tcTables nBuf tb) → BufTy
  | .hbm, ⟨i, _⟩ => hbmTy i
  | _, _ => ⟨S512x75000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_c_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_c_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_19 : Ref sig .tc := ⟨.hbm, 122, rfl⟩
abbrev main_v84 : Ref sig .tc := ⟨.hbm, 123, rfl⟩
abbrev main_v85 : Ref sig .tc := ⟨.hbm, 124, rfl⟩
abbrev main_c_20 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_21 : Ref sig .tc := ⟨.hbm, 129, rfl⟩
abbrev main_v89 : Ref sig .tc := ⟨.hbm, 130, rfl⟩
abbrev main_v90 : Ref sig .tc := ⟨.hbm, 131, rfl⟩
abbrev main_c_22 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_23 : Ref sig .tc := ⟨.hbm, 140, rfl⟩
abbrev main_v98 : Ref sig .tc := ⟨.hbm, 141, rfl⟩
abbrev main_v99 : Ref sig .tc := ⟨.hbm, 142, rfl⟩
abbrev main_cst_24 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_25 : Ref sig .tc := ⟨.hbm, 148, rfl⟩
abbrev main_v104 : Ref sig .tc := ⟨.hbm, 149, rfl⟩
abbrev main_cst_26 : Ref sig .tc := ⟨.hbm, 150, rfl⟩
abbrev main_v105 : Ref sig .tc := ⟨.hbm, 151, rfl⟩
abbrev main_v106 : Ref sig .tc := ⟨.hbm, 152, rfl⟩
abbrev main_cst_27 : Ref sig .tc := ⟨.hbm, 153, rfl⟩
abbrev main_v107 : Ref sig .tc := ⟨.hbm, 154, rfl⟩

abbrev nD : Nat := 1
abbrev τ : Topo := Topo.v7x

variable {F : FTy → Type} [FloatOps F]

class Facts₀ : Prop where
  reducesTo_S512x75000_S512_d1 : S512x75000.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x75000_0_1 : S512x1.BroadcastsInDim S512x75000 (![0, 1] : Fin 2 → Fin S512x75000.rank)
  bcast_S3_S1x3_1 : S3.BroadcastsInDim S1x3 (![1] : Fin 1 → Fin S1x3.rank)
  bcast_S512x1_S512x3_0_1 : S512x1.BroadcastsInDim S512x3 (![0, 1] : Fin 2 → Fin S512x3.rank)
  bcast_S1x3_S512x3_0_1 : S1x3.BroadcastsInDim S512x3 (![0, 1] : Fin 2 → Fin S512x3.rank)
  bcast_S_S512x1 : S_.BroadcastsInDim S512x1 (![] : Fin 0 → Fin S512x1.rank)
  bcast_S_S512x3 : S_.BroadcastsInDim S512x3 (![] : Fin 0 → Fin S512x3.rank)
  bcast_S512x3_S512x3x1_0_1 : S512x3.BroadcastsInDim S512x3x1 (![0, 1] : Fin 2 → Fin S512x3x1.rank)
  concatenates_S512x3x1_S512x3x1_S512x3x2_d2 : Shape.Concatenates [S512x3x1, S512x3x1] S512x3x2 2
  reducesTo_S512x3_S512_d1 : S512x3.ReducesTo [1] S512
  concatenates_S512x1_S512x1_S512x2_d1 : Shape.Concatenates [S512x1, S512x1] S512x2 1
  bcast_S_S512x75000 : S_.BroadcastsInDim S512x75000 (![] : Fin 0 → Fin S512x75000.rank)
  reducesTo_S512x75000_S75000_d0 : S512x75000.ReducesTo [0] S75000
  bcast_S_S75000 : S_.BroadcastsInDim S75000 (![] : Fin 0 → Fin S75000.rank)
  reducesTo_S75000_S_d0 : S75000.ReducesTo [0] S_
  gather_S512x75000_S512x3x2_S512x3_n_01_n_n_01_2_11_wf : GatherDims.WF S512x75000 S512x3x2 S512x3 [] [0, 1] [] [0, 1] [] 2 ![1, 1]
  gather_S512x75000_S512x2_S512_n_01_n_n_01_1_11_wf : GatherDims.WF S512x75000 S512x2 S512 [] [0, 1] [] [0, 1] [] 1 ![1, 1]
  scatter_S512x75000_S512x3x2_S512x3_n_01_01_2_wf : ScatterDims.WF S512x75000 S512x3x2 S512x3 [] [0, 1] [0, 1] 2
  scatter_S512x75000_S512x2_S512_n_01_01_1_wf : ScatterDims.WF S512x75000 S512x2 S512 [] [0, 1] [0, 1] 1

variable [Facts₀]

def gather_S512x75000_S512x3x2_S512x3_n_01_n_n_01_2_11 : GatherDims S512x75000 S512x3x2 S512x3 where
  offsetDims := []
  collapsedSliceDims := [0, 1]
  operandBatchingDims := []
  startIndicesBatchingDims := []
  startIndexMap := [0, 1]
  indexVectorDim := 2
  sliceSizes := ![1, 1]
  wf := gather_S512x75000_S512x3x2_S512x3_n_01_n_n_01_2_11_wf
def gather_S512x75000_S512x2_S512_n_01_n_n_01_1_11 : GatherDims S512x75000 S512x2 S512 where
  offsetDims := []
  collapsedSliceDims := [0, 1]
  operandBatchingDims := []
  startIndicesBatchingDims := []
  startIndexMap := [0, 1]
  indexVectorDim := 1
  sliceSizes := ![1, 1]
  wf := gather_S512x75000_S512x2_S512_n_01_n_n_01_1_11_wf
def scatter_S512x75000_S512x3x2_S512x3_n_01_01_2 : ScatterDims S512x75000 S512x3x2 S512x3 where
  updateWindowDims := []
  insertedWindowDims := [0, 1]
  scatterDimsToOperandDims := [0, 1]
  indexVectorDim := 2
  wf := scatter_S512x75000_S512x3x2_S512x3_n_01_01_2_wf
def scatter_S512x75000_S512x2_S512_n_01_01_1 : ScatterDims S512x75000 S512x2 S512 where
  updateWindowDims := []
  insertedWindowDims := [0, 1]
  scatterDimsToOperandDims := [0, 1]
  indexVectorDim := 1
  wf := scatter_S512x75000_S512x2_S512_n_01_01_1_wf

class Facts : Prop extends Facts₀ where

variable [Facts]
-- ==== Proof.Spec.lean ====
/-
  The mathematics both programs compute, stated once over the extended reals, with no program in sight.

  A row of logits `x : Fin 75000 → EReal` is shifted by a number `m` (each program takes the row's maximum; the
  value of the loss does not depend on it), `s = ∑ exp (x k - m)` and `L = log s`.  The label-smoothing target of a
  row puts mass `ep1 / 74997` on every class outside the sample's group of three classes, `ep2 / 2` on the two
  group classes that are not the true class, and `1 - ep1 - ep2` on the true class, where
  `ep1 = α (1 - P(group))` and `ep2 = α (1 - P(true))` under the softmax `P`.

  `kRow` is the row loss in the closed form that needs only the row sums (the streaming program), `rF` the
  class-by-class summand (the reference), `kRes` / `rRes` the two batch means.
-/
import Idealize.ShloMosaic.PureOps.Ideal

noncomputable section

open scoped BigOperators

namespace Cert.Spec

open Idealize.ShloMosaic

/-! ## The float words both programs spell, as extended reals -/

abbrev c0 : EReal := Ideal.ofBits .f32 0x00000000#32      -- 0
abbrev c1 : EReal := Ideal.ofBits .f32 0x3F800000#32      -- 1
abbrev cAlpha : EReal := Ideal.ofBits .f32 0x3E4CCCCD#32  -- the f32 nearest 0.2
abbrev cHalf : EReal := Ideal.ofBits .f32 0x3F000000#32   -- 1/2
abbrev c3 : EReal := Ideal.ofBits .f32 0x40400000#32      -- 3
abbrev cK : EReal := Ideal.ofBits .f32 0x47927C00#32      -- 75000
abbrev cD : EReal := Ideal.ofBits .f32 0x47927A80#32      -- 74997
abbrev c09 : EReal := Ideal.ofBits .f32 0x3F666666#32     -- the f32 nearest 0.9
abbrev cNeg09 : EReal := Ideal.ofBits .f32 0xBF666666#32  -- its negative
abbrev cEK : EReal := Ideal.ofBits .f32 0x35B2F4FC#32     -- the f32 nearest 0.1 / 75000
abbrev c512 : EReal := Ideal.ofBits .f32 0x44000000#32    -- 512
/-- The reciprocal of the number of classes outside a group, exactly. -/
abbrev cInvD : EReal := ((1 / 74997 : ℝ) : EReal)

/-- A row's maximum, as both programs fold it: `max` from `-∞` over the row. -/
def rowMax (x : Fin 75000 → EReal) : EReal := (Finset.univ : Finset (Fin 75000)).fold max ⊥ x

/-! ## The streaming form: one row's loss from the row's sums -/

/-- `∑ exp (x k - m)`. -/
def kS (x : Fin 75000 → EReal) (m : EReal) : EReal := ∑ k : Fin 75000, Ideal.exp (x k - m)

/-- `∑ log-probabilities` of a row: `∑ (x k - m) - 75000 · log s`. -/
def kSumLp (x : Fin 75000 → EReal) (m : EReal) : EReal :=
  (∑ k : Fin 75000, (x k - m)) - cK * Ideal.log (kS x m)

/-- One row's loss, from the row `x`, the shift `m`, the three group logits `gx` and the true-class logit `xt`. -/
def kRow (x : Fin 75000 → EReal) (m : EReal) (gx : Fin 3 → EReal) (xt : EReal) : EReal :=
  let L := Ideal.log (kS x m)
  let inv := Ideal.div c1 (kS x m)
  let ep1 := cAlpha * (c1 - (∑ j : Fin 3, Ideal.exp (gx j - m)) * inv)
  let ep2 := cAlpha * (c1 - Ideal.exp (xt - m) * inv)
  let sumGrpLp := (∑ j : Fin 3, gx j) - c3 * (m + L)
  let lpTrue := xt - m - L
  cNeg09 * ((ep1 * cInvD) * (kSumLp x m - sumGrpLp) + (cHalf * ep2) * (sumGrpLp - lpTrue) + (c1 - ep1 - ep2) * lpTrue)
    - cEK * kSumLp x m

/-- The batch mean of the row losses. `X b` is row `b`, `g b j` the column of group member `j`, `tr b` the true column. -/
def kRes (X : Fin 512 → Fin 75000 → EReal) (g : Fin 512 → Fin 3 → Fin 75000) (tr : Fin 512 → Fin 75000) : EReal :=
  Ideal.div (c0 + ∑ b : Fin 512, kRow (X b) (rowMax (X b)) (fun j => X b (g b j)) (X b (tr b))) c512

/-! ## The class-by-class form -/

/-- The log-probability of class `k`. -/
def rLp (x : Fin 75000 → EReal) (m : EReal) (k : Fin 75000) : EReal :=
  (x k - m) - Ideal.log (c0 + ∑ k' : Fin 75000, Ideal.exp (x k' - m))

/-- The probability of class `k`. -/
def rP (x : Fin 75000 → EReal) (m : EReal) (k : Fin 75000) : EReal := Ideal.exp (rLp x m k)

def rEp1 (x : Fin 75000 → EReal) (m : EReal) (g : Fin 3 → Fin 75000) : EReal :=
  cAlpha * (c1 - (c0 + ∑ j : Fin 3, rP x m (g j)))

def rEp2 (x : Fin 75000 → EReal) (m : EReal) (tr : Fin 75000) : EReal :=
  cAlpha * (c1 - rP x m tr)

/-- The smoothed target of class `k`. -/
def rT (x : Fin 75000 → EReal) (m : EReal) (g : Fin 3 → Fin 75000) (tr : Fin 75000) (k : Fin 75000) : EReal :=
  if k = tr then (c1 - rEp1 x m g) - rEp2 x m tr
  else if ∃ j, k = g j then cHalf * rEp2 x m tr
  else Ideal.div (rEp1 x m g) cD

/-- Class `k`'s summand of the row's loss. -/
def rF (x : Fin 75000 → EReal) (m : EReal) (g : Fin 3 → Fin 75000) (tr : Fin 75000) (k : Fin 75000) : EReal :=
  (-(c09 * rT x m g tr k + cEK)) * rLp x m k

/-- The reference's result: per class the batch mean, then the sum over the classes. -/
def rRes (X : Fin 512 → Fin 75000 → EReal) (g : Fin 512 → Fin 3 → Fin 75000) (tr : Fin 512 → Fin 75000) : EReal :=
  c0 + ∑ k : Fin 75000, Ideal.div (c0 + ∑ b : Fin 512, rF (X b) (rowMax (X b)) (g b) (tr b) k) c512

/-! ## Columns from the integer inputs -/

/-- The column of group member `j` of the sample whose group number is the word `p`: `3 p + j`. -/
def grpCol (p : BitVec 32) (j : Fin 3) : Fin 75000 := ⟨(3 * p.toNat + j.val) % 75000, Nat.mod_lt _ (by decide)⟩

/-- The true column: `3 p + v`. -/
def trCol (p v : BitVec 32) : Fin 75000 := ⟨(3 * p.toNat + v.toNat) % 75000, Nat.mod_lt _ (by decide)⟩

end Cert.Spec

end
-- ==== Proof.RefIdx.lean ====
/-
  The reference's integer tables read at an index: the (row, column) pairs its two gathers and two scatters use.
  With group numbers in [0, 25000) and member numbers in [0, 3) no product wraps and no index is negative, so the
  pair of sample b and member j is (b, 3 p_b + j) and the true pair is (b, 3 p_b + v_b).
-/
import proofs.«408677_j82240033784032_3_alg».proof.Proof.RefRead
import proofs.«408677_j82240033784032_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Idx

open Idealize.ShloMosaic Idealize.ShloMosaic.ValueIdx Cert.ReferenceIdeal Cert.ReferenceIdeal.ReadP

/-- Row `b` of the logits, its maximum, the group's columns and the true column, as the specification names them. -/
abbrev row (x : (⟨S512x75000, .f32⟩ : BufTy).Contents (Elt Ideal)) (b : Fin 512) : Fin 75000 → EReal := fun k => x (ix2 b k)
abbrev rmax (x : (⟨S512x75000, .f32⟩ : BufTy).Contents (Elt Ideal)) (b : Fin 512) : EReal := Cert.Spec.rowMax (row x b)
abbrev gcol (p : (⟨S512, .i32⟩ : BufTy).Contents (Elt Ideal)) (b : Fin 512) : Fin 3 → Fin 75000 := Cert.Spec.grpCol (p (ix1 b))
abbrev tcol (p v : (⟨S512, .i32⟩ : BufTy).Contents (Elt Ideal)) (b : Fin 512) : Fin 75000 := Cert.Spec.trCol (p (ix1 b)) (v (ix1 b))

/-! ## Words: small numbers read signed, and the wrap-a-negative-index select on a non-negative word -/

/-- A number below 2³¹, as a 32-bit word read signed, is itself. -/
private theorem toInt_ofNat_of_lt (n : Nat) (h : n < 2 ^ 31) : (BitVec.ofNat 32 n).toInt = (n : Int) := by
  have e := BitVec.toInt_eq_toNat_cond (BitVec.ofNat 32 n)
  have hn : (BitVec.ofNat 32 n).toNat = n := by rw [BitVec.toNat_ofNat]; exact Nat.mod_eq_of_lt (by omega)
  rw [hn] at e
  split at e <;> omega

/-- "If x < 0 then x + c else x" on a word whose signed reading is not negative is the word. -/
private theorem select_slt_zero (x c : BitVec 32) (h : 0 ≤ x.toInt) :
    Scalar.select (IntOp.cmpi .slt x 0#32) (IntOp.addi x c) x = x := by
  have h0 : (0#32 : BitVec 32).toInt = 0 := by decide
  have hf : x.slt 0#32 = false := by
    rw [Bool.eq_false_iff]
    intro hs
    have := BitVec.slt_iff_toInt_lt.mp hs
    omega
  have hc : IntOp.cmpi .slt x 0#32 = 0#1 := by
    show BitVec.ofBool (x.slt 0#32) = 0#1
    rw [hf]; rfl
  rw [hc, select_zero]

/-- A word whose signed reading lies in [0, k) has that reading as its natural value. -/
private theorem toNat_of_toInt_range (x : BitVec 32) (k : Nat) (hk : k ≤ 2 ^ 31) (h0 : 0 ≤ x.toInt) (h1 : x.toInt < k) :
    x.toNat < k := by
  have e := BitVec.toInt_eq_toNat_cond x
  have := x.isLt
  split at e <;> omega

/-- With 0 ≤ x < 25000 and y < 3 the word 3 x + y does not wrap: its natural value and its signed reading are 3 x + y. -/
private theorem col_word (x y : BitVec 32) (hx : x.toNat < 25000) (hy : y.toNat < 3) :
    (IntOp.addi (IntOp.muli x 3#32) y).toInt = ((3 * x.toNat + y.toNat : Nat) : Int) := by
  have h3 : (3#32 : BitVec 32).toNat = 3 := by decide
  have hn : (x * 3#32 + y).toNat = 3 * x.toNat + y.toNat := by
    rw [BitVec.toNat_add, BitVec.toNat_mul, h3]; omega
  have e := BitVec.toInt_eq_toNat_cond (x * 3#32 + y)
  rw [hn] at e
  show (x * 3#32 + y).toInt = _
  split at e <;> omega

/-- The first gather's table: entry (b, j, 0) is the row number b. -/
theorem tab25_row (p : (⟨S512, .i32⟩ : BufTy).Contents (Elt Ideal)) (b : Fin 512) (j : Fin 3) :
    (val_main_v25 (F := Ideal) p (ix3 b j (0 : Fin 2))).toInt = (b.val : Int) := by
  have hc := concatenate_pair_apply_left (t := S512x3x2) (s₁ := S512x3x1) (s₂ := S512x3x1) 2 (val_main_v23 (F := Ideal))
    (val_main_v24 (F := Ideal) p) Gen.concatenates_S512x3x1_S512x3x1_S512x3x2_d2 (ix3 b j (0 : Fin 2)) rfl (ix3 b j (0 : Fin 1))
    (fun c => by match c with | ⟨0, _⟩ => rfl | ⟨1, _⟩ => rfl | ⟨2, _⟩ => rfl)
  unfold val_main_v25
  rw [hc, val_main_v23_apply, val_main_v22_apply, val_main_v16_apply, val_main_v13_apply, val_main_v15_apply, val_main_v6_apply,
    val_main_v12_apply, val_main_v14_apply, val_main_c_0_apply, val_main_c_1_apply, val_main_v2_apply]
  show (Scalar.select (IntOp.cmpi .slt (BitVec.ofNat 32 b.val) 0#32) (IntOp.addi (BitVec.ofNat 32 b.val) 512#32)
    (BitVec.ofNat 32 b.val)).toInt = (b.val : Int)
  have hb := toInt_ofNat_of_lt b.val (by omega)
  rw [select_slt_zero _ _ (by omega), hb]
/-- … and entry (b, j, 1) the column 3 p_b + j. -/
theorem tab25_col (p : (⟨S512, .i32⟩ : BufTy).Contents (Elt Ideal)) (hp : ∀ i, 0 ≤ (p i).toInt ∧ (p i).toInt < 25000) (b : Fin 512) (j : Fin 3) :
    (val_main_v25 (F := Ideal) p (ix3 b j (1 : Fin 2))).toInt = ((3 * (p (ix1 b)).toNat + j.val : Nat) : Int) := by
  have hc := concatenate_pair_apply_right (t := S512x3x2) (s₁ := S512x3x1) (s₂ := S512x3x1) 2 (val_main_v23 (F := Ideal))
    (val_main_v24 (F := Ideal) p) Gen.concatenates_S512x3x1_S512x3x1_S512x3x2_d2 (ix3 b j (1 : Fin 2)) rfl rfl (ix3 b j (0 : Fin 1))
    (fun c hne => by
      match c with
      | ⟨0, _⟩ => rfl
      | ⟨1, _⟩ => rfl
      | ⟨2, _⟩ => exact absurd rfl hne)
    rfl
  unfold val_main_v25
  rw [hc, val_main_v24_apply, val_main_v21_apply, val_main_v18_apply, val_main_v20_apply, val_main_v17_apply, val_main_v19_apply,
    val_main_c_2_apply, val_main_c_3_apply, val_main_v11_apply, val_main_v9_apply, val_main_v7_apply, val_main_v4_apply,
    val_main_v3_apply, val_main_c_apply, val_main_v10_apply, val_main_v8_apply, val_main_v5_apply]
  have e1 : idx_main_v7 (idx_main_v9 (idx_main_v24 (ix3 b j (0 : Fin 1)))) = ix1 b :=
    funext fun a => Fin.ext (by match a with | ⟨0, _⟩ => rfl)
  rw [e1]
  show (Scalar.select (IntOp.cmpi .slt (IntOp.addi (IntOp.muli (p (ix1 b)) 3#32) (BitVec.ofNat 32 j.val)) 0#32)
    (IntOp.addi (IntOp.addi (IntOp.muli (p (ix1 b)) 3#32) (BitVec.ofNat 32 j.val)) 75000#32)
    (IntOp.addi (IntOp.muli (p (ix1 b)) 3#32) (BitVec.ofNat 32 j.val))).toInt = _
  have hx := toNat_of_toInt_range (p (ix1 b)) 25000 (by omega) (hp _).1 (hp _).2
  have hj : (BitVec.ofNat 32 j.val).toNat = j.val := by rw [BitVec.toNat_ofNat]; exact Nat.mod_eq_of_lt (by omega)
  have hw := col_word (p (ix1 b)) (BitVec.ofNat 32 j.val) hx (by omega)
  rw [select_slt_zero _ _ (by rw [hw]; omega), hw, hj]
/-- The first scatter's table is the same table, computed again. -/
theorem tab77_row (p : (⟨S512, .i32⟩ : BufTy).Contents (Elt Ideal)) (b : Fin 512) (j : Fin 3) :
    (val_main_v77 (F := Ideal) p (ix3 b j (0 : Fin 2))).toInt = (b.val : Int) := by
  have hc := concatenate_pair_apply_left (t := S512x3x2) (s₁ := S512x3x1) (s₂ := S512x3x1) 2 (val_main_v75 (F := Ideal))
    (val_main_v76 (F := Ideal) p) Gen.concatenates_S512x3x1_S512x3x1_S512x3x2_d2 (ix3 b j (0 : Fin 2)) rfl (ix3 b j (0 : Fin 1))
    (fun c => by match c with | ⟨0, _⟩ => rfl | ⟨1, _⟩ => rfl | ⟨2, _⟩ => rfl)
  unfold val_main_v77
  rw [hc, val_main_v75_apply, val_main_v74_apply, val_main_v68_apply, val_main_v65_apply, val_main_v67_apply, val_main_v55_apply,
    val_main_v64_apply, val_main_v66_apply, val_main_c_14_apply, val_main_c_15_apply, val_main_v2_apply]
  show (Scalar.select (IntOp.cmpi .slt (BitVec.ofNat 32 b.val) 0#32) (IntOp.addi (BitVec.ofNat 32 b.val) 512#32)
    (BitVec.ofNat 32 b.val)).toInt = (b.val : Int)
  have hb := toInt_ofNat_of_lt b.val (by omega)
  rw [select_slt_zero _ _ (by omega), hb]
theorem tab77_col (p : (⟨S512, .i32⟩ : BufTy).Contents (Elt Ideal)) (hp : ∀ i, 0 ≤ (p i).toInt ∧ (p i).toInt < 25000) (b : Fin 512) (j : Fin 3) :
    (val_main_v77 (F := Ideal) p (ix3 b j (1 : Fin 2))).toInt = ((3 * (p (ix1 b)).toNat + j.val : Nat) : Int) := by
  have hc := concatenate_pair_apply_right (t := S512x3x2) (s₁ := S512x3x1) (s₂ := S512x3x1) 2 (val_main_v75 (F := Ideal))
    (val_main_v76 (F := Ideal) p) Gen.concatenates_S512x3x1_S512x3x1_S512x3x2_d2 (ix3 b j (1 : Fin 2)) rfl rfl (ix3 b j (0 : Fin 1))
    (fun c hne => by
      match c with
      | ⟨0, _⟩ => rfl
      | ⟨1, _⟩ => rfl
      | ⟨2, _⟩ => exact absurd rfl hne)
    rfl
  unfold val_main_v77
  rw [hc, val_main_v76_apply, val_main_v73_apply, val_main_v70_apply, val_main_v72_apply, val_main_v69_apply, val_main_v71_apply,
    val_main_c_16_apply, val_main_c_17_apply, val_main_v60_apply, val_main_v58_apply, val_main_v56_apply, val_main_v4_apply,
    val_main_v3_apply, val_main_c_apply, val_main_v59_apply, val_main_v57_apply, val_main_v5_apply]
  have e1 : idx_main_v56 (idx_main_v58 (idx_main_v76 (ix3 b j (0 : Fin 1)))) = ix1 b :=
    funext fun a => Fin.ext (by match a with | ⟨0, _⟩ => rfl)
  rw [e1]
  show (Scalar.select (IntOp.cmpi .slt (IntOp.addi (IntOp.muli (p (ix1 b)) 3#32) (BitVec.ofNat 32 j.val)) 0#32)
    (IntOp.addi (IntOp.addi (IntOp.muli (p (ix1 b)) 3#32) (BitVec.ofNat 32 j.val)) 75000#32)
    (IntOp.addi (IntOp.muli (p (ix1 b)) 3#32) (BitVec.ofNat 32 j.val))).toInt = _
  have hx := toNat_of_toInt_range (p (ix1 b)) 25000 (by omega) (hp _).1 (hp _).2
  have hj : (BitVec.ofNat 32 j.val).toNat = j.val := by rw [BitVec.toNat_ofNat]; exact Nat.mod_eq_of_lt (by omega)
  have hw := col_word (p (ix1 b)) (BitVec.ofNat 32 j.val) hx (by omega)
  rw [select_slt_zero _ _ (by rw [hw]; omega), hw, hj]
/-- The second gather's table: entry (b, 0) is b, entry (b, 1) the true column 3 p_b + v_b. -/
theorem tab45_row (p v : (⟨S512, .i32⟩ : BufTy).Contents (Elt Ideal)) (b : Fin 512) :
    (val_main_v45 (F := Ideal) p v (ix2 b (0 : Fin 2))).toInt = (b.val : Int) := by
  have hc := concatenate_pair_apply_left (t := S512x2) (s₁ := S512x1) (s₂ := S512x1) 1 (val_main_v43 (F := Ideal))
    (val_main_v44 (F := Ideal) p v) Gen.concatenates_S512x1_S512x1_S512x2_d1 (ix2 b (0 : Fin 2)) rfl (ix2 b (0 : Fin 1))
    (fun c => by match c with | ⟨0, _⟩ => rfl | ⟨1, _⟩ => rfl)
  unfold val_main_v45
  rw [hc, val_main_v43_apply, val_main_v37_apply, val_main_v34_apply, val_main_v36_apply, val_main_v33_apply, val_main_v35_apply,
    val_main_c_6_apply, val_main_c_7_apply, val_main_v2_apply]
  show (Scalar.select (IntOp.cmpi .slt (BitVec.ofNat 32 b.val) 0#32) (IntOp.addi (BitVec.ofNat 32 b.val) 512#32)
    (BitVec.ofNat 32 b.val)).toInt = (b.val : Int)
  have hb := toInt_ofNat_of_lt b.val (by omega)
  rw [select_slt_zero _ _ (by omega), hb]
theorem tab45_col (p v : (⟨S512, .i32⟩ : BufTy).Contents (Elt Ideal)) (hp : ∀ i, 0 ≤ (p i).toInt ∧ (p i).toInt < 25000) (hv : ∀ i, 0 ≤ (v i).toInt ∧ (v i).toInt < 3) (b : Fin 512) :
    (val_main_v45 (F := Ideal) p v (ix2 b (1 : Fin 2))).toInt = ((3 * (p (ix1 b)).toNat + (v (ix1 b)).toNat : Nat) : Int) := by
  have hc := concatenate_pair_apply_right (t := S512x2) (s₁ := S512x1) (s₂ := S512x1) 1 (val_main_v43 (F := Ideal))
    (val_main_v44 (F := Ideal) p v) Gen.concatenates_S512x1_S512x1_S512x2_d1 (ix2 b (1 : Fin 2)) rfl rfl (ix2 b (0 : Fin 1))
    (fun c hne => by
      match c with
      | ⟨0, _⟩ => rfl
      | ⟨1, _⟩ => exact absurd rfl hne)
    rfl
  unfold val_main_v45
  rw [hc, val_main_v44_apply, val_main_v42_apply, val_main_v39_apply, val_main_v41_apply, val_main_v38_apply, val_main_v40_apply,
    val_main_c_8_apply, val_main_c_9_apply, val_main_v32_apply, val_main_v4_apply, val_main_v3_apply, val_main_c_apply]
  have e1 : idx_main_v44 (ix2 b (0 : Fin 1)) = ix1 b :=
    funext fun a => Fin.ext (by match a with | ⟨0, _⟩ => rfl)
  rw [e1]
  show (Scalar.select (IntOp.cmpi .slt (IntOp.addi (IntOp.muli (p (ix1 b)) 3#32) (v (ix1 b))) 0#32)
    (IntOp.addi (IntOp.addi (IntOp.muli (p (ix1 b)) 3#32) (v (ix1 b))) 75000#32)
    (IntOp.addi (IntOp.muli (p (ix1 b)) 3#32) (v (ix1 b)))).toInt = _
  have hx := toNat_of_toInt_range (p (ix1 b)) 25000 (by omega) (hp _).1 (hp _).2
  have hy := toNat_of_toInt_range (v (ix1 b)) 3 (by omega) (hv _).1 (hv _).2
  have hw := col_word (p (ix1 b)) (v (ix1 b)) hx hy
  rw [select_slt_zero _ _ (by rw [hw]; omega), hw]
/-- The second scatter's table is that table, computed again. -/
theorem tab96_row (p v : (⟨S512, .i32⟩ : BufTy).Contents (Elt Ideal)) (b : Fin 512) :
    (val_main_v96 (F := Ideal) p v (ix2 b (0 : Fin 2))).toInt = (b.val : Int) := by
  have hc := concatenate_pair_apply_left (t := S512x2) (s₁ := S512x1) (s₂ := S512x1) 1 (val_main_v94 (F := Ideal))
    (val_main_v95 (F := Ideal) p v) Gen.concatenates_S512x1_S512x1_S512x2_d1 (ix2 b (0 : Fin 2)) rfl (ix2 b (0 : Fin 1))
    (fun c => by match c with | ⟨0, _⟩ => rfl | ⟨1, _⟩ => rfl)
  unfold val_main_v96
  rw [hc, val_main_v94_apply, val_main_v88_apply, val_main_v85_apply, val_main_v87_apply, val_main_v84_apply, val_main_v86_apply,
    val_main_c_19_apply, val_main_c_20_apply, val_main_v2_apply]
  show (Scalar.select (IntOp.cmpi .slt (BitVec.ofNat 32 b.val) 0#32) (IntOp.addi (BitVec.ofNat 32 b.val) 512#32)
    (BitVec.ofNat 32 b.val)).toInt = (b.val : Int)
  have hb := toInt_ofNat_of_lt b.val (by omega)
  rw [select_slt_zero _ _ (by omega), hb]
theorem tab96_col (p v : (⟨S512, .i32⟩ : BufTy).Contents (Elt Ideal)) (hp : ∀ i, 0 ≤ (p i).toInt ∧ (p i).toInt < 25000) (hv : ∀ i, 0 ≤ (v i).toInt ∧ (v i).toInt < 3) (b : Fin 512) :
    (val_main_v96 (F := Ideal) p v (ix2 b (1 : Fin 2))).toInt = ((3 * (p (ix1 b)).toNat + (v (ix1 b)).toNat : Nat) : Int) := by
  have hc := concatenate_pair_apply_right (t := S512x2) (s₁ := S512x1) (s₂ := S512x1) 1 (val_main_v94 (F := Ideal))
    (val_main_v95 (F := Ideal) p v) Gen.concatenates_S512x1_S512x1_S512x2_d1 (ix2 b (1 : Fin 2)) rfl rfl (ix2 b (0 : Fin 1))
    (fun c hne => by
      match c with
      | ⟨0, _⟩ => rfl
      | ⟨1, _⟩ => exact absurd rfl hne)
    rfl
  unfold val_main_v96
  rw [hc, val_main_v95_apply, val_main_v93_apply, val_main_v90_apply, val_main_v92_apply, val_main_v89_apply, val_main_v91_apply,
    val_main_c_21_apply, val_main_c_22_apply, val_main_v80_apply, val_main_v4_apply, val_main_v3_apply, val_main_c_apply]
  have e1 : idx_main_v95 (ix2 b (0 : Fin 1)) = ix1 b :=
    funext fun a => Fin.ext (by match a with | ⟨0, _⟩ => rfl)
  rw [e1]
  show (Scalar.select (IntOp.cmpi .slt (IntOp.addi (IntOp.muli (p (ix1 b)) 3#32) (v (ix1 b))) 0#32)
    (IntOp.addi (IntOp.addi (IntOp.muli (p (ix1 b)) 3#32) (v (ix1 b))) 75000#32)
    (IntOp.addi (IntOp.muli (p (ix1 b)) 3#32) (v (ix1 b)))).toInt = _
  have hx := toNat_of_toInt_range (p (ix1 b)) 25000 (by omega) (hp _).1 (hp _).2
  have hy := toNat_of_toInt_range (v (ix1 b)) 3 (by omega) (hv _).1 (hv _).2
  have hw := col_word (p (ix1 b)) (v (ix1 b)) hx hy
  rw [select_slt_zero _ _ (by rw [hw]; omega), hw]

end Cert.ReferenceIdeal.Idx

end
-- ==== Proof.Consts.lean ====
/-
  The float words this certificate's programs spell, as the extended reals they denote: evaluated here once, so that
  no other module opens the decoding of a bit pattern.
-/
import proofs.«408677_j82240033784032_3_alg».proof.Proof.Spec

noncomputable section

namespace Cert.Consts

open Idealize.ShloMosaic Cert.Spec

theorem c0_eq : c0 = 0 := by simp [Ideal.ofBits, Ideal.ieee]
theorem c1_eq : c1 = ((1 : ℝ) : EReal) := by simp [Ideal.ofBits, Ideal.ieee, -EReal.coe_mul]; norm_num
theorem c3_eq : c3 = ((3 : ℝ) : EReal) := by simp [Ideal.ofBits, Ideal.ieee, -EReal.coe_mul]; norm_num
theorem cHalf_eq : cHalf = ((1 / 2 : ℝ) : EReal) := by simp [Ideal.ofBits, Ideal.ieee, -EReal.coe_mul]; norm_num
theorem cK_eq : cK = ((75000 : ℝ) : EReal) := by simp [Ideal.ofBits, Ideal.ieee, -EReal.coe_mul]; norm_num
theorem cD_eq : cD = ((74997 : ℝ) : EReal) := by simp [Ideal.ofBits, Ideal.ieee, -EReal.coe_mul]; norm_num
theorem c512_eq : c512 = ((512 : ℝ) : EReal) := by simp [Ideal.ofBits, Ideal.ieee, -EReal.coe_mul]; norm_num
theorem cAlpha_eq : cAlpha = ((13421773 / 67108864 : ℝ) : EReal) := by simp [Ideal.ofBits, Ideal.ieee, -EReal.coe_mul]; norm_num
theorem c09_eq : c09 = ((15099494 / 16777216 : ℝ) : EReal) := by simp [Ideal.ofBits, Ideal.ieee, -EReal.coe_mul]; norm_num
theorem cNeg09_eq : cNeg09 = ((-(15099494 / 16777216) : ℝ) : EReal) := by simp [Ideal.ofBits, Ideal.ieee, -EReal.coe_mul]; norm_num
theorem cEK_eq : cEK = ((11728124 / 8796093022208 : ℝ) : EReal) := by simp [Ideal.ofBits, Ideal.ieee, -EReal.coe_mul]; norm_num
/-- The pattern of `-∞`. -/
theorem negInf_eq : Ideal.ofBits .f32 0xFF800000#32 = (⊥ : EReal) := by simp [Ideal.ofBits, Ideal.ieee]
/-- The pattern of `+∞`. -/
theorem posInf_eq : Ideal.ofBits .f32 0x7F800000#32 = (⊤ : EReal) := by simp [Ideal.ofBits, Ideal.ieee]

end Cert.Consts

end
-- ==== Proof.RefSoftmax.lean ====
/-
  The reference's log-softmax and softmax read at an element: the log-probability of class k of sample b is
  (x - m) - log (0 + ∑ exp (x - m)) with m the row's maximum, and the probability its exponential.
-/
import proofs.«408677_j82240033784032_3_alg».proof.Proof.RefRead
import proofs.«408677_j82240033784032_3_alg».proof.Proof.Spec
import proofs.«408677_j82240033784032_3_alg».proof.Proof.Consts
import proofs.«408677_j82240033784032_3_alg».proof.Proof.RefIdx
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Softmax

open Idealize.ShloMosaic Idealize.ShloMosaic.ValueIdx Cert.ReferenceIdeal Cert.ReferenceIdeal.ReadP Cert.ReferenceIdeal.Idx

/-- The row's maximum as the reference takes it: the fold of `max` from `-∞` over the row's 75000 coordinates, then
    `max` with `-∞` once more, which changes nothing. -/
private theorem rowmax_apply (x : (⟨S512x75000, .f32⟩ : BufTy).Contents (Elt Ideal)) (b : Fin 512) :
    val_main_call0_v2 (F := Ideal) x (ix1 b) = rmax x b := by
  rw [val_main_call0_v2_apply, val_main_call0_v1_apply, val_main_call0_cst_0_apply]
  unfold val_main_call0_v0
  have hfold : Host.reduce (FloatOps.maximumf (F := Ideal) (φ := .f32)) x (val_main_call0_cst (F := Ideal)) Gen.reducesTo_S512x75000_S512_d1 Gen.h_S_ (ix1 b)
      = _ := Host.reduce_eq_fold_single _ _ _ _ (by decide) _ _
  rw [hfold]
  rw [val_main_call0_cst_apply, Ideal.ofBits_def, Cert.Consts.negInf_eq, Ideal.maximumf_def, max_eq_right bot_le]
  show (Finset.univ : Finset (Fin 75000)).fold max ⊥ _ = Cert.Spec.rowMax (row x b)
  unfold Cert.Spec.rowMax
  exact Finset.fold_congr fun k _ =>
    congrArg x (funext fun a => Fin.ext (by match a with | ⟨0, _⟩ => rfl | ⟨1, _⟩ => rfl))

/-- The shifted logit: `x - m` at (b, k), the row's maximum broadcast along the row. -/
private theorem shifted_apply (x : (⟨S512x75000, .f32⟩ : BufTy).Contents (Elt Ideal)) (b : Fin 512) (k : Fin 75000) :
    val_main_call0_v5 (F := Ideal) x (ix2 b k) = x (ix2 b k) - rmax x b := by
  rw [val_main_call0_v5_apply, val_main_call0_v4_apply, val_main_call0_v3_apply, Ideal.subf_def]
  have hi : idx_main_call0_v3 (idx_main_call0_v4 (ix2 b k)) = ix1 b :=
    funext fun a => Fin.ext (by match a with | ⟨0, _⟩ => rfl)
  rw [hi, rowmax_apply]

/-- The log-probabilities. -/
theorem lp_apply (x : (⟨S512x75000, .f32⟩ : BufTy).Contents (Elt Ideal)) (b : Fin 512) (k : Fin 75000) :
    val_main_v0 (F := Ideal) x (ix2 b k) = Cert.Spec.rLp (row x b) (rmax x b) k := by
  rw [val_main_v0_apply, val_main_call0_v10_apply, val_main_call0_v9_apply, val_main_call0_v8_apply,
    val_main_call0_v7_apply, Ideal.subf_def, Ideal.hostUnary_log_def, shifted_apply]
  have hi : idx_main_call0_v8 (idx_main_call0_v10 (ix2 b k)) = ix1 b :=
    funext fun a => Fin.ext (by match a with | ⟨0, _⟩ => rfl)
  have hs : ∀ k' : Fin 75000, val_main_call0_v6 (F := Ideal) x (idx_main_call0_v7 (ix1 b) k')
      = Ideal.exp (x (ix2 b k') - rmax x b) := by
    intro k'
    have hk : idx_main_call0_v7 (ix1 b) k' = ix2 b k' :=
      funext fun a => Fin.ext (by match a with | ⟨0, _⟩ => rfl | ⟨1, _⟩ => rfl)
    rw [hk, val_main_call0_v6_apply, Ideal.hostUnary_exp_def, shifted_apply]
  rw [hi, Finset.sum_congr rfl (fun k' _ => hs k'), val_main_call0_cst_1_apply, Ideal.ofBits_def]
  rfl

/-- The probabilities. -/
theorem prob_apply (x : (⟨S512x75000, .f32⟩ : BufTy).Contents (Elt Ideal)) (b : Fin 512) (k : Fin 75000) :
    val_main_v1 (F := Ideal) x (ix2 b k) = Cert.Spec.rP (row x b) (rmax x b) k := by
  rw [val_main_v1_apply, Ideal.hostUnary_exp_def, lp_apply]
  rfl

end Cert.ReferenceIdeal.Softmax

end
-- ==== Proof.ScatterLib.lean ====
/-
  Reading a host scatter that SETS (the body returns the update) and the gathers and scatters of this program at an index.
  A set-scatter is a left fold over the updates in row-major order: an element no update lands on keeps the operand's
  value; an element on which every landing update carries one value holds that value.
-/
import Idealize.ShloMosaic.PureOps.ShapeOps
import Idealize.ShloMosaic.Lib.ValueIdx

noncomputable section

namespace Cert.ScatterLib

open Idealize.ShloMosaic Idealize.ShloMosaic.ValueIdx

/-- One step of a set-scatter's fold: update number `n` replaces the element it lands on by its value. -/
private def setStep {α : Type} {s si u : Shape} {w : Nat} (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

private theorem scatter_eq_foldl {α : Type} {s si u : Shape} {w : Nat} (d : ScatterDims s si u) (x : s.Idx → α)
    (idx : IVec si w) (upd : u.Idx → α) :
    Host.scatter d (fun _ b => b) x idx upd = (List.finRange u.numel).foldl (setStep d idx upd) x := rfl

/-- A step whose update does not land on `i` keeps the element at `i`. -/
private theorem setStep_miss {α : Type} {s si u : Shape} {w : Nat} (d : ScatterDims s si u) (idx : IVec si w)
    (upd : u.Idx → α) (r : s.Idx → α) (n : Fin u.numel) (i : s.Idx)
    (h : d.resultIdx? (u.rowMajor.symm n) idx ≠ some i) : setStep d idx upd r n i = r i := by
  unfold setStep
  cases hr : d.resultIdx? (u.rowMajor.symm n) idx with
  | none => rfl
  | some i' =>
    have hne : i ≠ i' := fun e => h (by rw [hr, e])
    simp only [if_neg hne]

/-- A step whose update lands on `i` leaves the update's value at `i`. -/
private theorem setStep_hit {α : Type} {s si u : Shape} {w : Nat} (d : ScatterDims s si u) (idx : IVec si w)
    (upd : u.Idx → α) (r : s.Idx → α) (n : Fin u.numel) (i : s.Idx)
    (h : d.resultIdx? (u.rowMajor.symm n) idx = some i) : setStep d idx upd r n i = upd (u.rowMajor.symm n) := by
  unfold setStep
  rw [h]
  exact if_pos rfl

/-- Over any list of update numbers and from any start: if none of them lands on `i` the fold keeps the start's element. -/
private theorem foldl_miss {α : Type} {s si u : Shape} {w : Nat} (d : ScatterDims s si u) (idx : IVec si w)
    (upd : u.Idx → α) (i : s.Idx) (l : List (Fin u.numel)) :
    ∀ r : s.Idx → α, (∀ n ∈ l, d.resultIdx? (u.rowMajor.symm n) idx ≠ some i) →
      l.foldl (setStep d idx upd) r i = r i := by
  induction l with
  | nil => intro r _; rfl
  | cons a t ih =>
    intro r h
    rw [List.foldl_cons, ih _ (fun n hn => h n (List.mem_cons_of_mem _ hn))]
    exact setStep_miss d idx upd r a i (h a List.mem_cons_self)

/-- Over any list of update numbers and from any start: if one of them lands on `i` and every one that does carries the
    value `v`, the fold leaves `v` at `i` (the last one that lands decides, and it carries `v`). -/
private theorem foldl_hit {α : Type} {s si u : Shape} {w : Nat} (d : ScatterDims s si u) (idx : IVec si w)
    (upd : u.Idx → α) (i : s.Idx) (v : α) (l : List (Fin u.numel)) :
    ∀ r : s.Idx → α, (∃ n ∈ l, d.resultIdx? (u.rowMajor.symm n) idx = some i) →
      (∀ n ∈ l, d.resultIdx? (u.rowMajor.symm n) idx = some i → upd (u.rowMajor.symm n) = v) →
      l.foldl (setStep d idx upd) r i = v := by
  induction l with
  | nil => intro r h _; obtain ⟨n, hn, _⟩ := h; exact absurd hn List.not_mem_nil
  | cons a t ih =>
    intro r hex hall
    rw [List.foldl_cons]
    by_cases ht : ∃ n ∈ t, d.resultIdx? (u.rowMajor.symm n) idx = some i
    · exact ih _ ht (fun n hn => hall n (List.mem_cons_of_mem _ hn))
    · have hmiss : ∀ n ∈ t, d.resultIdx? (u.rowMajor.symm n) idx ≠ some i := fun n hn e => ht ⟨n, hn, e⟩
      rw [foldl_miss d idx upd i t _ hmiss]
      obtain ⟨n, hn, hl⟩ := hex
      rcases List.mem_cons.mp hn with rfl | hn'
      · rw [setStep_hit d idx upd r n i hl]
        exact hall n List.mem_cons_self hl
      · exact absurd hl (hmiss n hn')

/-- No update lands on `i`: the scatter leaves the operand's element. -/
theorem scatter_set_miss {α : Type} {s si u : Shape} {w : Nat} (d : ScatterDims s si u) (x : s.Idx → α) (idx : IVec si w)
    (upd : u.Idx → α) (i : s.Idx) (h : ∀ j : u.Idx, d.resultIdx? j idx ≠ some i) :
    Host.scatter d (fun _ b => b) x idx upd i = x i := by
  rw [scatter_eq_foldl]
  exact foldl_miss d idx upd i _ x (fun n _ => h _)

/-- Update `j0` lands on `i`, and every update landing on `i` carries `j0`'s value: the scatter leaves that value. -/
theorem scatter_set_hit {α : Type} {s si u : Shape} {w : Nat} (d : ScatterDims s si u) (x : s.Idx → α) (idx : IVec si w)
    (upd : u.Idx → α) (i : s.Idx) (j0 : u.Idx) (h0 : d.resultIdx? j0 idx = some i)
    (hall : ∀ j : u.Idx, d.resultIdx? j idx = some i → upd j = upd j0) :
    Host.scatter d (fun _ b => b) x idx upd i = upd j0 := by
  rw [scatter_eq_foldl]
  refine foldl_hit d idx upd i (upd j0) _ x ⟨u.rowMajor j0, List.mem_finRange _, ?_⟩ (fun n _ hn => hall _ hn)
  rw [Equiv.symm_apply_apply]; exact h0

/-! ## This program's dimension numbers, with the well-formedness fact a parameter (a printed `def` is one of these by `rfl`) -/

/-- `x[rows, cols]` with a [512, 3, 2] table of (row, column) pairs: one element per pair. -/
abbrev gDims3 (wf : GatherDims.WF ⟨2, ![512, 75000]⟩ ⟨3, ![512, 3, 2]⟩ ⟨2, ![512, 3]⟩ [] [0, 1] [] [0, 1] [] 2 ![1, 1]) :
    GatherDims ⟨2, ![512, 75000]⟩ ⟨3, ![512, 3, 2]⟩ ⟨2, ![512, 3]⟩ where
  offsetDims := []
  collapsedSliceDims := [0, 1]
  operandBatchingDims := []
  startIndicesBatchingDims := []
  startIndexMap := [0, 1]
  indexVectorDim := 2
  sliceSizes := ![1, 1]
  wf := wf

/-- The same with a [512, 2] table: one element per row of the table. -/
abbrev gDims2 (wf : GatherDims.WF ⟨2, ![512, 75000]⟩ ⟨2, ![512, 2]⟩ ⟨1, ![512]⟩ [] [0, 1] [] [0, 1] [] 1 ![1, 1]) :
    GatherDims ⟨2, ![512, 75000]⟩ ⟨2, ![512, 2]⟩ ⟨1, ![512]⟩ where
  offsetDims := []
  collapsedSliceDims := [0, 1]
  operandBatchingDims := []
  startIndicesBatchingDims := []
  startIndexMap := [0, 1]
  indexVectorDim := 1
  sliceSizes := ![1, 1]
  wf := wf

/-- `take_along_axis` of a [512, 3] array along axis 1 with one index per row (axis 0 batched). -/
abbrev gDimsT (wf : GatherDims.WF ⟨2, ![512, 3]⟩ ⟨3, ![512, 1, 1]⟩ ⟨2, ![512, 1]⟩ [] [1] [0] [1] [0] 2 ![1, 1]) :
    GatherDims ⟨2, ![512, 3]⟩ ⟨3, ![512, 1, 1]⟩ ⟨2, ![512, 1]⟩ where
  offsetDims := []
  collapsedSliceDims := [1]
  operandBatchingDims := [0]
  startIndicesBatchingDims := [0]
  startIndexMap := [1]
  indexVectorDim := 2
  sliceSizes := ![1, 1]
  wf := wf

/-- `t.at[rows, cols].set(u)` with a [512, 3, 2] table of pairs and [512, 3] updates. -/
abbrev sDims3 (wf : ScatterDims.WF ⟨2, ![512, 75000]⟩ ⟨3, ![512, 3, 2]⟩ ⟨2, ![512, 3]⟩ [] [0, 1] [0, 1] 2) :
    ScatterDims ⟨2, ![512, 75000]⟩ ⟨3, ![512, 3, 2]⟩ ⟨2, ![512, 3]⟩ where
  updateWindowDims := []
  insertedWindowDims := [0, 1]
  scatterDimsToOperandDims := [0, 1]
  indexVectorDim := 2
  wf := wf

/-- The same with a [512, 2] table and [512] updates. -/
abbrev sDims2 (wf : ScatterDims.WF ⟨2, ![512, 75000]⟩ ⟨2, ![512, 2]⟩ ⟨1, ![512]⟩ [] [0, 1] [0, 1] 1) :
    ScatterDims ⟨2, ![512, 75000]⟩ ⟨2, ![512, 2]⟩ ⟨1, ![512]⟩ where
  updateWindowDims := []
  insertedWindowDims := [0, 1]
  scatterDimsToOperandDims := [0, 1]
  indexVectorDim := 1
  wf := wf

/-! ## Which element each result index reads, or each update index writes -/

/-- Result (b, j) reads the operand at the pair in the table's row (b, j), each component read signed and clamped. -/
theorem gDims3_operandIdx {w : Nat} (wf) (idx : IVec ⟨3, ![512, 3, 2]⟩ w) (b : Fin 512) (j : Fin 3) :
    (gDims3 wf).operandIdx (ix2 b j) idx
      = ix2 (⟨min (idx (ix3 b j (0 : Fin 2))).toInt.toNat 511, by omega⟩ : Fin 512)
            (⟨min (idx (ix3 b j (1 : Fin 2))).toInt.toNat 74999, by omega⟩ : Fin 75000) := by
  have m0 : (0 : Fin 2) ∈ ([0, 1] : List (Fin 2)) := by decide
  have m1 : (1 : Fin 2) ∈ ([0, 1] : List (Fin 2)) := by decide
  have hsi0 : (gDims3 wf).siIdx (ix2 b j) ⟨List.idxOf (0 : Fin 2) (gDims3 wf).startIndexMap,
      List.idxOf_lt_length_iff.2 m0⟩ = ix3 b j (0 : Fin 2) := by
    funext c; refine Fin.ext ?_
    match c with
    | ⟨0, _⟩ => rfl
    | ⟨1, _⟩ => rfl
    | ⟨2, _⟩ => rfl
  have hsi1 : (gDims3 wf).siIdx (ix2 b j) ⟨List.idxOf (1 : Fin 2) (gDims3 wf).startIndexMap,
      List.idxOf_lt_length_iff.2 m1⟩ = ix3 b j (1 : Fin 2) := by
    funext c; refine Fin.ext ?_
    match c with
    | ⟨0, _⟩ => rfl
    | ⟨1, _⟩ => rfl
    | ⟨2, _⟩ => rfl
  funext a; refine Fin.ext ?_
  match a with
  | ⟨0, _⟩ =>
    show (gDims3 wf).start (ix2 b j) idx 0 + (gDims3 wf).batchCoord (ix2 b j) 0 + (gDims3 wf).offCoord (ix2 b j) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈ (gDims3 wf).startIndexMap from m0), hsi0]
    rfl
  | ⟨1, _⟩ =>
    show (gDims3 wf).start (ix2 b j) idx 1 + (gDims3 wf).batchCoord (ix2 b j) 1 + (gDims3 wf).offCoord (ix2 b j) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 2) ∈ (gDims3 wf).startIndexMap from m1), hsi1]
    rfl

theorem gDims2_operandIdx {w : Nat} (wf) (idx : IVec ⟨2, ![512, 2]⟩ w) (b : Fin 512) :
    (gDims2 wf).operandIdx (ix1 b) idx
      = ix2 (⟨min (idx (ix2 b (0 : Fin 2))).toInt.toNat 511, by omega⟩ : Fin 512)
            (⟨min (idx (ix2 b (1 : Fin 2))).toInt.toNat 74999, by omega⟩ : Fin 75000) := by
  have m0 : (0 : Fin 2) ∈ ([0, 1] : List (Fin 2)) := by decide
  have m1 : (1 : Fin 2) ∈ ([0, 1] : List (Fin 2)) := by decide
  have hsi0 : (gDims2 wf).siIdx (ix1 b) ⟨List.idxOf (0 : Fin 2) (gDims2 wf).startIndexMap,
      List.idxOf_lt_length_iff.2 m0⟩ = ix2 b (0 : Fin 2) := by
    funext c; refine Fin.ext ?_
    match c with
    | ⟨0, _⟩ => rfl
    | ⟨1, _⟩ => rfl
  have hsi1 : (gDims2 wf).siIdx (ix1 b) ⟨List.idxOf (1 : Fin 2) (gDims2 wf).startIndexMap,
      List.idxOf_lt_length_iff.2 m1⟩ = ix2 b (1 : Fin 2) := by
    funext c; refine Fin.ext ?_
    match c with
    | ⟨0, _⟩ => rfl
    | ⟨1, _⟩ => rfl
  funext a; refine Fin.ext ?_
  match a with
  | ⟨0, _⟩ =>
    show (gDims2 wf).start (ix1 b) idx 0 + (gDims2 wf).batchCoord (ix1 b) 0 + (gDims2 wf).offCoord (ix1 b) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈ (gDims2 wf).startIndexMap from m0), hsi0]
    rfl
  | ⟨1, _⟩ =>
    show (gDims2 wf).start (ix1 b) idx 1 + (gDims2 wf).batchCoord (ix1 b) 1 + (gDims2 wf).offCoord (ix1 b) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 2) ∈ (gDims2 wf).startIndexMap from m1), hsi1]
    rfl

/-- Result (b, 0) reads row b of the operand at the row's own index, read signed and clamped into [0, 2]. -/
theorem gDimsT_operandIdx {w : Nat} (wf) (idx : IVec ⟨3, ![512, 1, 1]⟩ w) (b : Fin 512) :
    (gDimsT wf).operandIdx (ix2 b (0 : Fin 1)) idx
      = ix2 b (⟨min (idx (ix3 b (0 : Fin 1) (0 : Fin 1))).toInt.toNat 2, by omega⟩ : Fin 3) := by
  have m0 : (0 : Fin 2) ∈ ([0] : List (Fin 2)) := by decide
  have m1 : (1 : Fin 2) ∈ ([1] : List (Fin 2)) := by decide
  have n1 : (1 : Fin 2) ∉ ([0] : List (Fin 2)) := by decide
  have hsi : (gDimsT wf).siIdx (ix2 b (0 : Fin 1)) ⟨List.idxOf (1 : Fin 2) (gDimsT wf).startIndexMap,
      List.idxOf_lt_length_iff.2 m1⟩ = ix3 b (0 : Fin 1) (0 : Fin 1) := by
    funext c; refine Fin.ext ?_
    match c with
    | ⟨0, _⟩ => rfl
    | ⟨1, _⟩ => rfl
    | ⟨2, _⟩ => rfl
  funext a; refine Fin.ext ?_
  match a with
  | ⟨0, _⟩ =>
    show (gDimsT wf).start (ix2 b (0 : Fin 1)) idx 0 + (gDimsT wf).batchCoord (ix2 b (0 : Fin 1)) 0
      + (gDimsT wf).offCoord (ix2 b (0 : Fin 1)) 0 = b.val
    rw [GatherDims.start_batching _ _ _ _ (show (0 : Fin 2) ∈ (gDimsT wf).operandBatchingDims from m0),
      GatherDims.offCoord_eq_zero _ _ _ (fun h => ((GatherDims.mem_sKept _ _).mp h).2 m0)]
    simp only [Nat.add_zero, Nat.zero_add]
    unfold GatherDims.batchCoord
    rw [dif_pos (show (0 : Fin 2) ∈ (gDimsT wf).operandBatchingDims from m0)]
    rfl
  | ⟨1, _⟩ =>
    show (gDimsT wf).start (ix2 b (0 : Fin 1)) idx 1 + (gDimsT wf).batchCoord (ix2 b (0 : Fin 1)) 1
      + (gDimsT wf).offCoord (ix2 b (0 : Fin 1)) 1 = _
    rw [GatherDims.batchCoord_eq_zero _ _ _ (show (1 : Fin 2) ∉ (gDimsT wf).operandBatchingDims from n1),
      GatherDims.offCoord_eq_zero _ _ _ (fun h => ((GatherDims.mem_sKept _ _).mp h).1 m1)]
    simp only [Nat.add_zero]
    unfold GatherDims.start
    rw [dif_pos (show (1 : Fin 2) ∈ (gDimsT wf).startIndexMap from m1), hsi]
    rfl

/-- Both operand axes are inserted: an update has no window coordinate. -/
private theorem sDims3_window (wf) (b : Fin 512) (j : Fin 3) (a : Fin 2) : (sDims3 wf).window (ix2 b j) a = 0 := by
  unfold ScatterDims.window
  exact dif_neg (show a ∉ (⟨2, ![512, 75000]⟩ : Shape).kept [0, 1] by revert a; decide)

/-- The start on operand axis 0 is the table entry's first component, read signed. -/
private theorem sDims3_start0 {w : Nat} (wf) (idx : IVec ⟨3, ![512, 3, 2]⟩ w) (b : Fin 512) (j : Fin 3) :
    (sDims3 wf).start (ix2 b j) idx 0 = (idx (ix3 b j (0 : Fin 2))).toInt := by
  unfold ScatterDims.start
  rw [dif_pos (show (0 : Fin 2) ∈ ([0, 1] : List (Fin 2)) by decide)]
  have hsi : (sDims3 wf).siIdx (ix2 b j) ⟨List.idxOf (0 : Fin 2) (sDims3 wf).scatterDimsToOperandDims,
      List.idxOf_lt_length_iff.2 (show (0 : Fin 2) ∈ ([0, 1] : List (Fin 2)) by decide)⟩ = ix3 b j (0 : Fin 2) := by
    funext c; refine Fin.ext ?_
    match c with
    | ⟨0, _⟩ => rfl
    | ⟨1, _⟩ => rfl
    | ⟨2, _⟩ => rfl
  rw [hsi]

/-- The start on operand axis 1 is the table entry's second component, read signed. -/
private theorem sDims3_start1 {w : Nat} (wf) (idx : IVec ⟨3, ![512, 3, 2]⟩ w) (b : Fin 512) (j : Fin 3) :
    (sDims3 wf).start (ix2 b j) idx 1 = (idx (ix3 b j (1 : Fin 2))).toInt := by
  unfold ScatterDims.start
  rw [dif_pos (show (1 : Fin 2) ∈ ([0, 1] : List (Fin 2)) by decide)]
  have hsi : (sDims3 wf).siIdx (ix2 b j) ⟨List.idxOf (1 : Fin 2) (sDims3 wf).scatterDimsToOperandDims,
      List.idxOf_lt_length_iff.2 (show (1 : Fin 2) ∈ ([0, 1] : List (Fin 2)) by decide)⟩ = ix3 b j (1 : Fin 2) := by
    funext c; refine Fin.ext ?_
    match c with
    | ⟨0, _⟩ => rfl
    | ⟨1, _⟩ => rfl
    | ⟨2, _⟩ => rfl
  rw [hsi]

/-- Update (b, j) lands on element `i` exactly when the table's row (b, j), read signed and NOT clamped, is `i`'s pair. -/
theorem sDims3_resultIdx_iff {w : Nat} (wf) (idx : IVec ⟨3, ![512, 3, 2]⟩ w) (b : Fin 512) (j : Fin 3)
    (i : (⟨2, ![512, 75000]⟩ : Shape).Idx) :
    (sDims3 wf).resultIdx? (ix2 b j) idx = some i
      ↔ (idx (ix3 b j (0 : Fin 2))).toInt = ((i 0).val : Int) ∧ (idx (ix3 b j (1 : Fin 2))).toInt = ((i 1).val : Int) := by
  have hi0 : (i 0).val < 512 := idx2_lt0 i
  have hi1 : (i 1).val < 75000 := idx2_lt1 i
  have s0 := sDims3_start0 wf idx b j
  have s1 := sDims3_start1 wf idx b j
  have w0 := sDims3_window wf b j 0
  have w1 := sDims3_window wf b j 1
  unfold ScatterDims.resultIdx?
  constructor
  · intro h
    split at h
    · rename_i hb
      have hi := Option.some.inj h
      have e0 : ((sDims3 wf).start (ix2 b j) idx 0 + ((sDims3 wf).window (ix2 b j) 0 : Nat)).toNat = (i 0).val :=
        congrArg (fun f => (f 0).val) hi
      have e1 : ((sDims3 wf).start (ix2 b j) idx 1 + ((sDims3 wf).window (ix2 b j) 1 : Nat)).toNat = (i 1).val :=
        congrArg (fun f => (f 1).val) hi
      have b0 := (hb 0).1
      have b1 := (hb 1).1
      rw [w0, s0] at e0 b0
      rw [w1, s1] at e1 b1
      constructor <;> omega
    · exact absurd h (by simp)
  · rintro ⟨e0, e1⟩
    have hb : ∀ a : Fin 2, 0 ≤ (sDims3 wf).start (ix2 b j) idx a + ((sDims3 wf).window (ix2 b j) a : Nat) ∧
        (sDims3 wf).start (ix2 b j) idx a + ((sDims3 wf).window (ix2 b j) a : Nat) < ((⟨2, ![512, 75000]⟩ : Shape).size a : Nat) := by
      intro a
      match a with
      | ⟨0, _⟩ =>
        show 0 ≤ (sDims3 wf).start (ix2 b j) idx 0 + ((sDims3 wf).window (ix2 b j) 0 : Nat) ∧
          (sDims3 wf).start (ix2 b j) idx 0 + ((sDims3 wf).window (ix2 b j) 0 : Nat) < ((512 : Nat) : Int)
        rw [w0, s0, e0]; omega
      | ⟨1, _⟩ =>
        show 0 ≤ (sDims3 wf).start (ix2 b j) idx 1 + ((sDims3 wf).window (ix2 b j) 1 : Nat) ∧
          (sDims3 wf).start (ix2 b j) idx 1 + ((sDims3 wf).window (ix2 b j) 1 : Nat) < ((75000 : Nat) : Int)
        rw [w1, s1, e1]; omega
    rw [dif_pos hb]
    refine congrArg some ?_
    funext a; refine Fin.ext ?_
    match a with
    | ⟨0, _⟩ =>
      show ((sDims3 wf).start (ix2 b j) idx 0 + ((sDims3 wf).window (ix2 b j) 0 : Nat)).toNat = (i 0).val
      rw [w0, s0, e0]; omega
    | ⟨1, _⟩ =>
      show ((sDims3 wf).start (ix2 b j) idx 1 + ((sDims3 wf).window (ix2 b j) 1 : Nat)).toNat = (i 1).val
      rw [w1, s1, e1]; omega

/-- Both operand axes are inserted: an update has no window coordinate. -/
private theorem sDims2_window (wf) (b : Fin 512) (a : Fin 2) : (sDims2 wf).window (ix1 b) a = 0 := by
  unfold ScatterDims.window
  exact dif_neg (show a ∉ (⟨2, ![512, 75000]⟩ : Shape).kept [0, 1] by revert a; decide)

/-- The start on operand axis 0 is the table entry's first component, read signed. -/
private theorem sDims2_start0 {w : Nat} (wf) (idx : IVec ⟨2, ![512, 2]⟩ w) (b : Fin 512) :
    (sDims2 wf).start (ix1 b) idx 0 = (idx (ix2 b (0 : Fin 2))).toInt := by
  unfold ScatterDims.start
  rw [dif_pos (show (0 : Fin 2) ∈ ([0, 1] : List (Fin 2)) by decide)]
  have hsi : (sDims2 wf).siIdx (ix1 b) ⟨List.idxOf (0 : Fin 2) (sDims2 wf).scatterDimsToOperandDims,
      List.idxOf_lt_length_iff.2 (show (0 : Fin 2) ∈ ([0, 1] : List (Fin 2)) by decide)⟩ = ix2 b (0 : Fin 2) := by
    funext c; refine Fin.ext ?_
    match c with
    | ⟨0, _⟩ => rfl
    | ⟨1, _⟩ => rfl
  rw [hsi]

/-- The start on operand axis 1 is the table entry's second component, read signed. -/
private theorem sDims2_start1 {w : Nat} (wf) (idx : IVec ⟨2, ![512, 2]⟩ w) (b : Fin 512) :
    (sDims2 wf).start (ix1 b) idx 1 = (idx (ix2 b (1 : Fin 2))).toInt := by
  unfold ScatterDims.start
  rw [dif_pos (show (1 : Fin 2) ∈ ([0, 1] : List (Fin 2)) by decide)]
  have hsi : (sDims2 wf).siIdx (ix1 b) ⟨List.idxOf (1 : Fin 2) (sDims2 wf).scatterDimsToOperandDims,
      List.idxOf_lt_length_iff.2 (show (1 : Fin 2) ∈ ([0, 1] : List (Fin 2)) by decide)⟩ = ix2 b (1 : Fin 2) := by
    funext c; refine Fin.ext ?_
    match c with
    | ⟨0, _⟩ => rfl
    | ⟨1, _⟩ => rfl
  rw [hsi]

theorem sDims2_resultIdx_iff {w : Nat} (wf) (idx : IVec ⟨2, ![512, 2]⟩ w) (b : Fin 512)
    (i : (⟨2, ![512, 75000]⟩ : Shape).Idx) :
    (sDims2 wf).resultIdx? (ix1 b) idx = some i
      ↔ (idx (ix2 b (0 : Fin 2))).toInt = ((i 0).val : Int) ∧ (idx (ix2 b (1 : Fin 2))).toInt = ((i 1).val : Int) := by
  have hi0 : (i 0).val < 512 := idx2_lt0 i
  have hi1 : (i 1).val < 75000 := idx2_lt1 i
  have s0 := sDims2_start0 wf idx b
  have s1 := sDims2_start1 wf idx b
  have w0 := sDims2_window wf b 0
  have w1 := sDims2_window wf b 1
  unfold ScatterDims.resultIdx?
  constructor
  · intro h
    split at h
    · rename_i hb
      have hi := Option.some.inj h
      have e0 : ((sDims2 wf).start (ix1 b) idx 0 + ((sDims2 wf).window (ix1 b) 0 : Nat)).toNat = (i 0).val :=
        congrArg (fun f => (f 0).val) hi
      have e1 : ((sDims2 wf).start (ix1 b) idx 1 + ((sDims2 wf).window (ix1 b) 1 : Nat)).toNat = (i 1).val :=
        congrArg (fun f => (f 1).val) hi
      have b0 := (hb 0).1
      have b1 := (hb 1).1
      rw [w0, s0] at e0 b0
      rw [w1, s1] at e1 b1
      constructor <;> omega
    · exact absurd h (by simp)
  · rintro ⟨e0, e1⟩
    have hb : ∀ a : Fin 2, 0 ≤ (sDims2 wf).start (ix1 b) idx a + ((sDims2 wf).window (ix1 b) a : Nat) ∧
        (sDims2 wf).start (ix1 b) idx a + ((sDims2 wf).window (ix1 b) a : Nat) < ((⟨2, ![512, 75000]⟩ : Shape).size a : Nat) := by
      intro a
      match a with
      | ⟨0, _⟩ =>
        show 0 ≤ (sDims2 wf).start (ix1 b) idx 0 + ((sDims2 wf).window (ix1 b) 0 : Nat) ∧
          (sDims2 wf).start (ix1 b) idx 0 + ((sDims2 wf).window (ix1 b) 0 : Nat) < ((512 : Nat) : Int)
        rw [w0, s0, e0]; omega
      | ⟨1, _⟩ =>
        show 0 ≤ (sDims2 wf).start (ix1 b) idx 1 + ((sDims2 wf).window (ix1 b) 1 : Nat) ∧
          (sDims2 wf).start (ix1 b) idx 1 + ((sDims2 wf).window (ix1 b) 1 : Nat) < ((75000 : Nat) : Int)
        rw [w1, s1, e1]; omega
    rw [dif_pos hb]
    refine congrArg some ?_
    funext a; refine Fin.ext ?_
    match a with
    | ⟨0, _⟩ =>
      show ((sDims2 wf).start (ix1 b) idx 0 + ((sDims2 wf).window (ix1 b) 0 : Nat)).toNat = (i 0).val
      rw [w0, s0, e0]; omega
    | ⟨1, _⟩ =>
      show ((sDims2 wf).start (ix1 b) idx 1 + ((sDims2 wf).window (ix1 b) 1 : Nat)).toNat = (i 1).val
      rw [w1, s1, e1]; omega

end Cert.ScatterLib

end
-- ==== Proof.RefEps.lean ====
/-
  The two smoothing masses of a sample: ep1 from the gathered probabilities of its group, ep2 from the gathered
  probability of its true class.
-/
import proofs.«408677_j82240033784032_3_alg».proof.Proof.RefRead
import proofs.«408677_j82240033784032_3_alg».proof.Proof.Spec
import proofs.«408677_j82240033784032_3_alg».proof.Proof.ScatterLib
import proofs.«408677_j82240033784032_3_alg».proof.Proof.RefIdx
import proofs.«408677_j82240033784032_3_alg».proof.Proof.RefSoftmax
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Eps

open Idealize.ShloMosaic Idealize.ShloMosaic.ValueIdx Cert.ReferenceIdeal Cert.ReferenceIdeal.ReadP Cert.ReferenceIdeal.Idx

/-- A 32-bit word whose signed value is nonnegative and below a bound has that bound on its unsigned value. -/
theorem toNat_lt_of_toInt (a : BitVec 32) (n : Nat) (h : 0 ≤ a.toInt ∧ a.toInt < (n : Int)) : a.toNat < n := by
  have h1 := BitVec.toInt_eq_toNat_cond a
  have h2 := a.isLt
  split_ifs at h1 <;> omega

/-- The first gather reads, at (b, j), the probability of the j-th class of sample b's group. -/
theorem gath26_apply (x : (⟨S512x75000, .f32⟩ : BufTy).Contents (Elt Ideal)) (p : (⟨S512, .i32⟩ : BufTy).Contents (Elt Ideal))
    (hp : ∀ i, 0 ≤ (p i).toInt ∧ (p i).toInt < 25000) (b : Fin 512) (j : Fin 3) :
    val_main_v26 (F := Ideal) x p (ix2 b j) = Cert.Spec.rP (row x b) (rmax x b) (gcol p b j) := by
  unfold val_main_v26 Host.gather
  rw [show gather_S512x75000_S512x3x2_S512x3_n_01_n_n_01_2_11 = Cert.ScatterLib.gDims3 _ from rfl,
    Cert.ScatterLib.gDims3_operandIdx]
  have hb := b.isLt
  have hj := j.isLt
  have ht := toNat_lt_of_toInt (p (ix1 b)) 25000 (hp (ix1 b))
  have hr : min (val_main_v25 (F := Ideal) p (ix3 b j (0 : Fin 2))).toInt.toNat 511 = b.val := by
    rw [tab25_row, Int.toNat_natCast]; omega
  have hc : min (val_main_v25 (F := Ideal) p (ix3 b j (1 : Fin 2))).toInt.toNat 74999 = (gcol p b j).val := by
    rw [tab25_col p hp, Int.toNat_natCast]
    show _ = (3 * (p (ix1 b)).toNat + j.val) % 75000
    omega
  rw [← Cert.ReferenceIdeal.Softmax.prob_apply]
  exact congrArg (val_main_v1 (F := Ideal) x) (congrArg₂ ix2 (Fin.ext hr) (Fin.ext hc))

/-- The second gather reads, at b, the probability of sample b's true class. -/
theorem gath46_apply (x : (⟨S512x75000, .f32⟩ : BufTy).Contents (Elt Ideal)) (p v : (⟨S512, .i32⟩ : BufTy).Contents (Elt Ideal))
    (hp : ∀ i, 0 ≤ (p i).toInt ∧ (p i).toInt < 25000) (hv : ∀ i, 0 ≤ (v i).toInt ∧ (v i).toInt < 3) (b : Fin 512) :
    val_main_v46 (F := Ideal) x p v (ix1 b) = Cert.Spec.rP (row x b) (rmax x b) (tcol p v b) := by
  unfold val_main_v46 Host.gather
  rw [show gather_S512x75000_S512x2_S512_n_01_n_n_01_1_11 = Cert.ScatterLib.gDims2 _ from rfl,
    Cert.ScatterLib.gDims2_operandIdx]
  have hb := b.isLt
  have ht := toNat_lt_of_toInt (p (ix1 b)) 25000 (hp (ix1 b))
  have hu := toNat_lt_of_toInt (v (ix1 b)) 3 (hv (ix1 b))
  have hr : min (val_main_v45 (F := Ideal) p v (ix2 b (0 : Fin 2))).toInt.toNat 511 = b.val := by
    rw [tab45_row, Int.toNat_natCast]; omega
  have hc : min (val_main_v45 (F := Ideal) p v (ix2 b (1 : Fin 2))).toInt.toNat 74999 = (tcol p v b).val := by
    rw [tab45_col p v hp hv, Int.toNat_natCast]
    show _ = (3 * (p (ix1 b)).toNat + (v (ix1 b)).toNat) % 75000
    omega
  rw [← Cert.ReferenceIdeal.Softmax.prob_apply]
  exact congrArg (val_main_v1 (F := Ideal) x) (congrArg₂ ix2 (Fin.ext hr) (Fin.ext hc))

/-- ep1 of sample b. -/
theorem ep1_apply (x : (⟨S512x75000, .f32⟩ : BufTy).Contents (Elt Ideal)) (p : (⟨S512, .i32⟩ : BufTy).Contents (Elt Ideal)) (hp : ∀ i, 0 ≤ (p i).toInt ∧ (p i).toInt < 25000) (b : Fin 512) :
    val_main_v31 (F := Ideal) x p (ix1 b) = Cert.Spec.rEp1 (row x b) (rmax x b) (gcol p b) := by
  rw [val_main_v31_apply, val_main_v30_apply, val_main_cst_5_apply, val_main_v29_apply, val_main_v28_apply,
    val_main_cst_4_apply, val_main_v27_apply, val_main_cst_apply]
  have hs : ∑ k : Fin 3, val_main_v26 (F := Ideal) x p (idx_main_v27 (ix1 b) k)
      = ∑ j : Fin 3, Cert.Spec.rP (row x b) (rmax x b) (gcol p b j) :=
    Finset.sum_congr rfl fun k _ => by
      rw [show idx_main_v27 (ix1 b) k = ix2 b k from
        funext fun a => Fin.ext (by match a with | ⟨0, _⟩ => rfl | ⟨1, _⟩ => rfl)]
      exact gath26_apply x p hp b k
  rw [hs]
  rfl

/-- ep2 of sample b. -/
theorem ep2_apply (x : (⟨S512x75000, .f32⟩ : BufTy).Contents (Elt Ideal)) (p v : (⟨S512, .i32⟩ : BufTy).Contents (Elt Ideal)) (hp : ∀ i, 0 ≤ (p i).toInt ∧ (p i).toInt < 25000) (hv : ∀ i, 0 ≤ (v i).toInt ∧ (v i).toInt < 3) (b : Fin 512) :
    val_main_v50 (F := Ideal) x p v (ix1 b) = Cert.Spec.rEp2 (row x b) (rmax x b) (tcol p v b) := by
  rw [val_main_v50_apply, val_main_v49_apply, val_main_cst_11_apply, val_main_v48_apply, val_main_v47_apply,
    val_main_cst_10_apply, gath46_apply x p v hp hv b]
  rfl

end Cert.ReferenceIdeal.Eps

end
-- ==== Proof.RefTarget.lean ====
/-
  The smoothed target read at an element: the background level everywhere, overwritten on the group's three columns
  by half of ep2, overwritten on the true column by the remaining mass.
-/
import proofs.«408677_j82240033784032_3_alg».proof.Proof.RefRead
import proofs.«408677_j82240033784032_3_alg».proof.Proof.Spec
import proofs.«408677_j82240033784032_3_alg».proof.Proof.ScatterLib
import proofs.«408677_j82240033784032_3_alg».proof.Proof.RefIdx
import proofs.«408677_j82240033784032_3_alg».proof.Proof.RefEps
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Target

open Idealize.ShloMosaic Idealize.ShloMosaic.ValueIdx Cert.ReferenceIdeal Cert.ReferenceIdeal.ReadP Cert.ReferenceIdeal.Idx

/-- A word read signed inside `[0, n)` is that number read unsigned. -/
theorem toNat_lt_of_toInt (w : BitVec 32) (n : Nat) (hn : n ≤ 2147483648) (h0 : 0 ≤ w.toInt) (h1 : w.toInt < n) :
    w.toNat < n := by
  have h := BitVec.toInt_eq_toNat_cond w
  have hl := w.isLt
  split at h <;> omega

/-- The mass left on the true class of sample b. -/
theorem v83_at (x : (⟨S512x75000, .f32⟩ : BufTy).Contents (Elt Ideal)) (p v : (⟨S512, .i32⟩ : BufTy).Contents (Elt Ideal)) (hp : ∀ i, 0 ≤ (p i).toInt ∧ (p i).toInt < 25000) (hv : ∀ i, 0 ≤ (v i).toInt ∧ (v i).toInt < 3) (b : Fin 512) :
    val_main_v83 (F := Ideal) x p v (ix1 b)
      = (Cert.Spec.c1 - Cert.Spec.rEp1 (row x b) (rmax x b) (gcol p b)) - Cert.Spec.rEp2 (row x b) (rmax x b) (tcol p v b) := by
  rw [val_main_v83_apply, val_main_v82_apply, val_main_v81_apply, val_main_cst_18_apply,
    Eps.ep1_apply x p hp b, Eps.ep2_apply x p v hp hv b]
  rfl

/-- The mass on each other class of the group of sample b. -/
theorem v78_at (x : (⟨S512x75000, .f32⟩ : BufTy).Contents (Elt Ideal)) (p v : (⟨S512, .i32⟩ : BufTy).Contents (Elt Ideal)) (hp : ∀ i, 0 ≤ (p i).toInt ∧ (p i).toInt < 25000) (hv : ∀ i, 0 ≤ (v i).toInt ∧ (v i).toInt < 3) (b : Fin 512) (j : Fin 3) :
    val_main_v78 (F := Ideal) x p v (ix2 b j)
      = Cert.Spec.cHalf * Cert.Spec.rEp2 (row x b) (rmax x b) (tcol p v b) := by
  have hi : idx_main_v63 (idx_main_v78 (ix2 b j)) = ix1 b :=
    funext fun a => Fin.ext (by match a with | ⟨0, _⟩ => rfl)
  rw [val_main_v78_apply, val_main_v63_apply, hi, val_main_v62_apply, val_main_v61_apply, val_main_cst_13_apply,
    Eps.ep2_apply x p v hp hv b]
  rfl

/-- The background level of sample b. -/
theorem v54_at (x : (⟨S512x75000, .f32⟩ : BufTy).Contents (Elt Ideal)) (p : (⟨S512, .i32⟩ : BufTy).Contents (Elt Ideal)) (hp : ∀ i, 0 ≤ (p i).toInt ∧ (p i).toInt < 25000) (b : Fin 512) (k : Fin 75000) :
    val_main_v54 (F := Ideal) x p (ix2 b k)
      = Ideal.div (Cert.Spec.rEp1 (row x b) (rmax x b) (gcol p b)) Cert.Spec.cD := by
  have hi : idx_main_v53 (idx_main_v54 (ix2 b k)) = ix1 b :=
    funext fun a => Fin.ext (by match a with | ⟨0, _⟩ => rfl)
  rw [val_main_v54_apply, val_main_v53_apply, hi, val_main_v52_apply, val_main_v51_apply, val_main_cst_12_apply,
    Eps.ep1_apply x p hp b]
  rfl

/-- A word read signed that is not negative is the same number read unsigned. -/
theorem toNat_eq_toInt (w : BitVec 32) (h0 : 0 ≤ w.toInt) : (w.toNat : Int) = w.toInt := by
  have h := BitVec.toInt_eq_toNat_cond w
  have hl := w.isLt
  split at h <;> omega

/-- Update b' of the last scatter lands on (b, k) exactly when b' = b and k is the true column of b. -/
theorem lands2 (p v : (⟨S512, .i32⟩ : BufTy).Contents (Elt Ideal)) (hp : ∀ i, 0 ≤ (p i).toInt ∧ (p i).toInt < 25000) (hv : ∀ i, 0 ≤ (v i).toInt ∧ (v i).toInt < 3) (b' b : Fin 512) (k : Fin 75000) :
    scatter_S512x75000_S512x2_S512_n_01_01_1.resultIdx? (ix1 b') (val_main_v96 (F := Ideal) p v) = some (ix2 b k)
      ↔ b' = b ∧ k = tcol p v b := by
  rw [show scatter_S512x75000_S512x2_S512_n_01_01_1 = Cert.ScatterLib.sDims2 _ from rfl,
    Cert.ScatterLib.sDims2_resultIdx_iff, tab96_row, tab96_col p v hp hv]
  have hpn := toNat_eq_toInt (p (ix1 b')) (hp _).1
  have hpl := (hp (ix1 b')).2
  have hvn := toNat_eq_toInt (v (ix1 b')) (hv _).1
  have hvl := (hv (ix1 b')).2
  show ((b'.val : Int) = (b.val : Int) ∧ ((3 * (p (ix1 b')).toNat + (v (ix1 b')).toNat : Nat) : Int) = (k.val : Int)) ↔ _
  constructor
  · rintro ⟨h1, h2⟩
    have hb : b' = b := Fin.ext (by omega)
    subst hb
    refine ⟨rfl, Fin.ext ?_⟩
    show k.val = (3 * (p (ix1 b')).toNat + (v (ix1 b')).toNat) % 75000
    rw [Nat.mod_eq_of_lt (by omega)]; omega
  · rintro ⟨rfl, rfl⟩
    refine ⟨rfl, ?_⟩
    show _ = (((3 * (p (ix1 b')).toNat + (v (ix1 b')).toNat) % 75000 : Nat) : Int)
    rw [Nat.mod_eq_of_lt (by omega)]

/-- Update (b', j) of the first scatter lands on (b, k) exactly when b' = b and k is the column of the group's member j. -/
theorem lands3 (p : (⟨S512, .i32⟩ : BufTy).Contents (Elt Ideal)) (hp : ∀ i, 0 ≤ (p i).toInt ∧ (p i).toInt < 25000) (b' : Fin 512) (j : Fin 3) (b : Fin 512) (k : Fin 75000) :
    scatter_S512x75000_S512x3x2_S512x3_n_01_01_2.resultIdx? (ix2 b' j) (val_main_v77 (F := Ideal) p) = some (ix2 b k)
      ↔ b' = b ∧ k = gcol p b j := by
  rw [show scatter_S512x75000_S512x3x2_S512x3_n_01_01_2 = Cert.ScatterLib.sDims3 _ from rfl,
    Cert.ScatterLib.sDims3_resultIdx_iff, tab77_row, tab77_col p hp]
  have hpn := toNat_eq_toInt (p (ix1 b')) (hp _).1
  have hpl := (hp (ix1 b')).2
  have hj := j.isLt
  show ((b'.val : Int) = (b.val : Int) ∧ ((3 * (p (ix1 b')).toNat + j.val : Nat) : Int) = (k.val : Int)) ↔ _
  constructor
  · rintro ⟨h1, h2⟩
    have hb : b' = b := Fin.ext (by omega)
    subst hb
    refine ⟨rfl, Fin.ext ?_⟩
    show k.val = (3 * (p (ix1 b')).toNat + j.val) % 75000
    rw [Nat.mod_eq_of_lt (by omega)]; omega
  · rintro ⟨rfl, rfl⟩
    refine ⟨rfl, ?_⟩
    show _ = (((3 * (p (ix1 b')).toNat + j.val) % 75000 : Nat) : Int)
    rw [Nat.mod_eq_of_lt (by omega)]

/-- The target of class k of sample b. -/
theorem target_apply (x : (⟨S512x75000, .f32⟩ : BufTy).Contents (Elt Ideal)) (p v : (⟨S512, .i32⟩ : BufTy).Contents (Elt Ideal)) (hp : ∀ i, 0 ≤ (p i).toInt ∧ (p i).toInt < 25000) (hv : ∀ i, 0 ≤ (v i).toInt ∧ (v i).toInt < 3) (b : Fin 512) (k : Fin 75000) :
    val_main_v97 (F := Ideal) x p v (ix2 b k) = Cert.Spec.rT (row x b) (rmax x b) (gcol p b) (tcol p v b) k := by
  unfold Cert.Spec.rT
  by_cases hk : k = tcol p v b
  · rw [if_pos hk]
    unfold val_main_v97
    refine (Cert.ScatterLib.scatter_set_hit _ _ _ _ (ix2 b k) (ix1 b) ((lands2 p v hp hv b b k).2 ⟨rfl, hk⟩) ?_).trans
      (v83_at x p v hp hv b)
    intro j hj
    obtain ⟨b', rfl⟩ : ∃ b', j = ix1 b' := ⟨j 0, eq_ix1 j⟩
    rw [((lands2 p v hp hv b' b k).1 hj).1]
  · rw [if_neg hk]
    unfold val_main_v97
    refine (Cert.ScatterLib.scatter_set_miss _ _ _ _ (ix2 b k) ?_).trans ?_
    · intro j hj
      obtain ⟨b', rfl⟩ : ∃ b', j = ix1 b' := ⟨j 0, eq_ix1 j⟩
      exact hk ((lands2 p v hp hv b' b k).1 hj).2
    · by_cases hg : ∃ j, k = gcol p b j
      · rw [if_pos hg]
        obtain ⟨j0, hj0⟩ := hg
        unfold val_main_v79
        refine (Cert.ScatterLib.scatter_set_hit _ _ _ _ (ix2 b k) (ix2 b j0) ((lands3 p hp b j0 b k).2 ⟨rfl, hj0⟩) ?_).trans
          (v78_at x p v hp hv b j0)
        intro j hj
        obtain ⟨b', j', rfl⟩ : ∃ b' j', j = ix2 b' j' := ⟨j 0, j 1, eq_ix2 j⟩
        rw [((lands3 p hp b' j' b k).1 hj).1, v78_at x p v hp hv b j', v78_at x p v hp hv b j0]
      · rw [if_neg hg]
        unfold val_main_v79
        refine (Cert.ScatterLib.scatter_set_miss _ _ _ _ (ix2 b k) ?_).trans (v54_at x p hp b k)
        intro j hj
        obtain ⟨b', j', rfl⟩ : ∃ b' j', j = ix2 b' j' := ⟨j 0, j 1, eq_ix2 j⟩
        exact hg ⟨j', ((lands3 p hp b' j' b k).1 hj).2⟩

end Cert.ReferenceIdeal.Target

end
-- ==== Proof.RefValue.lean ====
/-
  The reference's result: the weighted log-probabilities summed over the batch, divided by 512 class by class, and
  summed over the classes.
-/
import proofs.«408677_j82240033784032_3_alg».proof.Proof.RefRead
import proofs.«408677_j82240033784032_3_alg».proof.Proof.Spec
import proofs.«408677_j82240033784032_3_alg».proof.Proof.RefIdx
import proofs.«408677_j82240033784032_3_alg».proof.Proof.RefSoftmax
import proofs.«408677_j82240033784032_3_alg».proof.Proof.RefTarget
import Idealize.ShloMosaic.Lib.ValueIdx
import Idealize.ShloMosaic.Lib.ValueIdxRank1
import Idealize.ShloMosaic.Lib.Pipeline.Value
import Idealize.ShloMosaic.PureOps.Ideal.Laws

set_option maxRecDepth 16384

noncomputable section

open scoped BigOperators

namespace Cert.ReferenceIdeal.Result

open Idealize.ShloMosaic Idealize.ShloMosaic.ValueIdx Cert.ReferenceIdeal Cert.ReferenceIdeal.ReadP Cert.ReferenceIdeal.Idx

/-- The batch reduction at class `k` reads sample `b` at the pair `(b, k)`. -/
theorem idx104_eq (k : Fin 75000) (b : Fin 512) : idx_main_v104 (ix1 k) b = ix2 b k := by
  funext a
  match a with
  | ⟨0, _⟩ => rfl
  | ⟨1, _⟩ => rfl

/-- Class `k`'s summand of sample `b`: minus (0.9 · target + 0.1 / 75000) times the log-probability. -/
theorem summand_apply (x : (⟨S512x75000, .f32⟩ : BufTy).Contents (Elt Ideal)) (p v : (⟨S512, .i32⟩ : BufTy).Contents (Elt Ideal)) (hp : ∀ i, 0 ≤ (p i).toInt ∧ (p i).toInt < 25000) (hv : ∀ i, 0 ≤ (v i).toInt ∧ (v i).toInt < 3) (b : Fin 512) (k : Fin 75000) :
    val_main_v103 (F := Ideal) x p v (ix2 b k) = Cert.Spec.rF (row x b) (rmax x b) (gcol p b) (tcol p v b) k := by
  rw [val_main_v103_apply, val_main_v102_apply, val_main_v101_apply, val_main_v99_apply, val_main_v98_apply,
    val_main_v100_apply, val_main_cst_23_apply, val_main_cst_24_apply, Softmax.lp_apply,
    Target.target_apply x p v hp hv]
  simp only [Ideal.mulf_def, Ideal.addf_def, Ideal.negf_def, Ideal.hostNegf_def, Ideal.ofBits_def]
  rfl

/-- Class `k`'s batch mean: the sum of the summands over the 512 samples, from 0, divided by 512. -/
theorem mean_apply (x : (⟨S512x75000, .f32⟩ : BufTy).Contents (Elt Ideal)) (p v : (⟨S512, .i32⟩ : BufTy).Contents (Elt Ideal)) (hp : ∀ i, 0 ≤ (p i).toInt ∧ (p i).toInt < 25000) (hv : ∀ i, 0 ≤ (v i).toInt ∧ (v i).toInt < 3) (k : Fin 75000) :
    val_main_v106 (F := Ideal) x p v (ix1 k)
      = Ideal.div (Cert.Spec.c0 + ∑ b : Fin 512, Cert.Spec.rF (row x b) (rmax x b) (gcol p b) (tcol p v b) k) Cert.Spec.c512 := by
  rw [val_main_v106_apply, val_main_v104_apply, val_main_v105_apply, val_main_cst_25_apply, val_main_cst_26_apply]
  simp only [Ideal.hostDivf_def, Ideal.ofBits_def, idx104_eq, summand_apply x p v hp hv]

/-- The reference's result as the specification's class-by-class form. -/
theorem ref_value (x : (⟨S512x75000, .f32⟩ : BufTy).Contents (Elt Ideal)) (p v : (⟨S512, .i32⟩ : BufTy).Contents (Elt Ideal)) (hp : ∀ i, 0 ≤ (p i).toInt ∧ (p i).toInt < 25000) (hv : ∀ i, 0 ≤ (v i).toInt ∧ (v i).toInt < 3) :
    val_main_v107 (F := Ideal) x p v = fun _ => Cert.Spec.rRes (fun b => row x b) (fun b => gcol p b) (fun b => tcol p v b) := by
  funext i
  rw [val_main_v107_apply, val_main_cst_27_apply]
  simp only [Ideal.ofBits_def]
  unfold Cert.Spec.rRes
  refine congrArg (Cert.Spec.c0 + ·) ?_
  rw [← Equiv.sum_comp (idxEquiv1 (n := 75000)).symm]
  refine Finset.sum_congr rfl fun k _ => ?_
  exact mean_apply x p v hp hv k

end Cert.ReferenceIdeal.Result

end
-- ==== Proof.KernelBody.lean ====
/-
  What one grid point's body leaves in its output block: row r of the block holds the row loss in the streaming form,
  of row r of the logits block, the row's three group logits and its true-class logit.
-/
import proofs.«408677_j82240033784032_3_alg».proof.Proof.Gen.KernelIdeal.Frame
import proofs.«408677_j82240033784032_3_alg».proof.Proof.Spec
import proofs.«408677_j82240033784032_3_alg».proof.Proof.Consts
import Idealize.ShloMosaic.Lib.ValueIdx
import Idealize.ShloMosaic.Lib.Pipeline.Value
import Idealize.ShloMosaic.PureOps.Ideal.Laws

set_option maxRecDepth 16384

noncomputable section

namespace Cert.KernelIdeal.Body

open Idealize.ShloMosaic Idealize.ShloMosaic.TcCoe Idealize.ShloMosaic.ValueIdx Cert.KernelIdeal Cert.KernelIdeal.Gen

/-! ## Layout: the whole rectangle, a kept unit column, a column spread over a row -/

/-- The whole rectangle starts at the origin. -/
theorem zeros2 : (![0, 0] : Fin 2 → Nat) = fun _ => 0 := funext fun a => by fin_cases a <;> rfl

/-- A vector of length a cast to an a-by-1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of the logits block over row r with lane k put back is (r, k). -/
theorem lift_row (h : S16x75000.Reduces [1] S16) (r : Fin 16) (k : Fin 75000) : h.lift (ix1 r) k = ix2 r k := by
  funext c; apply Fin.ext
  match c with
  | ⟨0, _⟩ => rfl
  | ⟨1, _⟩ => rfl

/-- The same for the block of group logits. -/
theorem lift_grp (h : S16x3.Reduces [1] S16) (r : Fin 16) (k : Fin 3) : h.lift (ix1 r) k = ix2 r k := by
  funext c; apply Fin.ext
  match c with
  | ⟨0, _⟩ => rfl
  | ⟨1, _⟩ => rfl

/-! ## The lane reductions, kept as a unit column, at row r -/

/-- The maximum over the lanes from minus infinity, kept as a column: at row r, the row's maximum. -/
theorem rowmax_keep (v : FVec Ideal S16x75000 .f32) (hφ : FKind.Formats .f32)
    (hacc : (0xFF800000#32 : BitVec 32) = 0xFF800000#32) (r : Fin 16) (u : Fin 1) :
    shapeCast S16x1 (multiReduction (F := Ideal) .maximumf [1] S16 v 0xFF800000#32 reduces_S16x75000_S16 hφ hacc)
        shapeCasts_S16_S16x1 (ix2 r u)
      = Cert.Spec.rowMax fun k : Fin 75000 => v (ix2 r k) := by
  rw [shapeCast_a_a1_apply]
  refine (Ideal.multiReduction_maximumf_single v 0xFF800000#32 reduces_S16x75000_S16 hφ hacc (ix1 r)).trans ?_
  have hf : (v ∘ reduces_S16x75000_S16.lift (ix1 r)) = fun k : Fin 75000 => v (ix2 r k) :=
    funext fun k => congrArg v (lift_row _ r k)
  rw [hf, Ideal.ofBits_def, Cert.Consts.negInf_eq]
  rfl

/-- The sum over the lanes, kept as a column: at row r, the sum of the row. -/
theorem rowsum_keep (v : FVec Ideal S16x75000 .f32) (hφ : FKind.Formats .f32)
    (hacc : (0x00000000#32 : BitVec 32) = 0x00000000#32) (r : Fin 16) (u : Fin 1) :
    shapeCast S16x1 (multiReduction (F := Ideal) .add [1] S16 v 0x00000000#32 reduces_S16x75000_S16 hφ hacc)
        shapeCasts_S16_S16x1 (ix2 r u)
      = ∑ k : Fin 75000, v (ix2 r k) := by
  rw [shapeCast_a_a1_apply]
  refine (Ideal.multiReduction_add_single v 0x00000000#32 reduces_S16x75000_S16 hφ hacc (ix1 r)).trans ?_
  exact Finset.sum_congr rfl fun k _ => congrArg v (lift_row _ r k)

/-- The sum over the three group lanes, kept as a column: at row r, the sum of the row's three. -/
theorem grpsum_keep (v : FVec Ideal S16x3 .f32) (hφ : FKind.Formats .f32)
    (hacc : (0x00000000#32 : BitVec 32) = 0x00000000#32) (r : Fin 16) (u : Fin 1) :
    shapeCast S16x1 (multiReduction (F := Ideal) .add [1] S16 v 0x00000000#32 reduces_S16x3_S16 hφ hacc)
        shapeCasts_S16_S16x1 (ix2 r u)
      = ∑ k : Fin 3, v (ix2 r k) := by
  rw [shapeCast_a_a1_apply]
  refine (Ideal.multiReduction_add_single v 0x00000000#32 reduces_S16x3_S16 hφ hacc (ix1 r)).trans ?_
  exact Finset.sum_congr rfl fun k _ => congrArg v (lift_grp _ r k)

/-! ## The body's values at row r, one by one -/

/-- The elementwise exponential at an index is the exponential of the element. -/
theorem exp_at {s : Shape} (v : FVec Ideal s .f32) (i : s.Idx) : exp v i = Ideal.exp (v i) := rfl
/-- The elementwise logarithm at an index is the logarithm of the element. -/
theorem log_at {s : Shape} (v : FVec Ideal s .f32) (i : s.Idx) : log v i = Ideal.log (v i) := rfl
/-- A scalar float word is the extended real it encodes. -/
theorem word_at (b : BitVec 32) : Scalar.ofBits (F := Ideal) .f32 b = Ideal.ofBits .f32 b := rfl

/-- The true-class logit. -/
theorem pay3_at (x2 : Vec Ideal S16x1 .f32) (r : Fin 16) (u : Fin 1) : k0_pay3 x2 (ix2 r u) = x2 (ix2 r u) := by
  unfold k0_pay3
  rw [shapeCast_self]

/-- The shift m: the row's maximum. -/
theorem pay4_row (x0 : Vec Ideal S16x75000 .f32) (r : Fin 16) (u : Fin 1) :
    k0_pay4 x0 (ix2 r u) = Cert.Spec.rowMax fun k : Fin 75000 => x0 (ix2 r k) := by
  unfold k0_pay4
  rw [rowmax_keep]

/-- The shifted logit x k - m. -/
theorem pay5_at (x0 : Vec Ideal S16x75000 .f32) (r : Fin 16) (k : Fin 75000) :
    k0_pay5 x0 (ix2 r k) = x0 (ix2 r k) - Cert.Spec.rowMax fun k' : Fin 75000 => x0 (ix2 r k') := by
  unfold k0_pay5
  rw [subf_apply, broadcastTo_a1_ab_apply, pay4_row]

/-- s = ∑ exp (x k - m). -/
theorem pay6_row (x0 : Vec Ideal S16x75000 .f32) (r : Fin 16) (u : Fin 1) :
    k0_pay6 x0 (ix2 r u)
      = Cert.Spec.kS (fun k : Fin 75000 => x0 (ix2 r k)) (Cert.Spec.rowMax fun k : Fin 75000 => x0 (ix2 r k)) := by
  unfold k0_pay6
  rw [rowsum_keep]
  unfold Cert.Spec.kS
  refine Finset.sum_congr rfl fun k _ => ?_
  rw [exp_at, pay5_at]

/-- L = log s. -/
theorem pay7_row (x0 : Vec Ideal S16x75000 .f32) (r : Fin 16) (u : Fin 1) :
    k0_pay7 x0 (ix2 r u)
      = Ideal.log (Cert.Spec.kS (fun k : Fin 75000 => x0 (ix2 r k)) (Cert.Spec.rowMax fun k : Fin 75000 => x0 (ix2 r k))) := by
  unfold k0_pay7
  rw [log_at, pay6_row]

/-- 1 / s. -/
theorem pay8_row (x0 : Vec Ideal S16x75000 .f32) (r : Fin 16) (u : Fin 1) :
    k0_pay8 x0 (ix2 r u)
      = Ideal.div Cert.Spec.c1
          (Cert.Spec.kS (fun k : Fin 75000 => x0 (ix2 r k)) (Cert.Spec.rowMax fun k : Fin 75000 => x0 (ix2 r k))) := by
  unfold k0_pay8
  rw [divf_apply, broadcast_apply, pay6_row, word_at]

/-- The sum of the row's log-probabilities: ∑ (x k - m) - 75000 · L. -/
theorem pay9_row (x0 : Vec Ideal S16x75000 .f32) (r : Fin 16) (u : Fin 1) :
    k0_pay9 x0 (ix2 r u)
      = Cert.Spec.kSumLp (fun k : Fin 75000 => x0 (ix2 r k)) (Cert.Spec.rowMax fun k : Fin 75000 => x0 (ix2 r k)) := by
  unfold k0_pay9
  rw [subf_apply, mulf_apply, broadcast_apply, rowsum_keep, pay7_row, word_at]
  unfold Cert.Spec.kSumLp
  simp only [pay5_at]

/-- The sum of the three group logits. -/
theorem pay10_row (x1 : Vec Ideal S16x3 .f32) (r : Fin 16) (u : Fin 1) :
    k0_pay10 x1 (ix2 r u) = ∑ j : Fin 3, x1 (ix2 r j) := by
  unfold k0_pay10 k0_pay2
  rw [grpsum_keep, shapeCast_self]

/-- exp (gx j - m) for a group logit. -/
theorem grp_exp_at (x0 : Vec Ideal S16x75000 .f32) (x1 : FVec Ideal S16x3 .f32) (r : Fin 16) (j : Fin 3) :
    exp (subf x1 (broadcastTo S16x3 (k0_pay4 x0) broadcasts_S16x1_S16x3)) (ix2 r j)
      = Ideal.exp (x1 (ix2 r j) - Cert.Spec.rowMax fun k : Fin 75000 => x0 (ix2 r k)) := by
  rw [exp_at, subf_apply, broadcastTo_a1_ab_apply, pay4_row]

/-- ep1 = α (1 - (∑ exp (gx j - m)) / s). -/
theorem pay11_row (x0 : Vec Ideal S16x75000 .f32) (x1 : Vec Ideal S16x3 .f32) (r : Fin 16) (u : Fin 1) :
    k0_pay11 x0 x1 (ix2 r u)
      = Cert.Spec.cAlpha * (Cert.Spec.c1
          - (∑ j : Fin 3, Ideal.exp (x1 (ix2 r j) - Cert.Spec.rowMax fun k : Fin 75000 => x0 (ix2 r k)))
            * Ideal.div Cert.Spec.c1
                (Cert.Spec.kS (fun k : Fin 75000 => x0 (ix2 r k)) (Cert.Spec.rowMax fun k : Fin 75000 => x0 (ix2 r k)))) := by
  unfold k0_pay11 k0_pay2
  rw [mulf_apply, broadcast_apply, subf_apply, broadcast_apply, mulf_apply, grpsum_keep, pay8_row, shapeCast_self]
  simp only [grp_exp_at, word_at]

/-- ep2 = α (1 - exp (xt - m) / s). -/
theorem pay12_row (x0 : Vec Ideal S16x75000 .f32) (x2 : Vec Ideal S16x1 .f32) (r : Fin 16) (u : Fin 1) :
    k0_pay12 x0 x2 (ix2 r u)
      = Cert.Spec.cAlpha * (Cert.Spec.c1
          - Ideal.exp (x2 (ix2 r u) - Cert.Spec.rowMax fun k : Fin 75000 => x0 (ix2 r k))
            * Ideal.div Cert.Spec.c1
                (Cert.Spec.kS (fun k : Fin 75000 => x0 (ix2 r k)) (Cert.Spec.rowMax fun k : Fin 75000 => x0 (ix2 r k)))) := by
  unfold k0_pay12
  rw [mulf_apply, broadcast_apply, subf_apply, broadcast_apply, mulf_apply, pay8_row, exp_at, subf_apply, pay3_at, pay4_row]
  simp only [word_at]

/-- m + L. -/
theorem pay13_row (x0 : Vec Ideal S16x75000 .f32) (r : Fin 16) (u : Fin 1) :
    k0_pay13 x0 (ix2 r u)
      = (Cert.Spec.rowMax fun k : Fin 75000 => x0 (ix2 r k))
        + Ideal.log (Cert.Spec.kS (fun k : Fin 75000 => x0 (ix2 r k)) (Cert.Spec.rowMax fun k : Fin 75000 => x0 (ix2 r k))) := by
  unfold k0_pay13
  rw [addf_apply, pay4_row, pay7_row]

/-- The constant 3. -/
theorem pay14_at (r : Fin 16) (u : Fin 1) : (k0_pay14 (F := Ideal)) (ix2 r u) = Cert.Spec.c3 := by
  unfold k0_pay14
  rw [broadcast_apply, word_at]

/-- The named reciprocal is the rational it names. -/
theorem inv_d : Named.named (F := Ideal) Cert.KernelIdeal.κ "fold_inv_74997" (φ := .f32) 0x375FB485#32 = Cert.Spec.cInvD :=
  IdealRules.named_const.ideal_named_scalar _ _ _ _ rfl

/-- The last value at an index, over any nine columns: the body's closing arithmetic, element by element. -/
theorem pay1_at (v4 v6 v14 v19 v21 v34 v38 v39 v40 : FVec Ideal S16x1 .f32) (i : S16x1.Idx) :
    k0_pay1 v4 v6 v14 v19 v21 v34 v38 v39 v40 i
      = Cert.Spec.cNeg09 * ((v34 i * Cert.Spec.cInvD) * (v19 i - (v21 i - v40 i * v39 i))
            + (Cert.Spec.cHalf * v38 i) * ((v21 i - v40 i * v39 i) - (v4 i - v6 i - v14 i))
            + (Cert.Spec.c1 - v34 i - v38 i) * (v4 i - v6 i - v14 i))
          - Cert.Spec.cEK * v19 i := by
  unfold k0_pay1
  simp only [mulf_apply, subf_apply, addf_apply, broadcast_apply, inv_d, word_at]

/-- Row r of the output block. -/
theorem out_row (x0 : Vec Ideal S16x75000 .f32) (x1 : Vec Ideal S16x3 .f32) (x2 : Vec Ideal S16x1 .f32) (r : Fin 16) :
    Gen.out0_3 (F := Ideal) x0 x1 x2 (ix2 r (0 : Fin 1))
      = Cert.Spec.kRow (fun k : Fin 75000 => x0 (ix2 r k)) (Cert.Spec.rowMax fun k : Fin 75000 => x0 (ix2 r k))
          (fun j : Fin 3 => x1 (ix2 r j)) (x2 (ix2 r (0 : Fin 1))) := by
  unfold Gen.out0_3
  rw [View.canon_unit_zero zeros2]
  simp only [View.ld_unit_zero (S := S16x75000) zeros2, View.ld_unit_zero (S := S16x3) zeros2,
    View.ld_unit_zero (S := S16x1) zeros2]
  rw [pay1_at, pay3_at, pay4_row, pay7_row, pay9_row, pay10_row, pay11_row, pay12_row, pay13_row, pay14_at]
  unfold Cert.Spec.kRow
  with_reducible rfl

end Cert.KernelIdeal.Body

end
-- ==== Proof.KernelHost.lean ====
/-
  The two small arrays the wrapper gathers before the launch: the three group logits of every sample and its
  true-class logit, read off the logits at the columns the (clipped, here unchanged) integer inputs name.
-/
import proofs.«408677_j82240033784032_3_alg».proof.Proof.Gen.KernelIdeal.Frame
import proofs.«408677_j82240033784032_3_alg».proof.Proof.Spec
import proofs.«408677_j82240033784032_3_alg».proof.Proof.ScatterLib
import Idealize.ShloMosaic.Lib.ValueIdx
import Idealize.ShloMosaic.Lib.Pipeline.Value

set_option maxRecDepth 16384

noncomputable section

namespace Cert.KernelIdeal.HostVals

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The logits, the group numbers and the member numbers as launched on core `c`. -/
abbrev xA (c : Dev nD) : S512x75000.Idx → EReal := m ((c : Thread nD τ).loc main_arg0)
abbrev pA (c : Dev nD) : S512.Idx → BitVec 32 := m ((c : Thread nD τ).loc main_arg1)
abbrev vA (c : Dev nD) : S512.Idx → BitVec 32 := m ((c : Thread nD τ).loc main_arg2)

/-! ## Words -/

/-- A word between the bounds is left alone by the clip. -/
theorem clip_id (lo hi p : BitVec 32) (h0 : lo.toInt ≤ p.toInt) (h1 : p.toInt ≤ hi.toInt) :
    IntOp.minsi hi (IntOp.maxsi lo p) = p := by
  have e1 : IntOp.maxsi lo p = p := by
    unfold IntOp.maxsi; rw [BitVec.slt_eq_decide, if_neg (by simpa using h0)]
  rw [e1]; unfold IntOp.minsi; rw [BitVec.slt_eq_decide, if_neg (by simpa using h1)]

/-- A non-negative word read as a natural number. -/
theorem toNat_of_nonneg (p : BitVec 32) (h : 0 ≤ p.toInt) : (p.toNat : Int) = p.toInt ∧ p.toNat < 2 ^ 31 := by
  have h1 := BitVec.toInt_eq_toNat_cond p
  have h2 := p.isLt
  split at h1 <;> omega

/-- A word below 2^31 as a natural number is non-negative as an integer. -/
theorem toInt_of_lt (p : BitVec 32) (h : p.toNat < 2 ^ 31) : p.toInt = (p.toNat : Int) := by
  have h1 := BitVec.toInt_eq_toNat_cond p
  split at h1 <;> omega

/-- The select that counts a negative index from the end leaves a non-negative one alone. -/
theorem wrap_nonneg (x a : BitVec 32) (h : 0 ≤ x.toInt) :
    Scalar.select (IntOp.cmpi .slt x 0#32) a x = x := by
  have e : x.slt 0#32 = false := by
    rw [BitVec.slt_eq_decide]; simpa using h
  unfold IntOp.cmpi
  simp only [e]
  exact select_zero _ _

/-- The column word 3 p + j of a group number in range. -/
theorem col_toNat (p : BitVec 32) (j : Nat) (hp0 : 0 ≤ p.toInt) (hp1 : p.toInt < 25000) (hj : j < 3) :
    (IntOp.addi (IntOp.muli p 3#32) (BitVec.ofNat 32 j)).toNat = 3 * p.toNat + j := by
  obtain ⟨e, _⟩ := toNat_of_nonneg p hp0
  have hp : p.toNat < 25000 := by omega
  unfold IntOp.addi IntOp.muli
  rw [BitVec.toNat_add, BitVec.toNat_mul, BitVec.toNat_ofNat]
  show (p.toNat * 3 % 2 ^ 32 + j % 2 ^ 32) % 2 ^ 32 = 3 * p.toNat + j
  omega

theorem row_toNat (b : Nat) (hb : b < 512) : (BitVec.ofNat 32 b).toNat = b := by
  rw [BitVec.toNat_ofNat]; omega

/-! ## The operations' terms -/

/-- `jnp.clip` of a vector of words into [lo, hi]. -/
def clipW (lo hi : BitVec 32) (p : IVec S512 32) : IVec S512 32 :=
  minsi (broadcastInDim S512 ![] bcast_S_S512 (constantI S_ 32 hi))
    (maxsi (broadcastInDim S512 ![] bcast_S_S512 (constantI S_ 32 lo)) p)

/-- An index counted from the end when negative: `i < 0 ? i + n : i`. -/
def wrapW {s : Shape} (h : S_.BroadcastsInDim s ![]) (n : BitVec 32) (i : IVec s 32) : IVec s 32 :=
  select (cmpi .slt i (broadcastInDim s ![] h (constantI S_ 32 0#32)))
    (addi i (broadcastInDim s ![] h (constantI S_ 32 n))) i

/-- The row numbers 0 … 511, one per entry of the [512, 3] table. -/
def rowsW : IVec S512x3 32 :=
  broadcastInDim S512x3 ![0, 1] bcast_S512x1_S512x3_0_1
    (wrapW bcast_S_S512x1 512#32 (broadcastInDim S512x1 ![0] bcast_S512_S512x1_0 (iotaInDim S512 32 0)))

/-- The columns 3 p_b + j. -/
def colsW (p : IVec S512 32) : IVec S512x3 32 :=
  wrapW bcast_S_S512x3 75000#32
    (addi
      (broadcastInDim S512x3 ![0, 1] bcast_S512x1_S512x3_0_1
        (broadcastInDim S512x1 ![0] bcast_S512_S512x1_0
          (muli p (broadcastInDim S512 ![] bcast_S_S512 (constantI S_ 32 3#32)))))
      (broadcastInDim S512x3 ![0, 1] bcast_S1x3_S512x3_0_1
        (broadcastInDim S1x3 ![1] bcast_S3_S1x3_1 (iotaInDim S3 32 0))))

/-- The table of (row, column) pairs. -/
def tabW (p : IVec S512 32) : IVec S512x3x2 32 :=
  concatenate S512x3x2 2
    [⟨S512x3x1, broadcastInDim S512x3x1 ![0, 1] bcast_S512x3_S512x3x1_0_1 rowsW⟩,
     ⟨S512x3x1, broadcastInDim S512x3x1 ![0, 1] bcast_S512x3_S512x3x1_0_1 (colsW p)⟩]
    concatenates_S512x3x1_S512x3x1_S512x3x2_d2

/-- The member number of each row as a [512, 1, 1] array of indices into the row's three entries. -/
def takeIdxW (v : IVec S512x1 32) : IVec S512x1x1 32 :=
  shapeCast S512x1x1 (wrapW bcast_S_S512x1 3#32 v) shapeCasts_S512x1_S512x1x1

/-- Whether each row's index lies in [0, 2]. -/
def maskW (i : IVec S512x1x1 32) : IVec S512x1 1 :=
  Host.reduce IntOp.andi
    (andi (cmpi .sge i (broadcastInDim S512x1x1 ![] bcast_S_S512x1x1 (constantI S_ 32 0#32)))
      (cmpi .sle i (broadcastInDim S512x1x1 ![0, 1, 2] bcast_S1x1x1_S512x1x1_0_1_2
        (broadcastInDim S1x1x1 ![2] bcast_S1_S1x1x1_2 (constantI S1 32 2#32)))))
    (constantI S_ 1 1#1) reducesTo_S512x1x1_S512x1_d2 h_S_

/-- One entry of each row of `g`, the not-a-number where the index is out of range. -/
def takeW (g : S512x3.Idx → EReal) (v : IVec S512x1 32) : S512x1.Idx → EReal :=
  select (maskW (takeIdxW v))
    (Host.gather gather_S512x3_S512x1x1_S512x1_n_1_0_0_1_2_11 g (takeIdxW v))
    (broadcastInDim S512x1 ![] bcast_S_S512x1 (constant (F := Ideal) S_ .f32 0x7FC00000#32))

/-! ## What the buffers hold when the region is entered -/

/-- The contents before the last called function's operations. -/
abbrev W0 (c : Dev nD) : Valuation τ sig (Elt Ideal) :=
  StableHlo.after (Gen.hostOps0 ++ (Gen.hostOps0_1 ++ (Gen.hostOps0_2 ++ (Gen.hostOps0_3 ++ Gen.hostOps0_4))))
    (fun b => m (c, b))

theorem V0_eq (c : Dev nD) : Gen.V0 m c = StableHlo.after Gen.hostOps0_5 (W0 m c) := by
  dsimp only [Gen.V0, W0]
  rw [← StableHlo.after_append]
  simp only [List.flatten_cons, List.flatten_nil, List.append_nil, List.append_assoc]

set_option maxHeartbeats 4000000 in
theorem A26 (c : Dev nD) : (W0 m c (Proc.devRef .tc main_v26) : S512x3.Idx → EReal)
    = Host.gather gather_S512x75000_S512x3x2_S512x3_n_01_n_n_01_2_11 (xA m c) (tabW (clipW 0#32 24999#32 (pA m c))) := by
  dsimp only [W0]
  simp only [Gen.hostOps0, Gen.hostOps0_1, Gen.hostOps0_2, Gen.hostOps0_3, Gen.hostOps0_4, List.cons_append, List.nil_append]
  after_results
  rfl

set_option maxHeartbeats 4000000 in
theorem A27 (c : Dev nD) : (W0 m c (Proc.devRef .tc main_v27) : S512x1.Idx → BitVec 32)
    = broadcastInDim S512x1 ![0] bcast_S512_S512x1_0 (clipW 0#32 2#32 (vA m c)) := by
  dsimp only [W0]
  simp only [Gen.hostOps0, Gen.hostOps0_1, Gen.hostOps0_2, Gen.hostOps0_3, Gen.hostOps0_4, List.cons_append, List.nil_append]
  after_results
  rfl

set_option maxHeartbeats 4000000 in
theorem B26 (W : Valuation τ sig (Elt Ideal)) :
    (StableHlo.after (Gen.hostOps0_5 (F := Ideal)) W (Proc.devRef .tc main_v26) : S512x3.Idx → EReal)
      = W (Proc.devRef .tc main_v26) := by
  simp only [Gen.hostOps0_5]
  after_results

set_option maxHeartbeats 4000000 in
theorem B28 (W : Valuation τ sig (Elt Ideal)) :
    (StableHlo.after (Gen.hostOps0_5 (F := Ideal)) W (Proc.devRef .tc main_v28) : S512x1.Idx → EReal)
      = takeW (W (Proc.devRef .tc main_v26)) (W (Proc.devRef .tc main_v27)) := by
  simp only [Gen.hostOps0_5]
  after_results
  rfl

theorem e26 (c : Dev nD) : (Gen.V m c main_v26 : S512x3.Idx → EReal)
    = Host.gather gather_S512x75000_S512x3x2_S512x3_n_01_n_n_01_2_11 (xA m c) (tabW (clipW 0#32 24999#32 (pA m c))) :=
  (congrFun (V0_eq m c) (Proc.devRef .tc main_v26)).trans ((B26 (W0 m c)).trans (A26 m c))

theorem e28 (c : Dev nD) : (Gen.V m c main_v28 : S512x1.Idx → EReal)
    = takeW (Host.gather gather_S512x75000_S512x3x2_S512x3_n_01_n_n_01_2_11 (xA m c) (tabW (clipW 0#32 24999#32 (pA m c))))
        (broadcastInDim S512x1 ![0] bcast_S512_S512x1_0 (clipW 0#32 2#32 (vA m c))) := by
  refine (congrFun (V0_eq m c) (Proc.devRef .tc main_v28)).trans ((B28 (W0 m c)).trans ?_)
  rw [A26, A27]

/-! ## Reading the terms at an index -/

theorem foldl_andi_one {ι : Type} (l : List ι) (x : ι → BitVec 1) (h : ∀ i, x i = 1#1) :
    l.foldl (fun r i => IntOp.andi r (x i)) 1#1 = 1#1 := by
  induction l with
  | nil => rfl
  | cons a l ih => rw [List.foldl_cons, h a, show IntOp.andi 1#1 1#1 = 1#1 from rfl]; exact ih

/-- A word in [0, 2] passes the range test. -/
theorem in_range_bit (x : BitVec 32) (h0 : 0 ≤ x.toInt) (h1 : x.toInt ≤ 2) :
    IntOp.andi (IntOp.cmpi .sge x 0#32) (IntOp.cmpi .sle x 2#32) = 1#1 := by
  have e0 : (0#32).sle x = true := by rw [BitVec.sle_eq_decide]; simpa using h0
  have e1 : x.sle 2#32 = true := by
    rw [BitVec.sle_eq_decide]
    have : (2#32).toInt = 2 := by decide
    rw [this]; simpa using h1
  unfold IntOp.cmpi
  simp only [e0, e1]
  rfl

theorem clipW_apply (lo hi : BitVec 32) (p : IVec S512 32) (i : S512.Idx) :
    clipW lo hi p i = IntOp.minsi hi (IntOp.maxsi lo (p i)) := rfl

theorem wrapW_apply {s : Shape} (h : S_.BroadcastsInDim s ![]) (n : BitVec 32) (i : IVec s 32) (k : s.Idx) :
    wrapW h n i k = Scalar.select (IntOp.cmpi .slt (i k) 0#32) (IntOp.addi (i k) n) (i k) := rfl

theorem bc_col {α : Type} (v : S512.Idx → α) (b : Fin 512) (z : Fin 1) :
    broadcastInDim S512x1 ![0] bcast_S512_S512x1_0 v (ix2 b z) = v (ix1 b) :=
  broadcastInDim_apply _ _ v _ (ix1 b) (fun a => by obtain rfl : a = 0 := Subsingleton.elim _ _; rfl)

theorem bc_rows {α : Type} (v : S512x1.Idx → α) (b : Fin 512) (j : Fin 3) :
    broadcastInDim S512x3 ![0, 1] bcast_S512x1_S512x3_0_1 v (ix2 b j) = v (ix2 b (0 : Fin 1)) :=
  broadcastInDim_apply _ _ v _ (ix2 b (0 : Fin 1)) (fun a => by match a with | ⟨0, _⟩ => rfl | ⟨1, _⟩ => rfl)

theorem bc_iota3 (b : Fin 512) (j : Fin 3) :
    broadcastInDim S512x3 ![0, 1] bcast_S1x3_S512x3_0_1
      (broadcastInDim S1x3 ![1] bcast_S3_S1x3_1 (iotaInDim S3 32 0)) (ix2 b j) = BitVec.ofNat 32 j.val := by
  rw [broadcastInDim_apply _ _ _ _ (ix2 (0 : Fin 1) j) (fun a => by match a with | ⟨0, _⟩ => rfl | ⟨1, _⟩ => rfl),
    broadcastInDim_apply _ _ _ _ (ix1 j) (fun a => by obtain rfl : a = 0 := Subsingleton.elim _ _; rfl)]
  rfl

theorem bc_last {α : Type} (v : S512x3.Idx → α) (b : Fin 512) (j : Fin 3) (z : Fin 1) :
    broadcastInDim S512x3x1 ![0, 1] bcast_S512x3_S512x3x1_0_1 v (ix3 b j z) = v (ix2 b j) :=
  broadcastInDim_apply _ _ v _ (ix2 b j) (fun a => by match a with | ⟨0, _⟩ => rfl | ⟨1, _⟩ => rfl)

/-- The table's first component is the row number. -/
theorem tab_row (p : IVec S512 32) (b : Fin 512) (j : Fin 3) :
    tabW p (ix3 b j (0 : Fin 2)) = BitVec.ofNat 32 b.val := by
  unfold tabW
  rw [concatenate_pair_apply_left (s₁ := S512x3x1) (s₂ := S512x3x1) (t := S512x3x2) (2 : Fin 3) _ _ _ (ix3 b j (0 : Fin 2)) rfl (ix3 b j (0 : Fin 1))
    (fun a => by match a with | ⟨0, _⟩ => rfl | ⟨1, _⟩ => rfl | ⟨2, _⟩ => rfl)]
  rw [bc_last]
  unfold rowsW
  rw [bc_rows, wrapW_apply, bc_col]
  have e : iotaInDim S512 32 0 (ix1 b) = BitVec.ofNat 32 b.val := rfl
  rw [e]
  refine wrap_nonneg _ _ ?_
  rw [toInt_of_lt _ (by rw [row_toNat _ b.isLt]; have := b.isLt; omega)]
  exact Int.natCast_nonneg _

/-- The table's second component is the column word, left alone by the select when non-negative. -/
theorem tab_col (p : IVec S512 32) (b : Fin 512) (j : Fin 3)
    (hp : 0 ≤ (p (ix1 b)).toInt ∧ (p (ix1 b)).toInt < 25000) :
    tabW p (ix3 b j (1 : Fin 2)) = IntOp.addi (IntOp.muli (p (ix1 b)) 3#32) (BitVec.ofNat 32 j.val) := by
  unfold tabW
  rw [concatenate_pair_apply_right (s₁ := S512x3x1) (s₂ := S512x3x1) (t := S512x3x2) (2 : Fin 3) _ _ _ (ix3 b j (1 : Fin 2)) rfl rfl (ix3 b j (0 : Fin 1))
    (fun a ha => by match a with | ⟨0, _⟩ => rfl | ⟨1, _⟩ => rfl | ⟨2, _⟩ => exact absurd rfl ha) rfl]
  rw [bc_last]
  unfold colsW
  rw [wrapW_apply]
  have e : addi
      (broadcastInDim S512x3 ![0, 1] bcast_S512x1_S512x3_0_1
        (broadcastInDim S512x1 ![0] bcast_S512_S512x1_0
          (muli p (broadcastInDim S512 ![] bcast_S_S512 (constantI S_ 32 3#32)))))
      (broadcastInDim S512x3 ![0, 1] bcast_S1x3_S512x3_0_1
        (broadcastInDim S1x3 ![1] bcast_S3_S1x3_1 (iotaInDim S3 32 0))) (ix2 b j)
      = IntOp.addi (IntOp.muli (p (ix1 b)) 3#32) (BitVec.ofNat 32 j.val) := by
    show IntOp.addi _ _ = _
    rw [bc_rows, bc_col, bc_iota3]
    rfl
  rw [e]
  refine wrap_nonneg _ _ ?_
  have hn := col_toNat (p (ix1 b)) j.val hp.1 hp.2 j.isLt
  obtain ⟨e2, _⟩ := toNat_of_nonneg _ hp.1
  rw [toInt_of_lt _ (by rw [hn]; have := j.isLt; omega)]
  exact Int.natCast_nonneg _

/-- The gather of the logits at the table, read at (b, j). -/
theorem grp_read (x : S512x75000.Idx → EReal) (p : IVec S512 32)
    (hp : ∀ i, 0 ≤ (p i).toInt ∧ (p i).toInt < 25000) (b : Fin 512) (j : Fin 3) :
    Host.gather gather_S512x75000_S512x3x2_S512x3_n_01_n_n_01_2_11 x (tabW p) (ix2 b j)
      = x (ix2 b (Cert.Spec.grpCol (p (ix1 b)) j)) := by
  unfold Host.gather
  rw [show gather_S512x75000_S512x3x2_S512x3_n_01_n_n_01_2_11 = Cert.ScatterLib.gDims3 _ from rfl,
    Cert.ScatterLib.gDims3_operandIdx]
  have hp1 := hp (ix1 b)
  have hn := col_toNat (p (ix1 b)) j.val hp1.1 hp1.2 j.isLt
  obtain ⟨e2, _⟩ := toNat_of_nonneg _ hp1.1
  have e0 : (tabW p (ix3 b j (0 : Fin 2))).toInt.toNat = b.val := by
    rw [tab_row, toInt_of_lt _ (by rw [row_toNat _ b.isLt]; have := b.isLt; omega), row_toNat _ b.isLt]
    exact Int.toNat_natCast _
  have e1 : (tabW p (ix3 b j (1 : Fin 2))).toInt.toNat = 3 * (p (ix1 b)).toNat + j.val := by
    rw [tab_col p b j (hp _), toInt_of_lt _ (by rw [hn]; have := j.isLt; omega), hn]
    exact Int.toNat_natCast _
  congr 1
  funext d
  match d with
  | ⟨0, _⟩ => exact Fin.ext (by show min _ 511 = b.val; rw [e0]; have := b.isLt; omega)
  | ⟨1, _⟩ =>
    exact Fin.ext (by
      show min _ 74999 = (3 * (p (ix1 b)).toNat + j.val) % 75000
      rw [e1]; have := j.isLt; omega)

/-- An `and`-reduction of bits that are all one, from one, is one. -/
theorem reduce_andi_one {s t u : Shape} {axes : List (Fin s.rank)} (x : IVec s 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  unfold Host.reduce
  rw [hi]
  exact foldl_andi_one _ (fun n => x (s.rowMajor.symm n)) (fun n => hx _)

/-- The entry of each row of `g` its member number names, for member numbers in [0, 2]. -/
theorem take_read (g : S512x3.Idx → EReal) (v : IVec S512 32) (hv : ∀ i, 0 ≤ (v i).toInt ∧ (v i).toInt < 3)
    (b : Fin 512) (k : Fin 3) (hk : k.val = (v (ix1 b)).toNat) :
    takeW g (broadcastInDim S512x1 ![0] bcast_S512_S512x1_0 v) (ix2 b (0 : Fin 1)) = g (ix2 b k) := by
  have hall : ∀ q : S512x1.Idx, ∃ i, broadcastInDim S512x1 ![0] bcast_S512_S512x1_0 v q = v i := fun q => ⟨_, rfl⟩
  have hw : ∀ q : S512x1.Idx, wrapW bcast_S_S512x1 3#32 (broadcastInDim S512x1 ![0] bcast_S512_S512x1_0 v) q
      = broadcastInDim S512x1 ![0] bcast_S512_S512x1_0 v q := fun q => by
    rw [wrapW_apply]; obtain ⟨i, e⟩ := hall q; rw [e]; exact wrap_nonneg _ _ (hv i).1
  have hidx : ∀ q : S512x1x1.Idx, ∃ i, takeIdxW (broadcastInDim S512x1 ![0] bcast_S512_S512x1_0 v) q = v i := fun q => by
    unfold takeIdxW shapeCast; rw [hw]; exact hall _
  have hmask : maskW (takeIdxW (broadcastInDim S512x1 ![0] bcast_S512_S512x1_0 v)) (ix2 b (0 : Fin 1)) = 1#1 := by
    unfold maskW
    refine reduce_andi_one _ _ _ _ _ (fun q => ?_) rfl
    obtain ⟨i, e⟩ := hidx q
    show IntOp.andi (IntOp.cmpi .sge (takeIdxW (broadcastInDim S512x1 ![0] bcast_S512_S512x1_0 v) q) 0#32)
      (IntOp.cmpi .sle (takeIdxW (broadcastInDim S512x1 ![0] bcast_S512_S512x1_0 v) q) 2#32) = 1#1
    rw [e]
    have := hv i
    exact in_range_bit _ this.1 (by omega)
  have h00 : takeIdxW (broadcastInDim S512x1 ![0] bcast_S512_S512x1_0 v) (ix3 b (0 : Fin 1) (0 : Fin 1)) = v (ix1 b) := by
    unfold takeIdxW
    rw [shapeCast_apply _ _ _ (ix2 b (0 : Fin 1)) (by
      rw [Shape.rowMajor_val_two, Shape.rowMajor_val_three]
      show b.val * 1 + 0 = (b.val * 1 + 0) * 1 + 0
      omega), hw, bc_col]
  unfold takeW
  rw [select_apply, hmask, select_one]
  unfold Host.gather
  rw [show gather_S512x3_S512x1x1_S512x1_n_1_0_0_1_2_11 = Cert.ScatterLib.gDimsT _ from rfl,
    Cert.ScatterLib.gDimsT_operandIdx, ]
  congr 1
  funext d
  have hvb := hv (ix1 b)
  obtain ⟨e2, _⟩ := toNat_of_nonneg _ hvb.1
  match d with
  | ⟨0, _⟩ => rfl
  | ⟨1, _⟩ =>
    exact Fin.ext (by
      show min _ 2 = k.val
      rw [h00, hk]
      omega)

/-! ## The two arrays -/

/-- The gathered group logits: entry (b, j) is the logit of sample b at column 3 p_b + j. -/
theorem V_grp (c : Dev nD) (hp : ∀ i, 0 ≤ (pA m c i).toInt ∧ (pA m c i).toInt < 25000) (b : Fin 512) (j : Fin 3) :
    (Gen.V m c main_v26 : S512x3.Idx → EReal) (ix2 b j) = xA m c (ix2 b (Cert.Spec.grpCol (pA m c (ix1 b)) j)) := by
  have ep : clipW 0#32 24999#32 (pA m c) = pA m c := by
    funext i
    rw [clipW_apply]
    have h24 : (24999#32).toInt = 24999 := by decide
    exact clip_id _ _ _ (by simpa using (hp i).1) (by have := (hp i).2; omega)
  rw [e26, ep]
  exact grp_read _ _ hp b j

/-- The gathered true-class logit: entry (b, 0) is the logit of sample b at column 3 p_b + v_b. -/
theorem V_true (c : Dev nD) (hp : ∀ i, 0 ≤ (pA m c i).toInt ∧ (pA m c i).toInt < 25000)
    (hv : ∀ i, 0 ≤ (vA m c i).toInt ∧ (vA m c i).toInt < 3) (b : Fin 512) :
    (Gen.V m c main_v28 : S512x1.Idx → EReal) (ix2 b (0 : Fin 1))
      = xA m c (ix2 b (Cert.Spec.trCol (pA m c (ix1 b)) (vA m c (ix1 b)))) := by
  have ep : clipW 0#32 24999#32 (pA m c) = pA m c := by
    funext i
    rw [clipW_apply]
    have h24 : (24999#32).toInt = 24999 := by decide
    exact clip_id _ _ _ (by simpa using (hp i).1) (by have := (hp i).2; omega)
  have ev : clipW 0#32 2#32 (vA m c) = vA m c := by
    funext i
    rw [clipW_apply]
    have h2 : (2#32).toInt = 2 := by decide
    exact clip_id _ _ _ (by simpa using (hv i).1) (by have := (hv i).2; omega)
  have hvb := hv (ix1 b)
  obtain ⟨e2, _⟩ := toNat_of_nonneg _ hvb.1
  rw [e28, ep, ev, take_read _ _ hv b ⟨(vA m c (ix1 b)).toNat, by omega⟩ rfl, grp_read _ _ hp b]
  rfl

end Cert.KernelIdeal.HostVals

end
-- ==== Proof.KernelValue.lean ====
/-
  The streaming program's result: every grid point writes sixteen row losses, the thirty-two blocks tile the [512, 1]
  array of row losses, and the lines after the launch sum the array and divide by 512.
-/
import proofs.«408677_j82240033784032_3_alg».proof.Proof.Gen.KernelIdeal.Frame
import proofs.«408677_j82240033784032_3_alg».proof.Proof.Spec
import proofs.«408677_j82240033784032_3_alg».proof.Proof.KernelBody
import proofs.«408677_j82240033784032_3_alg».proof.Proof.KernelHost
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Result

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- Row `b`'s loss from the three arrays the launch reads. -/
def rowLoss (X : S512x75000.Idx → EReal) (GX : S512x3.Idx → EReal) (XT : S512x1.Idx → EReal) (b : Fin 512) : EReal :=
  Cert.Spec.kRow (fun k : Fin 75000 => X (ix2 b k)) (Cert.Spec.rowMax fun k : Fin 75000 => X (ix2 b k))
    (fun j : Fin 3 => GX (ix2 b j)) (XT (ix2 b (0 : Fin 1)))

/-- The array of row losses. -/
def lossArr (X : S512x75000.Idx → EReal) (GX : S512x3.Idx → EReal) (XT : S512x1.Idx → EReal) : S512x1.Idx → EReal :=
  fun i => rowLoss X GX XT ⟨(i 0).val, idx2_lt0 i⟩

theorem lossArr_ix2 (X : S512x75000.Idx → EReal) (GX : S512x3.Idx → EReal) (XT : S512x1.Idx → EReal) (a : Fin 512) :
    lossArr X GX XT (ix2 a (0 : Fin 1)) = rowLoss X GX XT a := rfl

/-- Every window's block index at point `t` is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem N_eq : cfg0.N = 32 := by decide

/-- Reading the three input arrays through point `t`'s blocks at row `r` and the loss array through its block at row `r`
    is reading all four at row 16 t + r: for ANY three arrays. -/
theorem block_rows (A0 : S512x75000.Idx → EReal) (A1 : S512x3.Idx → EReal) (A2 : S512x1.Idx → EReal) (t : Fin cfg0.N) (r : Fin 16) :
    Cert.Spec.kRow (fun k : Fin 75000 => ((cfg0.win 0).blk t).view.read (Elt Ideal) A0 (ix2 r k))
        (Cert.Spec.rowMax fun k : Fin 75000 => ((cfg0.win 0).blk t).view.read (Elt Ideal) A0 (ix2 r k))
        (fun j : Fin 3 => ((cfg0.win 1).blk t).view.read (Elt Ideal) A1 (ix2 r j))
        (((cfg0.win 2).blk t).view.read (Elt Ideal) A2 (ix2 r (0 : Fin 1)))
      = ((cfg0.win 3).blk t).view.read (Elt Ideal) (lossArr A0 A1 A2) (ix2 r (0 : Fin 1)) := by
  obtain ⟨e00, e01, e10, e11, e20, e21, e30, e31⟩ := idx_facts t
  have ht : t.val < 32 := lt_of_lt_of_eq t.isLt N_eq
  have g0 : ∀ k : Fin 75000, ((cfg0.win 0).blk t).view.emb (ix2 r k) = ix2 (⟨16 * t.val + r.val, by omega⟩ : Fin 512) k := by
    intro k; funext a; apply Fin.ext
    match a with
    | ⟨0, _⟩ => show win0_0.index t (0 : Fin 2) * 16 + 1 * r.val = 16 * t.val + r.val; omega
    | ⟨1, _⟩ => show win0_0.index t (1 : Fin 2) * 75000 + 1 * k.val = k.val; omega
  have g1 : ∀ j : Fin 3, ((cfg0.win 1).blk t).view.emb (ix2 r j) = ix2 (⟨16 * t.val + r.val, by omega⟩ : Fin 512) j := by
    intro j; funext a; apply Fin.ext
    match a with
    | ⟨0, _⟩ => show win0_1.index t (0 : Fin 2) * 16 + 1 * r.val = 16 * t.val + r.val; omega
    | ⟨1, _⟩ => show win0_1.index t (1 : Fin 2) * 3 + 1 * j.val = j.val; omega
  have g2 : ∀ q : Fin 1, ((cfg0.win 2).blk t).view.emb (ix2 r q) = ix2 (⟨16 * t.val + r.val, by omega⟩ : Fin 512) q := by
    intro q; funext a; apply Fin.ext
    match a with
    | ⟨0, _⟩ => show win0_2.index t (0 : Fin 2) * 16 + 1 * r.val = 16 * t.val + r.val; omega
    | ⟨1, _⟩ => show win0_2.index t (1 : Fin 2) * 1 + 1 * q.val = q.val; omega
  have g3 : ∀ q : Fin 1, ((cfg0.win 3).blk t).view.emb (ix2 r q) = ix2 (⟨16 * t.val + r.val, by omega⟩ : Fin 512) q := by
    intro q; funext a; apply Fin.ext
    match a with
    | ⟨0, _⟩ => show win0_3.index t (0 : Fin 2) * 16 + 1 * r.val = 16 * t.val + r.val; omega
    | ⟨1, _⟩ => show win0_3.index t (1 : Fin 2) * 1 + 1 * q.val = q.val; omega
  have hb0 : ∀ k : Fin 75000, ((cfg0.win 0).blk t).view.read (Elt Ideal) A0 (ix2 r k) = A0 (ix2 (⟨16 * t.val + r.val, by omega⟩ : Fin 512) k) := by
    intro k; rw [View.read_apply, g0 k]; rfl
  have hb1 : ∀ j : Fin 3, ((cfg0.win 1).blk t).view.read (Elt Ideal) A1 (ix2 r j) = A1 (ix2 (⟨16 * t.val + r.val, by omega⟩ : Fin 512) j) := by
    intro j; rw [View.read_apply, g1 j]; rfl
  have hb2 : ∀ q : Fin 1, ((cfg0.win 2).blk t).view.read (Elt Ideal) A2 (ix2 r q) = A2 (ix2 (⟨16 * t.val + r.val, by omega⟩ : Fin 512) q) := by
    intro q; rw [View.read_apply, g2 q]; rfl
  have hb3 : ∀ q : Fin 1, ((cfg0.win 3).blk t).view.read (Elt Ideal) (lossArr A0 A1 A2) (ix2 r q) = lossArr A0 A1 A2 (ix2 (⟨16 * t.val + r.val, by omega⟩ : Fin 512) q) := by
    intro q; rw [View.read_apply, g3 q]; rfl
  rw [hb3, lossArr_ix2]
  unfold rowLoss
  simp only [hb0, hb1, hb2]

/-- Point `t` writes back block `t` of the array of row losses. -/
theorem flushed3_eq (c : Dev nD) (t : Fin cfg0.N) :
    (dats m 0 c).flushed 3 t
      = ((cfg0.win 3).blk t).view.read (Elt Ideal) (lossArr (V m c (Pipeline.arrRef spec0 0)) (V m c (Pipeline.arrRef spec0 1)) (V m c (Pipeline.arrRef spec0 2))) := by
  show (cfg0.win 3).cut (grid0.coords t) ((dats m 0 c).after 3 t) = _
  rw [after0_3]
  funext y
  obtain ⟨r, q, rfl⟩ : ∃ (r : Fin 16) (q : Fin 1), y = ix2 r q := ⟨y 0, y 1, eq_ix2 y⟩
  obtain rfl : q = 0 := Subsingleton.elim _ _
  show out0_3 (iblk m c 0 t) (iblk m c 1 t) (iblk m c 2 t) (ix2 r (0 : Fin 1)) = _
  refine (Cert.KernelIdeal.Body.out_row (iblk m c 0 t) (iblk m c 1 t) (iblk m c 2 t) r).trans ?_
  exact block_rows (V m c (Pipeline.arrRef spec0 0)) (V m c (Pipeline.arrRef spec0 1)) (V m c (Pipeline.arrRef spec0 2)) t r

/-- An index of the loss array is in point `t`'s block iff its row is one of the block's sixteen. -/
theorem mem_blk3 (t : Fin cfg0.N) (i : S512x1.Idx) :
    i ∈ ((cfg0.win 3).blk t).view.set ↔ ∀ a : Fin 2, win0_3.index t a * S16x1.size a ≤ (i a).val ∧ (i a).val < win0_3.index t a * S16x1.size a + S16x1.size a := by
  show i ∈ ((View.whole main_v29).slice (win0_3.rect t)).set ↔ _
  rw [View.set_slice_whole, Rect.mem_set_unit]
  exact Iff.rfl

/-- The array of row losses after the launch. -/
theorem final3 (c : Dev nD) :
    (dats m 0 c).arrAt 3 cfg0.N = lossArr (V m c (Pipeline.arrRef spec0 0)) (V m c (Pipeline.arrRef spec0 1)) (V m c (Pipeline.arrRef spec0 2)) :=
  (dats m 0 c).arrAt_eq_of_cover 3 (lossArr (V m c (Pipeline.arrRef spec0 0)) (V m c (Pipeline.arrRef spec0 1)) (V m c (Pipeline.arrRef spec0 2)))
    (fun t _ => flushed3_eq m c t) fun (i : S512x1.Idx) => by
      have hi0 : (i 0).val < 512 := idx2_lt0 i
      have hi1 : (i 1).val < 1 := idx2_lt1 i
      have hq : (i 0).val / 16 < cfg0.N := by rw [N_eq]; omega
      refine ⟨⟨(i 0).val / 16, hq⟩, flush0_3 _, ?_⟩
      rw [mem_blk3]
      obtain ⟨-, -, -, -, -, -, e30, e31⟩ := idx_facts ⟨(i 0).val / 16, hq⟩
      have e30' : win0_3.index ⟨(i 0).val / 16, hq⟩ (0 : Fin 2) = (i 0).val / 16 := e30
      intro a
      match a with
      | ⟨0, _⟩ => show win0_3.index _ (0 : Fin 2) * 16 ≤ (i 0).val ∧ (i 0).val < win0_3.index _ (0 : Fin 2) * 16 + 16; rw [e30']; omega
      | ⟨1, _⟩ => show win0_3.index _ (1 : Fin 2) * 1 ≤ (i 1).val ∧ (i 1).val < win0_3.index _ (1 : Fin 2) * 1 + 1; rw [e31]; omega

/-- The scalar the lines after the launch leave: the sum of the 512 row losses, from 0, divided by 512. -/
theorem tail_eq (c : Dev nD) :
    (Pipeline.afterTail₀ cfgs (dats m) 0 (V0 m) [hostOps1] c main_v31 : S_.Idx → EReal)
      = fun _ => Ideal.div (Cert.Spec.c0 + ∑ b : Fin 512, rowLoss (V m c (Pipeline.arrRef spec0 0)) (V m c (Pipeline.arrRef spec0 1)) (V m c (Pipeline.arrRef spec0 2)) b) Cert.Spec.c512 := by
  unfold Pipeline.afterTail₀
  show StableHlo.after hostOps1 _ (Proc.devRef .tc main_v31) = _
  after_results
  have hw : (Pipeline.withArrays (cfgs 0).spec c (V0 m c) (fun w => (dats m 0 c).arrAt w (cfgs 0).N) (Proc.devRef .tc main_v29) : S512x1.Idx → EReal)
      = lossArr (V m c (Pipeline.arrRef spec0 0)) (V m c (Pipeline.arrRef spec0 1)) (V m c (Pipeline.arrRef spec0 2)) :=
    (Pipeline.withArrays_arr spec0 launch0.win.arr_inj c _ _ 3).trans (final3 m c)
  rw [hw]
  have hrow : ∀ b : Fin 512, rowLoss (V m c (Pipeline.arrRef spec0 0)) (V m c (Pipeline.arrRef spec0 1)) (V m c (Pipeline.arrRef spec0 2)) b
      = lossArr (V m c (Pipeline.arrRef spec0 0)) (V m c (Pipeline.arrRef spec0 1)) (V m c (Pipeline.arrRef spec0 2)) (ix2 b (0 : Fin 1)) := fun b => (lossArr_ix2 _ _ _ b).symm
  simp only [hrow]
  generalize lossArr (V m c (Pipeline.arrRef spec0 0)) (V m c (Pipeline.arrRef spec0 1)) (V m c (Pipeline.arrRef spec0 2)) = L
  funext i
  show FloatOps.hostDivf (Host.reduceAdd L (constant S_ .f32 0x00000000#32) reducesTo_S512x1_S_d0_1 h_S_ i) (Ideal.ofBits .f32 0x44000000#32) = _
  simp only [Host.reduceAdd, Ideal.hostReduceAdd_def, Ideal.hostDivf_def]
  rw [Ideal.hostReduceAdd_total reducesTo_S512x1_S_d0_1 (fun b => b.elim0), sum_idx2]
  simp only [Fin.sum_univ_one]
  rfl

open Cert.KernelIdeal.HostVals in
/-- With group numbers in [0, 25000) and member numbers in [0, 3), a row's loss is the specification's, at the columns the
    integer inputs name. -/
theorem rowLoss_eq (c : Dev nD) (hp : ∀ i, 0 ≤ (pA m c i).toInt ∧ (pA m c i).toInt < 25000)
    (hv : ∀ i, 0 ≤ (vA m c i).toInt ∧ (vA m c i).toInt < 3) (b : Fin 512) :
    rowLoss (V m c (Pipeline.arrRef spec0 0)) (V m c (Pipeline.arrRef spec0 1)) (V m c (Pipeline.arrRef spec0 2)) b
      = Cert.Spec.kRow (fun k : Fin 75000 => xA m c (ix2 b k)) (Cert.Spec.rowMax fun k : Fin 75000 => xA m c (ix2 b k))
          (fun j : Fin 3 => xA m c (ix2 b (Cert.Spec.grpCol (pA m c (ix1 b)) j)))
          (xA m c (ix2 b (Cert.Spec.trCol (pA m c (ix1 b)) (vA m c (ix1 b))))) := by
  have e0 : (V m c (Pipeline.arrRef spec0 0) : S512x75000.Idx → EReal) = xA m c := V_main_arg0 m c
  have e1 : ∀ j : Fin 3, (V m c (Pipeline.arrRef spec0 1) : S512x3.Idx → EReal) (ix2 b j)
      = xA m c (ix2 b (Cert.Spec.grpCol (pA m c (ix1 b)) j)) := fun j => V_grp m c hp b j
  have e2 : (V m c (Pipeline.arrRef spec0 2) : S512x1.Idx → EReal) (ix2 b (0 : Fin 1))
      = xA m c (ix2 b (Cert.Spec.trCol (pA m c (ix1 b)) (vA m c (ix1 b)))) := V_true m c hp hv b
  unfold rowLoss
  rw [e0, e2]
  simp only [e1]

open Cert.KernelIdeal.HostVals in
/-- THE RUN, READ: every execution ends with the result at the streaming form of the loss, the arguments unchanged. -/
theorem run (hp : ∀ c i, 0 ≤ (pA m c i).toInt ∧ (pA m c i).toInt < 25000)
    (hv : ∀ c i, 0 ≤ (vA m c i).toInt ∧ (vA m c i).toInt < 3) :
    θ_run defs (onTc (τ := τ) (main (F := Ideal))) ⟨m, fun _ => 0, ρ⟩ (fun r => ∀ c : Dev nD,
      r.2.mem ((c.tc : Thread nD τ).loc main_v31)
          = (fun _ => Cert.Spec.kRes (fun b k => xA m c (ix2 b k)) (fun b => Cert.Spec.grpCol (pA m c (ix1 b)))
              (fun b => Cert.Spec.trCol (pA m c (ix1 b)) (vA m c (ix1 b))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      (((h c).2 main_v31 (Pipeline.mem_restRefs_of main_v31 (by decide) (by decide))).trans (tail_eq m c)).trans
        (funext fun _ => by
          unfold Cert.Spec.kRes
          simp only [rowLoss_eq m c (hp c) (hv c)]),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.PreFacts.lean ====
/-
  What the precondition says, element by element: every logit is a real number, every group number lies in
  [0, 25000) and every member number in [0, 3).
-/
import proofs.«408677_j82240033784032_3_alg».proof.Pre_finite_inputs
import Idealize.ShloMosaic.PureOps.Ideal
import Idealize.ShloMosaic.Lib.ReduceAll
import proofs.«408677_j82240033784032_3_alg».proof.Proof.Consts

noncomputable section

namespace Cert.PreFacts

open Idealize.ShloMosaic

/-- An extended real whose absolute value lies strictly below the top element is a real number. -/
theorem real_of_abs_lt_top (a : EReal) (ha : max a (-a) < ⊤) : ∃ r : ℝ, a = (r : EReal) := by
  induction a using EReal.rec with
  | bot => simp at ha
  | coe r => exact ⟨r, rfl⟩
  | top => simp at ha

/-- A one-bit word spelling a decidable proposition is one only when the proposition holds. -/
theorem of_ofBool_decide_eq_one {q : Prop} [Decidable q] (h : BitVec.ofBool (decide q) = 1#1) : q := by
  by_cases hq : q
  · exact hq
  · simp [hq] at h

/-- The printed predicate is all ones exactly when its five conjuncts hold of every element. -/
theorem decode [Cert.Pre_finite_inputs.Facts] (x : FVec Ideal Cert.Pre_finite_inputs.S512x75000 .f32)
    (p v : IVec Cert.Pre_finite_inputs.S512 32)
    (h : Cert.Pre_finite_inputs.fn (F := Ideal) x p v = fun _ => 1#1) :
    (∀ i, ∃ r : ℝ, x i = (r : EReal)) ∧ (∀ i, 0 ≤ (p i).toInt ∧ (p i).toInt < 25000)
      ∧ (∀ i, 0 ≤ (v i).toInt ∧ (v i).toInt < 3) := by
  haveI : Subsingleton Cert.Pre_finite_inputs.S_.Idx := ⟨fun a b => funext fun d => d.elim0⟩
  -- the scalar result read at its one index: a conjunction of five one-bit words
  have h0 := congrFun h (fun d => d.elim0)
  simp only [Cert.Pre_finite_inputs.fn, Cert.Pre_finite_inputs.fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  -- each conjunct is a fold by `and` over a whole array: every element of it is one
  have e1 := Host.reduce_andi_all _ _ _ _ _ h1
  have e2 := Host.reduce_andi_all _ _ _ _ _ h2
  have e3 := Host.reduce_andi_all _ _ _ _ _ h3
  have e4 := Host.reduce_andi_all _ _ _ _ _ h4
  have e5 := Host.reduce_andi_all _ _ _ _ _ h5
  have c0 : (0#32).toInt = 0 := by decide
  have c3 : (3#32).toInt = 3 := by decide
  have c25000 : (25000#32).toInt = 25000 := by decide
  refine ⟨fun i => ?_, fun i => ⟨?_, ?_⟩, fun i => ⟨?_, ?_⟩⟩
  · -- |x i| < +∞, so x i is neither infinity
    have hc : BitVec.ofBool (decide (max (x i : EReal) (-(x i : EReal)) < Ideal.ofBits .f32 0x7F800000#32)) = 1#1 := e1 i
    have hlt := of_ofBool_decide_eq_one hc
    rw [Cert.Consts.posInf_eq] at hlt
    exact real_of_abs_lt_top _ hlt
  · have hc : IntOp.cmpi .sge (p i) (0#32) = 1#1 := e2 i
    have := IntOp.cmpi_sge.1 hc
    omega
  · have hc : IntOp.cmpi .slt (p i) (25000#32) = 1#1 := e3 i
    have := IntOp.cmpi_slt.1 hc
    omega
  · have hc : IntOp.cmpi .sge (v i) (0#32) = 1#1 := e4 i
    have := IntOp.cmpi_sge.1 hc
    omega
  · have hc : IntOp.cmpi .slt (v i) (3#32) = 1#1 := e5 i
    have := IntOp.cmpi_slt.1 hc
    omega

end Cert.PreFacts

end
-- ==== Proof.AlgebraRow.lean ====
/-
  One row of the loss: the closed form over the row's sums is the sum over the classes of the class-by-class form.
  With finite logits everything is a real number: `exp (a - log s) = exp a · (1 / s)` for `s > 0`, the 75000 classes'
  log-probabilities sum to `∑ (x k - m) - 75000 · log s`, the group's three to `∑ x g - 3 (m + log s)`, and the target's
  three levels split the sum over the classes into (all − group), (group − true) and the true class.
-/
import proofs.«408677_j82240033784032_3_alg».proof.Proof.Spec
import proofs.«408677_j82240033784032_3_alg».proof.Proof.Consts

noncomputable section

open scoped BigOperators

namespace Cert.AlgebraRow

open Idealize.ShloMosaic Cert.Spec

/-! ## The float words as real numbers -/

private theorem c0_eq : c0 = ((0 : ℝ) : EReal) := Cert.Consts.c0_eq.trans EReal.coe_zero.symm

private theorem c1_eq : c1 = ((1 : ℝ) : EReal) := Cert.Consts.c1_eq

private theorem c3_eq : c3 = ((3 : ℝ) : EReal) := Cert.Consts.c3_eq

private theorem cK_eq : cK = ((75000 : ℝ) : EReal) := Cert.Consts.cK_eq

private theorem cD_eq : cD = ((74997 : ℝ) : EReal) := Cert.Consts.cD_eq

/-- The smoothing weight is some real number; the identity below holds whatever it is. -/
private theorem cAlpha_real : ∃ a : ℝ, cAlpha = (a : EReal) := ⟨_, Cert.Consts.cAlpha_eq⟩

private theorem cHalf_real : ∃ h : ℝ, cHalf = (h : EReal) := ⟨_, Cert.Consts.cHalf_eq⟩

private theorem cEK_real : ∃ e : ℝ, cEK = (e : EReal) := ⟨_, Cert.Consts.cEK_eq⟩

/-- The two words of opposite sign denote opposite real numbers. -/
private theorem c09_real : ∃ n : ℝ, c09 = (n : EReal) ∧ cNeg09 = ((-n : ℝ) : EReal) :=
  ⟨_, Cert.Consts.c09_eq, Cert.Consts.cNeg09_eq⟩

/-! ## Finite sums of real numbers, inside the extended reals -/

private theorem coe_sum {ι : Type} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-! ## The real-number counterparts of the row's quantities -/

/-- `∑ exp (x k - m)` over the reals. -/
private def sR (xr : Fin 75000 → ℝ) (mr : ℝ) : ℝ := ∑ k : Fin 75000, Real.exp (xr k - mr)

private theorem sR_pos (xr : Fin 75000 → ℝ) (mr : ℝ) : 0 < sR xr mr :=
  Finset.sum_pos (fun k _ => Real.exp_pos _) ⟨⟨0, by norm_num⟩, Finset.mem_univ _⟩

/-- The log-probability of class `k`. -/
private def lpR (xr : Fin 75000 → ℝ) (mr : ℝ) (k : Fin 75000) : ℝ := (xr k - mr) - Real.log (sR xr mr)

/-- The sum of the 75000 log-probabilities, in the closed form. -/
private def sumLpR (xr : Fin 75000 → ℝ) (mr : ℝ) : ℝ :=
  (∑ k : Fin 75000, (xr k - mr)) - 75000 * Real.log (sR xr mr)

private def e1R (a : ℝ) (xr : Fin 75000 → ℝ) (mr : ℝ) (g : Fin 3 → Fin 75000) : ℝ :=
  a * (1 - (0 + ∑ j : Fin 3, Real.exp (lpR xr mr (g j))))

private def e2R (a : ℝ) (xr : Fin 75000 → ℝ) (mr : ℝ) (tr : Fin 75000) : ℝ :=
  a * (1 - Real.exp (lpR xr mr tr))

/-- The smoothed target of class `k`, with the two words `a`, `h` as parameters. -/
private def tR (a h : ℝ) (xr : Fin 75000 → ℝ) (mr : ℝ) (g : Fin 3 → Fin 75000) (tr k : Fin 75000) : ℝ :=
  if k = tr then (1 - e1R a xr mr g) - e2R a xr mr tr
  else if ∃ j, k = g j then h * e2R a xr mr tr
  else e1R a xr mr g * (1 / 74997)

/-- The closed form of one row's loss over the reals. -/
private def kRowR (a h n e : ℝ) (xr : Fin 75000 → ℝ) (mr : ℝ) (gx : Fin 3 → ℝ) (xt : ℝ) : ℝ :=
  (-n) * (((a * (1 - (∑ j : Fin 3, Real.exp (gx j - mr)) * (1 * (1 / sR xr mr)))) * (1 / 74997))
            * (sumLpR xr mr - ((∑ j : Fin 3, gx j) - 3 * (mr + Real.log (sR xr mr))))
          + (h * (a * (1 - Real.exp (xt - mr) * (1 * (1 / sR xr mr)))))
            * (((∑ j : Fin 3, gx j) - 3 * (mr + Real.log (sR xr mr))) - (xt - mr - Real.log (sR xr mr)))
          + (1 - a * (1 - (∑ j : Fin 3, Real.exp (gx j - mr)) * (1 * (1 / sR xr mr)))
               - a * (1 - Real.exp (xt - mr) * (1 * (1 / sR xr mr))))
            * (xt - mr - Real.log (sR xr mr)))
    - e * sumLpR xr mr

/-! ## Transfer: each quantity of the specification is the coercion of its real counterpart -/

private theorem kS_coe (xr : Fin 75000 → ℝ) (mr : ℝ) :
    kS (fun k => (xr k : EReal)) (mr : EReal) = ((sR xr mr : ℝ) : EReal) := by
  simp only [kS, sR, ← coe_sum]
  refine Finset.sum_congr rfl fun k _ => ?_
  rw [← EReal.coe_sub, Ideal.exp_coe]

private theorem log_sR_coe (xr : Fin 75000 → ℝ) (mr : ℝ) :
    Ideal.log ((sR xr mr : ℝ) : EReal) = ((Real.log (sR xr mr) : ℝ) : EReal) := by
  rw [Ideal.log_coe, if_neg (not_le.mpr (sR_pos xr mr))]

private theorem rLp_coe (xr : Fin 75000 → ℝ) (mr : ℝ) (k : Fin 75000) :
    rLp (fun k => (xr k : EReal)) (mr : EReal) k = ((lpR xr mr k : ℝ) : EReal) := by
  have h : (c0 + ∑ k' : Fin 75000, Ideal.exp ((xr k' : EReal) - (mr : EReal))) = ((sR xr mr : ℝ) : EReal) := by
    rw [c0_eq, EReal.coe_zero, zero_add]; exact kS_coe xr mr
  simp only [rLp, lpR]
  rw [h, log_sR_coe, ← EReal.coe_sub, ← EReal.coe_sub]

private theorem rP_coe (xr : Fin 75000 → ℝ) (mr : ℝ) (k : Fin 75000) :
    rP (fun k => (xr k : EReal)) (mr : EReal) k = ((Real.exp (lpR xr mr k) : ℝ) : EReal) := by
  rw [rP, rLp_coe, Ideal.exp_coe]

private theorem rEp1_coe {a : ℝ} (ha : cAlpha = (a : EReal)) (xr : Fin 75000 → ℝ) (mr : ℝ) (g : Fin 3 → Fin 75000) :
    rEp1 (fun k => (xr k : EReal)) (mr : EReal) g = ((e1R a xr mr g : ℝ) : EReal) := by
  simp only [rEp1, e1R, rP_coe, coe_sum]
  rw [ha, c0_eq, c1_eq, ← EReal.coe_add, ← EReal.coe_sub, ← EReal.coe_mul]

private theorem rEp2_coe {a : ℝ} (ha : cAlpha = (a : EReal)) (xr : Fin 75000 → ℝ) (mr : ℝ) (tr : Fin 75000) :
    rEp2 (fun k => (xr k : EReal)) (mr : EReal) tr = ((e2R a xr mr tr : ℝ) : EReal) := by
  simp only [rEp2, e2R, rP_coe]
  rw [ha, c1_eq, ← EReal.coe_sub, ← EReal.coe_mul]

private theorem rT_coe {a h : ℝ} (ha : cAlpha = (a : EReal)) (hh : cHalf = (h : EReal))
    (xr : Fin 75000 → ℝ) (mr : ℝ) (g : Fin 3 → Fin 75000) (tr k : Fin 75000) :
    rT (fun k => (xr k : EReal)) (mr : EReal) g tr k = ((tR a h xr mr g tr k : ℝ) : EReal) := by
  simp only [rT, tR]
  rw [rEp1_coe ha, rEp2_coe ha, hh, c1_eq, cD_eq, Ideal.div_coe (by norm_num)]
  split_ifs
  · rw [EReal.coe_sub, EReal.coe_sub]
  · rw [EReal.coe_mul]
  · rw [EReal.coe_mul]

private theorem rF_coe {a h n e : ℝ} (ha : cAlpha = (a : EReal)) (hh : cHalf = (h : EReal))
    (hn : c09 = (n : EReal)) (he : cEK = (e : EReal))
    (xr : Fin 75000 → ℝ) (mr : ℝ) (g : Fin 3 → Fin 75000) (tr k : Fin 75000) :
    rF (fun k => (xr k : EReal)) (mr : EReal) g tr k
      = (((-(n * tR a h xr mr g tr k + e)) * lpR xr mr k : ℝ) : EReal) := by
  rw [rF, rT_coe ha hh, rLp_coe, hn, he, ← EReal.coe_mul, ← EReal.coe_add, ← EReal.coe_neg, ← EReal.coe_mul]

/-- Every class's summand is a real number when the logits and the shift are. -/
theorem rF_real (xr : Fin 75000 → ℝ) (mr : ℝ) (g : Fin 3 → Fin 75000) (tr : Fin 75000) (k : Fin 75000) :
    ∃ r : ℝ, rF (fun k => (xr k : EReal)) (mr : EReal) g tr k = (r : EReal) := by
  obtain ⟨a, ha⟩ := cAlpha_real
  obtain ⟨h, hh⟩ := cHalf_real
  obtain ⟨e, he⟩ := cEK_real
  obtain ⟨n, hn, -⟩ := c09_real
  exact ⟨_, rF_coe ha hh hn he xr mr g tr k⟩

/-! ## The closed form, transferred -/

private theorem kSumLp_coe (xr : Fin 75000 → ℝ) (mr : ℝ) :
    kSumLp (fun k => (xr k : EReal)) (mr : EReal) = ((sumLpR xr mr : ℝ) : EReal) := by
  simp only [kSumLp, sumLpR, kS_coe, log_sR_coe, cK_eq, ← EReal.coe_sub, coe_sum, ← EReal.coe_mul]

private theorem kRow_coe {a h n e : ℝ} (ha : cAlpha = (a : EReal)) (hh : cHalf = (h : EReal))
    (hn : cNeg09 = ((-n : ℝ) : EReal)) (he : cEK = (e : EReal))
    (xr : Fin 75000 → ℝ) (mr : ℝ) (gx : Fin 3 → ℝ) (xt : ℝ) :
    kRow (fun k => (xr k : EReal)) (mr : EReal) (fun j => (gx j : EReal)) (xt : EReal)
      = ((kRowR a h n e xr mr gx xt : ℝ) : EReal) := by
  simp only [kRow, kRowR, kS_coe, log_sR_coe, kSumLp_coe, ha, hh, hn, he, c1_eq, c3_eq,
    Ideal.div_coe (sR_pos xr mr).ne', ← EReal.coe_sub, Ideal.exp_coe, coe_sum, ← EReal.coe_mul, ← EReal.coe_add]

/-! ## The algebra over the reals -/

/-- `exp (a - log s) = exp a · (1 / s)`. -/
private theorem exp_lpR (xr : Fin 75000 → ℝ) (mr : ℝ) (k : Fin 75000) :
    Real.exp (lpR xr mr k) = Real.exp (xr k - mr) * (1 / sR xr mr) := by
  rw [lpR, Real.exp_sub, Real.exp_log (sR_pos xr mr)]; ring

/-- The 75000 log-probabilities sum to the closed form. -/
private theorem sum_lpR (xr : Fin 75000 → ℝ) (mr : ℝ) : ∑ k : Fin 75000, lpR xr mr k = sumLpR xr mr := by
  simp only [lpR, sumLpR]
  rw [Finset.sum_sub_distrib, Finset.sum_const, Finset.card_univ, Fintype.card_fin, nsmul_eq_mul]
  norm_num

/-- A weight with three levels — `A` at the true class, `B` on the rest of the group, `C` elsewhere — splits the
    sum over the classes into the sum over all classes, the group's, and the true class's term. -/
private theorem sum_three_levels (g : Fin 3 → Fin 75000) (hg : Function.Injective g) (vv : Fin 3) (A B C : ℝ)
    (f : Fin 75000 → ℝ) :
    ∑ k : Fin 75000, (if k = g vv then A else if ∃ j, k = g j then B else C) * f k
      = C * ∑ k : Fin 75000, f k + (B - C) * ∑ j : Fin 3, f (g j) + (A - B) * f (g vv) := by
  have h1 : ∀ k : Fin 75000, (if k = g vv then A else if ∃ j, k = g j then B else C) * f k
      = C * f k + (B - C) * (if k ∈ Finset.univ.image g then f k else 0)
        + (A - B) * (if k = g vv then f k else 0) := by
    intro k
    by_cases hk : k = g vv
    · have hm : k ∈ Finset.univ.image g := by rw [hk]; exact Finset.mem_image_of_mem g (Finset.mem_univ _)
      rw [if_pos hk, if_pos hm, if_pos hk]; ring
    · by_cases hj : ∃ j, k = g j
      · have hm : k ∈ Finset.univ.image g := by
          obtain ⟨j, rfl⟩ := hj; exact Finset.mem_image_of_mem g (Finset.mem_univ _)
        rw [if_neg hk, if_pos hj, if_pos hm, if_neg hk]; ring
      · have hm : k ∉ Finset.univ.image g := by
          intro hmem
          obtain ⟨j, -, hjk⟩ := Finset.mem_image.mp hmem
          exact hj ⟨j, hjk.symm⟩
        rw [if_neg hk, if_neg hj, if_neg hm, if_neg hk]; ring
  rw [Finset.sum_congr rfl (fun k _ => h1 k), Finset.sum_add_distrib, Finset.sum_add_distrib,
    ← Finset.mul_sum, ← Finset.mul_sum, ← Finset.mul_sum, Finset.sum_ite_mem, Finset.univ_inter,
    Finset.sum_image (fun _ _ _ _ h => hg h), Finset.sum_ite_eq' Finset.univ (g vv) f, if_pos (Finset.mem_univ _)]

/-- The row identity over the reals, for any values of the four words that are not exact. -/
private theorem row_identity_real (a h n e : ℝ) (xr : Fin 75000 → ℝ) (mr : ℝ) (g : Fin 3 → Fin 75000)
    (hg : Function.Injective g) (vv : Fin 3) :
    kRowR a h n e xr mr (fun j => xr (g j)) (xr (g vv))
      = ∑ k : Fin 75000, (-(n * tR a h xr mr g (g vv) k + e)) * lpR xr mr k := by
  have hsplit : ∀ k : Fin 75000, (-(n * tR a h xr mr g (g vv) k + e)) * lpR xr mr k
      = (-n) * (tR a h xr mr g (g vv) k * lpR xr mr k) - e * lpR xr mr k := fun k => by ring
  rw [Finset.sum_congr rfl (fun k _ => hsplit k), Finset.sum_sub_distrib, ← Finset.mul_sum, ← Finset.mul_sum,
    sum_lpR]
  simp only [tR]
  rw [sum_three_levels g hg vv, sum_lpR]
  have hgrp : ∑ j : Fin 3, lpR xr mr (g j)
      = (∑ j : Fin 3, xr (g j)) - 3 * (mr + Real.log (sR xr mr)) := by
    simp only [lpR, Fin.sum_univ_three]; ring
  have hP : ∑ j : Fin 3, Real.exp (lpR xr mr (g j))
      = (∑ j : Fin 3, Real.exp (xr (g j) - mr)) * (1 / sR xr mr) := by
    rw [Finset.sum_mul]; exact Finset.sum_congr rfl fun j _ => exp_lpR xr mr (g j)
  rw [hgrp]
  simp only [kRowR, e1R, e2R, hP, exp_lpR xr mr (g vv)]
  simp only [lpR]
  ring

/-- The row identity. `g` lists the group's three distinct columns; the true column is the group's member `vv`. -/
theorem row_identity (xr : Fin 75000 → ℝ) (mr : ℝ) (g : Fin 3 → Fin 75000) (hg : Function.Injective g) (vv : Fin 3) :
    kRow (fun k => (xr k : EReal)) (mr : EReal) (fun j => (xr (g j) : EReal)) ((xr (g vv) : ℝ) : EReal)
      = ∑ k : Fin 75000, rF (fun k => (xr k : EReal)) (mr : EReal) g (g vv) k := by
  obtain ⟨a, ha⟩ := cAlpha_real
  obtain ⟨h, hh⟩ := cHalf_real
  obtain ⟨e, he⟩ := cEK_real
  obtain ⟨n, hn, hn'⟩ := c09_real
  rw [kRow_coe ha hh hn' he, Finset.sum_congr rfl (fun k _ => rF_coe ha hh hn he xr mr g (g vv) k), coe_sum,
    row_identity_real a h n e xr mr g hg vv]

end Cert.AlgebraRow

end
-- ==== Proof.AlgebraBatch.lean ====
/-
  From rows to the batch: the mean over the batch of the row losses is the sum over the classes of the per-class batch
  means (a finite double sum of real numbers, divided by 512 termwise or at the end), and the columns the integer inputs
  name.
-/
import proofs.«408677_j82240033784032_3_alg».proof.Proof.Spec
import proofs.«408677_j82240033784032_3_alg».proof.Proof.AlgebraRow
import proofs.«408677_j82240033784032_3_alg».proof.Proof.Consts

noncomputable section

open scoped BigOperators

namespace Cert.AlgebraBatch

open Idealize.ShloMosaic Cert.Spec

/-- A `max`-fold from `-∞` of real numbers over a nonempty finite set is a real number. -/
theorem fold_max_real {ι : Type*} [DecidableEq ι] (xr : ι → ℝ) (s : Finset ι) (hs : s.Nonempty) :
    ∃ r : ℝ, s.fold max ⊥ (fun k => (xr k : EReal)) = (r : EReal) := by
  induction s using Finset.induction_on with
  | empty => exact absurd hs Finset.not_nonempty_empty
  | insert a s ha ih =>
    rw [Finset.fold_insert ha]
    rcases s.eq_empty_or_nonempty with h | h
    · subst h
      exact ⟨xr a, by rw [Finset.fold_empty, max_bot_right]⟩
    · obtain ⟨r, hr⟩ := ih h
      exact ⟨max (xr a) r, by rw [hr]; exact (EReal.coe_strictMono.monotone.map_max).symm⟩

/-- The maximum of a row of real numbers is a real number. -/
theorem rowMax_real (xr : Fin 75000 → ℝ) : ∃ mr : ℝ, rowMax (fun k => (xr k : EReal)) = (mr : EReal) := by
  unfold rowMax
  exact fold_max_real xr Finset.univ ⟨⟨0, by decide⟩, Finset.mem_univ _⟩

/-- The three columns of a group are distinct (no wrap: 3 · 24999 + 2 < 75000). -/
theorem grpCol_injective (p : BitVec 32) (hp : p.toNat < 25000) : Function.Injective (grpCol p) := by
  intro j₁ j₂ h
  unfold grpCol at h
  rw [Fin.mk.injEq] at h
  have h₁ := j₁.isLt
  have h₂ := j₂.isLt
  apply Fin.ext
  omega

/-- The true column is the group's member `v`. -/
theorem trCol_eq_grpCol (p v : BitVec 32) (hv : v.toNat < 3) : trCol p v = grpCol p ⟨v.toNat, hv⟩ := by
  rfl

/-- A finite sum of real numbers, read in the extended reals, is the sum of the readings. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The two batch means agree. -/
theorem bridge (xr : Fin 512 → Fin 75000 → ℝ) (g : Fin 512 → Fin 3 → Fin 75000) (hg : ∀ b, Function.Injective (g b))
    (vv : Fin 512 → Fin 3) :
    kRes (fun b k => (xr b k : EReal)) g (fun b => g b (vv b)) = rRes (fun b k => (xr b k : EReal)) g (fun b => g b (vv b)) := by
  choose mr hm using fun b => rowMax_real (xr b)
  choose fr hfr using fun b k => AlgebraRow.rF_real (xr b) (mr b) (g b) (g b (vv b)) k
  have hrow : ∀ b, kRow (fun k => (xr b k : EReal)) (mr b : EReal) (fun j => (xr b (g b j) : EReal))
      ((xr b (g b (vv b)) : ℝ) : EReal) = ((∑ k, fr b k : ℝ) : EReal) := by
    intro b
    rw [AlgebraRow.row_identity (xr b) (mr b) (g b) (hg b) (vv b), ← coe_sum]
    exact Finset.sum_congr rfl fun k _ => hfr b k
  unfold kRes rRes
  simp only [hm, hrow, hfr, Consts.c0_eq, Consts.c512_eq, zero_add, coe_sum,
    Ideal.div_coe (by norm_num : (512 : ℝ) ≠ 0), ← EReal.coe_mul]
  rw [EReal.coe_eq_coe_iff, Finset.sum_comm, Finset.sum_mul]

end Cert.AlgebraBatch

end
-- ==== Proof.lean ====
/-
  The certificate. Both programs compute a label-smoothing loss over 512 samples and 75000 classes (25000 groups of
  three): the streaming program from each row's sums in closed form, the reference class by class from the smoothed
  target. Under the precondition the logits are real numbers, every group number lies in [0, 25000) and every member
  number in [0, 3); then the wrapper's clips do nothing, the three gathered group logits and the true-class logit are
  the logits at columns 3 p + j and 3 p + v, the reference's two gathers and two scatters read and write those same
  columns, and one row's closed form is the sum over the classes of the class-by-class form (`exp (a - log s) = exp a / s`
  for `s > 0`; the target's three levels split the sum into all − group, group − true, true). The kernel's folded
  reciprocal is named 1/74997, the reference's divisor.
-/
import proofs.«408677_j82240033784032_3_alg».proof.Defs
import proofs.«408677_j82240033784032_3_alg».proof.Proof.Gen.Kernel
import proofs.«408677_j82240033784032_3_alg».proof.Proof.Gen.Kernel.Skeleton
import proofs.«408677_j82240033784032_3_alg».proof.Proof.Gen.Kernel.Launch
import proofs.«408677_j82240033784032_3_alg».proof.Proof.Gen.Kernel.Points
import proofs.«408677_j82240033784032_3_alg».proof.Proof.Gen.Kernel.Frame
import proofs.«408677_j82240033784032_3_alg».proof.Proof.Gen.KernelIdeal
import proofs.«408677_j82240033784032_3_alg».proof.Proof.Gen.KernelIdeal.Skeleton
import proofs.«408677_j82240033784032_3_alg».proof.Proof.Gen.KernelIdeal.Launch
import proofs.«408677_j82240033784032_3_alg».proof.Proof.Gen.KernelIdeal.Points
import proofs.«408677_j82240033784032_3_alg».proof.Proof.Gen.KernelIdeal.Frame
import proofs.«408677_j82240033784032_3_alg».proof.Proof.Gen.ReferenceIdeal
import proofs.«408677_j82240033784032_3_alg».proof.Proof.Gen.Pre_finite_inputs
import proofs.«408677_j82240033784032_3_alg».proof.Proof.RefRun
import proofs.«408677_j82240033784032_3_alg».proof.Proof.RefRead
import proofs.«408677_j82240033784032_3_alg».proof.Proof.RefValue
import proofs.«408677_j82240033784032_3_alg».proof.Proof.KernelValue
import proofs.«408677_j82240033784032_3_alg».proof.Proof.PreFacts
import proofs.«408677_j82240033784032_3_alg».proof.Proof.AlgebraBatch
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the folded reciprocal `f32(1/74997)` is read as 1/74997. -/
theorem preserves : Cert.preserves_Kernel_KernelIdeal :=
  IdealRules.named_const.statement Cert.KernelIdeal.κ "fold_inv_74997" .f32 0x375FB485#32 ((1 / 74997 : ℝ) : EReal) rfl

/-- The two results agree: the streaming form and the class-by-class form of the batch mean are one number. -/
theorem algebraic : Cert.algebraic_KernelIdeal_ReferenceIdeal := by
  intro m ρ m' ρ' hpre hagree
  -- what the precondition says of the launch contents of every core
  have hd := fun c => Cert.PreFacts.decode _ _ _ (hpre c)
  have hp : ∀ c i, 0 ≤ (Cert.KernelIdeal.HostVals.pA m c i).toInt ∧ (Cert.KernelIdeal.HostVals.pA m c i).toInt < 25000 :=
    fun c => (hd c).2.1
  have hv : ∀ c i, 0 ≤ (Cert.KernelIdeal.HostVals.vA m c i).toInt ∧ (Cert.KernelIdeal.HostVals.vA m c i).toInt < 3 :=
    fun c => (hd c).2.2
  refine ⟨_, Cert.KernelIdeal.Result.run m ρ hp hv, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v107_eq, (hagree c).1, (hagree c).2.1, (hagree c).2.2]
  rw [Cert.ReferenceIdeal.Result.ref_value _ _ _ (hp c) (hv c)]
  funext _
  -- the logits are real numbers; the group's columns are distinct and the true column is one of them
  obtain ⟨hx, -, -⟩ := hd c
  choose xr hxr using hx
  have hpn : ∀ b : Fin 512, (Cert.KernelIdeal.HostVals.pA m c (ix1 b)).toNat < 25000 := fun b => by
    have := hp c (ix1 b); rw [BitVec.toInt_eq_toNat_cond] at this; split at this <;> omega
  have hvn : ∀ b : Fin 512, (Cert.KernelIdeal.HostVals.vA m c (ix1 b)).toNat < 3 := fun b => by
    have := hv c (ix1 b); rw [BitVec.toInt_eq_toNat_cond] at this; split at this <;> omega
  have hb := Cert.AlgebraBatch.bridge (fun b k => xr (ix2 b k))
    (fun b => Cert.Spec.grpCol (Cert.KernelIdeal.HostVals.pA m c (ix1 b)))
    (fun b => Cert.AlgebraBatch.grpCol_injective _ (hpn b)) (fun b => ⟨_, hvn b⟩)
  simp only [← Cert.AlgebraBatch.trCol_eq_grpCol, ← hxr] at hb
  exact hb.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
